-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256 .f32) (main_arg9 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256 .f32) (main_arg7 : FVec F S256x256 .f32) (main_arg8 : FVec F S256 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S10000x256 .f32) (main_arg1 : IVec S2x320000 32) (main_arg2 : FVec F S320000x256 .f32) (main_arg3 : FVec F S256x256 .f32) (main_arg4 : FVec F S256 .f32) (main_arg5 : FVec F S256 .f32) (main_arg6 : FVec F S256 .f32) (main_arg7 : FVec F S256x256 .f32) (main_arg8 : FVec F S256 .f32) (main_arg9 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg2
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S10000x256 : Shape := ⟨2, ![10000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x256 : Shape := ⟨2, ![1, 256]⟩
abbrev S1x1 : Shape := ⟨2, ![1, 1]⟩
abbrev S2000x256 : Shape := ⟨2, ![2000, 256]⟩

abbrev nBuf : Space → Nat
  | .hbm => 37
  | .vmem => 23
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x1, .f32⟩
  | .hbm, ⟨33, _⟩ => ⟨S10000x256, .f32⟩
  | .hbm, ⟨34, _⟩ => ⟨S1x256, .f32⟩
  | .hbm, ⟨35, _⟩ => ⟨S1x256, .f32⟩
  | .hbm, ⟨36, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S1x1, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S2000x256, .f32⟩
  | .local _ .vmem, ⟨22, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v37 : BitVec 1 := Scalar.cmpi .eq arg0 c4_i32
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  shapeCasts_S256_S1x256 : S256.ShapeCasts S1x256
  shapeCasts_S1_S1x1 : S1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x256_S2000x256_0_0 : ∀ a, (![0, 0] : Fin 2 → Nat) a + S2000x256.size a ≤ S2000x256.size a
  h_S2000x256 : 0 < S2000x256.numel
  broadcasts_S1x1_S2000x256 : S1x1.Broadcasts S2000x256
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S1x256_S2000x256 : S1x256.Broadcasts S2000x256
  reduces_S2000x256_S256 : S2000x256.Reduces [0] S256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S10000x256.size a
  hwx0_1 : ∀ i : grid0.Coords, EltTy.bits .f32 = 32 ∨ (Rect.block (s := S10000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S10000x256.size a
  hwx0_5 : ∀ i : grid0.Coords, EltTy.bits .f32 = 32 ∨ (Rect.block (s := S10000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S10000x256.size a
  hwx1_7 : ∀ i : grid1.Coords, EltTy.bits .f32 = 32 ∨ (Rect.block (s := S10000x256) S2000x256.size (cc1_transform_7 i) (hinb1_7 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v20_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20_2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S1x256 : Shape := ⟨2, ![1, 256]⟩

abbrev nBuf : Space → Nat
  | .hbm => 76
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S10000x256, .f32⟩
  | .hbm, ⟨48, _⟩ => ⟨S_, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S10000x256, .f32⟩
  | .hbm, ⟨55, _⟩ => ⟨S10000x256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S1x256, .f32⟩
  | .hbm, ⟨61, _⟩ => ⟨S10000x256, .f32⟩
  | .hbm, ⟨62, _⟩ => ⟨S10000x256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S1x256, .f32⟩
  | .hbm, ⟨67, _⟩ => ⟨S10000x256, .f32⟩
  | .hbm, ⟨68, _⟩ => ⟨S10000x256, .f32⟩
  | .hbm, ⟨69, _⟩ => ⟨S_, .f32⟩
  | .hbm, ⟨70, _⟩ => ⟨S10000x256, .f32⟩
  | .hbm, ⟨71, _⟩ => ⟨S10000x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S1 : S_.BroadcastsInDim S1 (![] : Fin 0 → Fin S1.rank)
  bcast_S1_S1x1_1 : S1.BroadcastsInDim S1x1 (![1] : Fin 1 → Fin S1x1.rank)
  bcast_S1x1_S10000x256_0_1 : S1x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KbData.lean ====
/-
  The shared data of the two kernel regions, at any float instance.

  Region 0 walks the 10000 rows in five blocks of 2000. At each block it forms the GIN pre-activation
  (1 + eps) * x + agg, applies the first dense layer (rows0), adds the block's column sums of that
  result and of its squares into two running rows kept in scratch memory (acc0), and at the last block
  divides both by the row count to leave the batch mean and the variance E[y^2] - E[y]^2.
  Region 1 walks the same five blocks: it normalises each row with those statistics, rectifies it and
  applies the second dense layer.

  Here: each window's block at a grid point as the region finds its array; what the body leaves in every
  staging buffer after a point; the region invariant, which from the first point on holds the two scratch
  rows at the running sums; and the proof data of both pipelines over these.
-/
import proofs.«152078_j21801253995167_1_alg».proof.Proof.Gen.Kernel.Launch
import proofs.«152078_j21801253995167_1_alg».proof.Proof.Gen.Kernel.Skeleton
import proofs.«152078_j21801253995167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when a region is entered: every definition below is stated at this parameter
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first dense layer on the 2000 rows of point `t`: ((1 + eps) * x + agg) W1 + b1. -/
def rows0 (c : Dev nD) (t : Fin cfg0.N) : Vec F S2000x256 .f32 :=
  k0_pay6 (iblk0 V c 2 t) (iblk0 V c 0 t) (iblk0 V c 1 t) (iblk0 V c 3 t) (iblk0 V c 4 t)

/-- The column sums of the squares of those rows. -/
def sqsum0 (c : Dev nD) (t : Fin cfg0.N) : FVec F S256 .f32 :=
  k0_pay8 (iblk0 V c 2 t) (iblk0 V c 0 t) (iblk0 V c 1 t) (iblk0 V c 3 t) (iblk0 V c 4 t)

/-- The two scratch rows after the body at position `n`: the running column sums of the dense layer's rows and of
    their squares, started from zero at the first point. -/
def acc0 (c : Dev nD) : (n : ℕ) → n < cfg0.N → Vec F S1x256 .f32 × Vec F S1x256 .f32
  | 0, hn =>
    (k0_pay7 (iblk0 V c 2 ⟨0, hn⟩) (iblk0 V c 0 ⟨0, hn⟩) (iblk0 V c 1 ⟨0, hn⟩) (iblk0 V c 3 ⟨0, hn⟩) (iblk0 V c 4 ⟨0, hn⟩) (k0_pay4 (F := F)),
     k0_pay1 (k0_pay5 (F := F)) (sqsum0 V c ⟨0, hn⟩))
  | n + 1, hn =>
    (k0_pay7 (iblk0 V c 2 ⟨n + 1, hn⟩) (iblk0 V c 0 ⟨n + 1, hn⟩) (iblk0 V c 1 ⟨n + 1, hn⟩) (iblk0 V c 3 ⟨n + 1, hn⟩) (iblk0 V c 4 ⟨n + 1, hn⟩)
        (acc0 c n (Nat.lt_of_succ_lt hn)).1,
     k0_pay1 (acc0 c n (Nat.lt_of_succ_lt hn)).2 (sqsum0 V c ⟨n + 1, hn⟩))

/-- The scoped buffers of the core that region 0 neither stages nor uses as scratch (region 1's staging buffers),
    each whole at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f))

/-- The scoped buffers no window of region 0 stages: its two scratch rows, then region 1's staging buffers. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ otherScoped0 (F := F) c) :=
  scopedRest0_eq c

/-- The region invariant before position `n`: before the first point whatever the launch hands the region (every
    scoped buffer it does not stage at anything, the generator register at some state); afterwards the two scratch
    rows at the running sums the point before left, the other scoped buffers at anything, the register at some state. -/
def PhiS (c : Dev nD) : (n : ℕ) → n ≤ cfg0.N → sProp 𝕄
  | 0, _ => Pipeline.ΦA spec0 c
  | n + 1, hn =>
    iprop(owns (c : Thread nD τ) (Memref.whole cc0_scratch0) fullShare ((acc0 V c n hn).1)
      ∗ owns (c : Thread nD τ) (Memref.whole cc0_scratch1) fullShare ((acc0 V c n hn).2)
      ∗ otherScoped0 (F := F) c ∗ (∃ r, prngReg c r))

/-- The proof data of pipeline 0 on core `c`: the arrays as the region finds them; after the body at point `t` each
    input's buffer at its block, the dense layer's rows in window 5, and in windows 6 and 7 the mean and the variance
    formed from the running sums (stored, and written back, at the last point only: elsewhere a placeholder nothing
    consults); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => rows0 V c t
    | ⟨6, _⟩ => k0_pay2 ((acc0 V c t.val t.isLt).1)
    | ⟨7, _⟩ => k0_pay3 ((acc0 V c t.val t.isLt).1) ((acc0 V c t.val t.isLt).2)
  Φ t := PhiS V c t.val (Nat.le_of_lt_succ t.isLt)
  q _ := fullShare
  owed _ := 0

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalised, rectified rows of point `t` through the second dense layer. -/
def rows1 (c : Dev nD) (t : Fin cfg1.N) : Vec F S2000x256 .f32 :=
  k1_pay1 (iblk1 V c 0 t) (iblk1 V c 1 t) (iblk1 V c 2 t) (iblk1 V c 3 t) (iblk1 V c 4 t) (iblk1 V c 5 t) (iblk1 V c 6 t)

/-- The proof data of pipeline 1 on core `c`: every input's buffer at its block, the output's at `rows1`; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => rows1 V c t
  Φ _ := Pipeline.ΦA spec1 c
  q _ := fullShare
  owed _ := 0

end Cert.Kernel.Hand

end
-- ==== Proof.KbFold.lean ====
/-
  The contents of the core's buffers at each boundary of the kernel program's @main: at launch, after the host
  prefix (the gather, the scatter-add and the reshapes), after region 0 (its three result arrays at what the
  pipeline's write-backs leave, every other buffer as entered), after region 1 (likewise its one result array).
-/
import proofs.«152078_j21801253995167_1_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the host prefix (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 1's entry: no host operation stands between the regions). -/
abbrev V2 : (c : Dev nD) → (b : Ref sig .tc) → Buf (Elt F) ((c : Thread nD τ).loc b) := fun c b => W2 m c b

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b

/-- The result array ends at what region 1's write-backs leave. -/
theorem W3_result (c : Dev nD) : W3 m c (Proc.devRef .tc main_v21) = (dat1 (V2 m) c).arrAt 7 cfg1.N := W3_arr m c 7

/-- Region 1 finds the dense layer's rows, the mean and the variance where region 0's write-backs left them. -/
theorem V2_rows (c : Dev nD) : V2 m c main_v20_0 = (dat0 (V1 m) c).arrAt 5 cfg0.N := W2_arr m c 5
theorem V2_mean (c : Dev nD) : V2 m c main_v20_1 = (dat0 (V1 m) c).arrAt 6 cfg0.N := W2_arr m c 6
theorem V2_var (c : Dev nD) : V2 m c main_v20_2 = (dat0 (V1 m) c).arrAt 7 cfg0.N := W2_arr m c 7
/-- and its other operands as the host prefix left them. -/
theorem V2_gamma (c : Dev nD) : V2 m c main_v16 = V1 m c main_v16 := W2_of_ne m c main_v16 (by decide)
theorem V2_beta (c : Dev nD) : V2 m c main_v17 = V1 m c main_v17 := W2_of_ne m c main_v17 (by decide)
theorem V2_w2 (c : Dev nD) : V2 m c main_arg7 = V1 m c main_arg7 := W2_of_ne m c main_arg7 (by decide)
theorem V2_b2 (c : Dev nD) : V2 m c main_v18 = V1 m c main_v18 := W2_of_ne m c main_v18 (by decide)

end Cert.Kernel.Hand

end
-- ==== Proof.KbBody0.lean ====
/-
  The body of region 0 (the first dense layer with its running column sums) run once, in each of its three control
  cases. The grid has five points. At the first point the two scratch rows are cleared before the block's column
  sums are added; at the points in between the sums are added to what the point before left; at the last point,
  after adding, the sums are divided by the row count and the mean and the variance E[y^2] - E[y]^2 are stored.
  Each statement names what every buffer the body touches holds afterwards, as the skeleton's payloads of what
  was read: the inputs stay, the output block is the dense layer's rows, the scratch rows are the updated sums.
-/
import proofs.«152078_j21801253995167_1_alg».proof.Proof.KbData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid coordinate is one of 0..4, so the first test (is the coordinate zero) holds exactly at 0. -/
theorem body0_test1_iff (i : grid0.Coords) :
    (Scalar.cmpi .ne (Scalar.extui (Scalar.cmpi .eq (BitVec.ofNat 32 (i 0).val) 0#32)) 0#32 = 1#1) ↔ (i 0).val = 0 := by
  have h : ∀ n : Fin 5, (Scalar.cmpi .ne (Scalar.extui (Scalar.cmpi .eq (BitVec.ofNat 32 n.val) 0#32)) 0#32 = 1#1) ↔ n.val = 0 := by
    decide
  exact h (i 0)

/-- The second test (is the coordinate four) holds exactly at 4. -/
theorem body0_test2_iff (i : grid0.Coords) : k0_cond2 i = 1#1 ↔ (i 0).val = 4 := by
  have h : ∀ n : Fin 5, (Scalar.cmpi .ne (Scalar.extui (Scalar.cmpi .eq (BitVec.ofNat 32 n.val) 4#32)) 0#32 = 1#1) ↔ n.val = 4 := by
    decide
  unfold k0_cond2
  exact h (i 0)

/-- The zero offsets of a whole-buffer access, however they are spelt. -/
theorem body0_hz : (![0, 0] : Fin 2 → Nat) = fun _ => 0 := funext fun a => by fin_cases a <;> rfl

/-- A load through the whole-shape rectangle reads the buffer's contents. -/
theorem body0_readAt_whole {S : Shape} {e : EltTy} (v : View sig .tc .vmem S e) (f : v.ty.Contents (Elt F))
    {off : Fin S.rank → Nat} (hz : off = fun _ => 0) (inb : ∀ a, off a + S.size a ≤ S.size a) :
    v.readAt (Elt F) (Rect.unit off S.size inb).toLoadRect f = v.read (Elt F) f := by
  rw [View.readAt_eq_ld, View.ld_unit_zero hz]

/-- After stores of which the last is through the whole-shape rectangle, the buffer reads as that store's payload. -/
theorem body0_read_writes_whole {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- What a buffer reads after the run is the payload of its last whole store, each load in it read as the contents
    (or as the payload of the whole store before it). -/
local macro "body0_reads" : tactic => `(tactic| (
  ipureintro
  try sl_unfold_run_names
  rw [body0_read_writes_whole _ _ body0_hz]
  try simp only [View.readCov_unit_zero (S := S1x256) _ body0_hz, body0_readAt_whole (S := S1x1) _ _ body0_hz,
    body0_readAt_whole (S := S2000x256) _ _ body0_hz, body0_readAt_whole (S := S256x256) _ _ body0_hz,
    body0_readAt_whole (S := S1x256) _ _ body0_hz]))

/-- The first point: the scratch rows start from zero. The mean and variance buffers are not touched. -/
theorem run0_first (c : Dev nD) (E : Set ℕ) (i : grid0.Coords) (hi : (i 0).val = 0)
    (a1 : Memref sig .tc .vmem S2000x256 .f32) (h1 : a1.IsWhole) (a2 : Memref sig .tc .vmem S2000x256 .f32) (h2 : a2.IsWhole)
    (a3 : Memref sig .tc .vmem S1x1 .f32) (h3 : a3.IsWhole) (a4 : Memref sig .tc .vmem S256x256 .f32) (h4 : a4.IsWhole)
    (a5 : Memref sig .tc .vmem S1x256 .f32) (h5 : a5.IsWhole) (a6 : Memref sig .tc .vmem S2000x256 .f32) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (x agg : Vec F S2000x256 .f32) (e : Vec F S1x1 .f32) (w : Vec F S256x256 .f32) (b : Vec F S1x256 .f32)
    (d7 d8 : Vec F S1x256 .f32) (K : PUnit → sProp 𝕄) :
    iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
        ∗ (∃ d, owns (c : Thread nD τ) a6 fullShare d) ∗ owns (c : Thread nD τ) a7 fullShare d7 ∗ owns (c : Thread nD τ) a8 fullShare d8
        ∗ (∃ d, owns (c : Thread nD τ) a9 fullShare d) ∗ (∃ d, owns (c : Thread nD τ) a10 fullShare d)
        ∗ (iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
            ∗ owns (c : Thread nD τ) a6 fullShare (k0_pay6 e x agg w b)
            ∗ owns (c : Thread nD τ) a7 fullShare d7 ∗ owns (c : Thread nD τ) a8 fullShare d8
            ∗ owns (c : Thread nD τ) a9 fullShare (k0_pay7 e x agg w b (k0_pay4 (F := F)))
            ∗ owns (c : Thread nD τ) a10 fullShare (k0_pay1 (k0_pay5 (F := F)) (k0_pay8 e x agg w b))) -∗ K ⟨⟩))
      ⊢ wp frame (wpE (defs₀ (F := F)) Variants.none c none) E
          (cc0__linear1_bn_stats_kernel i a1 h1 a2 h2 a3 h3 a4 h4 a5 h5 a6 h6 a7 h7 a8 h8 a9 h9 a10 h10) K := by
  have hc1 : Scalar.cmpi .ne (Scalar.extui (Scalar.cmpi .eq (BitVec.ofNat 32 (i 0).val) 0#32)) 0#32 = 1#1 := by
    rw [body0_test1_iff]; exact hi
  have hc2 : ¬ (k0_cond2 i = 1#1) := by rw [body0_test2_iff]; omega
  sl_unfold [cc0__linear1_bn_stats_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1 hf2 hf3 hf4 hf5 hf7 hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    body0_reads
  isplitl [H7]
  · iexists f7; isplitr; · ipureintro; rfl
    iexact H7
  isplitl [H8]
  · iexists f8; isplitr; · ipureintro; rfl
    iexact H8
  isplitl [H9]
  · iexists _; isplitr
    swap; · iexact H9
    body0_reads
  iexists _; isplitr
  swap; · iexact H10
  body0_reads

/-- A point strictly between the first and the last: the sums grow by the block's. -/
theorem run0_mid (c : Dev nD) (E : Set ℕ) (i : grid0.Coords) (hlo : 0 < (i 0).val) (hhi : (i 0).val < 4)
    (a1 : Memref sig .tc .vmem S2000x256 .f32) (h1 : a1.IsWhole) (a2 : Memref sig .tc .vmem S2000x256 .f32) (h2 : a2.IsWhole)
    (a3 : Memref sig .tc .vmem S1x1 .f32) (h3 : a3.IsWhole) (a4 : Memref sig .tc .vmem S256x256 .f32) (h4 : a4.IsWhole)
    (a5 : Memref sig .tc .vmem S1x256 .f32) (h5 : a5.IsWhole) (a6 : Memref sig .tc .vmem S2000x256 .f32) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (x agg : Vec F S2000x256 .f32) (e : Vec F S1x1 .f32) (w : Vec F S256x256 .f32) (b : Vec F S1x256 .f32)
    (d7 d8 s q : Vec F S1x256 .f32) (K : PUnit → sProp 𝕄) :
    iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
        ∗ (∃ d, owns (c : Thread nD τ) a6 fullShare d) ∗ owns (c : Thread nD τ) a7 fullShare d7 ∗ owns (c : Thread nD τ) a8 fullShare d8
        ∗ owns (c : Thread nD τ) a9 fullShare s ∗ owns (c : Thread nD τ) a10 fullShare q
        ∗ (iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
            ∗ owns (c : Thread nD τ) a6 fullShare (k0_pay6 e x agg w b)
            ∗ owns (c : Thread nD τ) a7 fullShare d7 ∗ owns (c : Thread nD τ) a8 fullShare d8
            ∗ owns (c : Thread nD τ) a9 fullShare (k0_pay7 e x agg w b s)
            ∗ owns (c : Thread nD τ) a10 fullShare (k0_pay1 q (k0_pay8 e x agg w b))) -∗ K ⟨⟩))
      ⊢ wp frame (wpE (defs₀ (F := F)) Variants.none c none) E
          (cc0__linear1_bn_stats_kernel i a1 h1 a2 h2 a3 h3 a4 h4 a5 h5 a6 h6 a7 h7 a8 h8 a9 h9 a10 h10) K := by
  have hc1 : ¬ (Scalar.cmpi .ne (Scalar.extui (Scalar.cmpi .eq (BitVec.ofNat 32 (i 0).val) 0#32)) 0#32 = 1#1) := by
    rw [body0_test1_iff]; omega
  have hc2 : ¬ (k0_cond2 i = 1#1) := by rw [body0_test2_iff]; omega
  sl_unfold [cc0__linear1_bn_stats_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1 hf2 hf3 hf4 hf5 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    body0_reads
  isplitl [H7]
  · iexists f7; isplitr; · ipureintro; rfl
    iexact H7
  isplitl [H8]
  · iexists f8; isplitr; · ipureintro; rfl
    iexact H8
  isplitl [H9]
  · iexists _; isplitr
    swap; · iexact H9
    body0_reads
  iexists _; isplitr
  swap; · iexact H10
  body0_reads

/-- The last point: after the sums grow, the mean and the variance are formed from them and stored. -/
theorem run0_last (c : Dev nD) (E : Set ℕ) (i : grid0.Coords) (hi : (i 0).val = 4)
    (a1 : Memref sig .tc .vmem S2000x256 .f32) (h1 : a1.IsWhole) (a2 : Memref sig .tc .vmem S2000x256 .f32) (h2 : a2.IsWhole)
    (a3 : Memref sig .tc .vmem S1x1 .f32) (h3 : a3.IsWhole) (a4 : Memref sig .tc .vmem S256x256 .f32) (h4 : a4.IsWhole)
    (a5 : Memref sig .tc .vmem S1x256 .f32) (h5 : a5.IsWhole) (a6 : Memref sig .tc .vmem S2000x256 .f32) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (x agg : Vec F S2000x256 .f32) (e : Vec F S1x1 .f32) (w : Vec F S256x256 .f32) (b : Vec F S1x256 .f32)
    (s q : Vec F S1x256 .f32) (K : PUnit → sProp 𝕄) :
    iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
        ∗ (∃ d, owns (c : Thread nD τ) a6 fullShare d) ∗ (∃ d, owns (c : Thread nD τ) a7 fullShare d) ∗ (∃ d, owns (c : Thread nD τ) a8 fullShare d)
        ∗ owns (c : Thread nD τ) a9 fullShare s ∗ owns (c : Thread nD τ) a10 fullShare q
        ∗ (iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
            ∗ owns (c : Thread nD τ) a6 fullShare (k0_pay6 e x agg w b)
            ∗ owns (c : Thread nD τ) a7 fullShare (k0_pay2 (k0_pay7 e x agg w b s))
            ∗ owns (c : Thread nD τ) a8 fullShare (k0_pay3 (k0_pay7 e x agg w b s) (k0_pay1 q (k0_pay8 e x agg w b)))
            ∗ owns (c : Thread nD τ) a9 fullShare (k0_pay7 e x agg w b s)
            ∗ owns (c : Thread nD τ) a10 fullShare (k0_pay1 q (k0_pay8 e x agg w b))) -∗ K ⟨⟩))
      ⊢ wp frame (wpE (defs₀ (F := F)) Variants.none c none) E
          (cc0__linear1_bn_stats_kernel i a1 h1 a2 h2 a3 h3 a4 h4 a5 h5 a6 h6 a7 h7 a8 h8 a9 h9 a10 h10) K := by
  have hc1 : ¬ (Scalar.cmpi .ne (Scalar.extui (Scalar.cmpi .eq (BitVec.ofNat 32 (i 0).val) 0#32)) 0#32 = 1#1) := by
    rw [body0_test1_iff]; omega
  have hc2 : k0_cond2 i = 1#1 := by rw [body0_test2_iff]; exact hi
  sl_unfold [cc0__linear1_bn_stats_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    body0_reads
  isplitl [H7]
  · iexists _; isplitr
    swap; · iexact H7
    body0_reads
  isplitl [H8]
  · iexists _; isplitr
    swap; · iexact H8
    body0_reads
  isplitl [H9]
  · iexists _; isplitr
    swap; · iexact H9
    body0_reads
  iexists _; isplitr
  swap; · iexact H10
  body0_reads

end Cert.Kernel.Hand

end
-- ==== Proof.KbOblig0.lean ====
/-
  Region 0's body obligation. At every grid point the pipeline hands the body its windows' staging buffers and the
  region invariant; the point is the first, the last or one in between, and the matching run of the body returns
  every buffer at what the proof data names: the inputs at their blocks, the output block at the dense layer's rows,
  the two scratch rows (inside the invariant) at the running column sums after this point, and the mean and variance
  buffers stored at the last point only and handed back untouched elsewhere.
-/
import proofs.«152078_j21801253995167_1_alg».proof.Proof.KbData
import proofs.«152078_j21801253995167_1_alg».proof.Proof.KbBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

/-! ## The grid: one axis of five points -/

/-- The one coordinate of a point is its position. -/
theorem coord0 : ∀ t : Fin cfg0.N, ((grid0.coords t) 0).val = t.val :=
  (by decide +kernel : ∀ t : Fin grid0.N, ((grid0.coords t) 0).val = t.val)

/-! ## The running sums and the invariant, equation by equation -/

theorem acc0_zero (c : Dev nD) (hn : 0 < cfg0.N) :
    acc0 V c 0 hn
      = (k0_pay7 (iblk0 V c 2 ⟨0, hn⟩) (iblk0 V c 0 ⟨0, hn⟩) (iblk0 V c 1 ⟨0, hn⟩) (iblk0 V c 3 ⟨0, hn⟩) (iblk0 V c 4 ⟨0, hn⟩) (k0_pay4 (F := F)),
         k0_pay1 (k0_pay5 (F := F)) (sqsum0 V c ⟨0, hn⟩)) := rfl

theorem acc0_succ (c : Dev nD) (n : ℕ) (hn : n + 1 < cfg0.N) :
    acc0 V c (n + 1) hn
      = (k0_pay7 (iblk0 V c 2 ⟨n + 1, hn⟩) (iblk0 V c 0 ⟨n + 1, hn⟩) (iblk0 V c 1 ⟨n + 1, hn⟩) (iblk0 V c 3 ⟨n + 1, hn⟩) (iblk0 V c 4 ⟨n + 1, hn⟩)
            (acc0 V c n (Nat.lt_of_succ_lt hn)).1,
         k0_pay1 (acc0 V c n (Nat.lt_of_succ_lt hn)).2 (sqsum0 V c ⟨n + 1, hn⟩)) := rfl

/-- The running sums at the first point, stated at the point. -/
theorem acc0_first (c : Dev nD) (t : Fin cfg0.N) (hz : t.val = 0) :
    acc0 V c t.val t.isLt
      = (k0_pay7 (iblk0 V c 2 t) (iblk0 V c 0 t) (iblk0 V c 1 t) (iblk0 V c 3 t) (iblk0 V c 4 t) (k0_pay4 (F := F)),
         k0_pay1 (k0_pay5 (F := F)) (sqsum0 V c t)) := by
  obtain ⟨n, hn⟩ := t
  cases n with
  | zero => rfl
  | succ n => exact absurd hz (Nat.succ_ne_zero n)

/-- The running sums at a later point, over those of the point before. -/
theorem acc0_later (c : Dev nD) (t : Fin cfg0.N) (hz : t.val ≠ 0) :
    acc0 V c t.val t.isLt
      = (k0_pay7 (iblk0 V c 2 t) (iblk0 V c 0 t) (iblk0 V c 1 t) (iblk0 V c 3 t) (iblk0 V c 4 t)
            (acc0 V c (t.val - 1) (Nat.lt_of_le_of_lt (Nat.sub_le _ _) t.isLt)).1,
         k0_pay1 (acc0 V c (t.val - 1) (Nat.lt_of_le_of_lt (Nat.sub_le _ _) t.isLt)).2 (sqsum0 V c t)) := by
  obtain ⟨n, hn⟩ := t
  cases n with
  | zero => exact absurd rfl hz
  | succ n => rfl

theorem PhiS_zero (c : Dev nD) (n : ℕ) (h : n ≤ cfg0.N) (hz : n = 0) : PhiS V c n h = Pipeline.ΦA spec0 c := by
  subst hz; rfl

/-- After point `n`: the scratch rows at that point's running sums. -/
theorem PhiS_succ (c : Dev nD) (n : ℕ) (hn : n < cfg0.N) :
    PhiS V c (n + 1) hn
      = iprop(owns (c : Thread nD τ) (Memref.whole cc0_scratch0) fullShare ((acc0 V c n hn).1)
          ∗ owns (c : Thread nD τ) (Memref.whole cc0_scratch1) fullShare ((acc0 V c n hn).2)
          ∗ otherScoped0 (F := F) c ∗ (∃ r, prngReg c r)) := rfl

/-- Before a point that is not the first: the scratch rows at what the point before left. -/
theorem PhiS_pos (c : Dev nD) (n : ℕ) (h : n ≤ cfg0.N) (hz : n ≠ 0) :
    PhiS V c n h
      = iprop(owns (c : Thread nD τ) (Memref.whole cc0_scratch0) fullShare ((acc0 V c (n - 1) (by omega)).1)
          ∗ owns (c : Thread nD τ) (Memref.whole cc0_scratch1) fullShare ((acc0 V c (n - 1) (by omega)).2)
          ∗ otherScoped0 (F := F) c ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the launch hands the region, the two scratch rows as whole memrefs owned at some contents. -/
theorem PhiA0_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ otherScoped0 (F := F) c) ∗ (∃ r, prngReg c r)) := by
  unfold Pipeline.ΦA; rw [scopedRest0_split]; simp only [owns_whole]; try rfl

/-! ## What the body leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = rows0 V c t := by dsimp only [dat0]
theorem after0_6 (c : Dev nD) (t : Fin cfg0.N) : (dat0 V c).after 6 t = k0_pay2 ((acc0 V c t.val t.isLt).1) := by dsimp only [dat0]
theorem after0_7 (c : Dev nD) (t : Fin cfg0.N) :
    (dat0 V c).after 7 t = k0_pay3 ((acc0 V c t.val t.isLt).1) ((acc0 V c t.val t.isLt).2) := by dsimp only [dat0]

/-! ## What the body finds in the inputs' buffers -/

/-- An input's current staging buffer holds its block at every point, fetched there or not: where it is not
    fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## Where the mean and variance windows are idle -/

/-- The windows that are stored at every point are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl
theorem liveAt0_5 (t : Fin cfg0.N) : cfg0.idle 5 (grid0.coords t) = false := rfl
/-- The mean and the variance are stored at the last point only: before it their windows are idle -/
theorem idleAt0_6 : ∀ t : Fin cfg0.N, t.val ≠ 4 → cfg0.idle 6 (grid0.coords t) = true :=
  (by decide +kernel : ∀ t : Fin grid0.N, t.val ≠ 4 → idle0 6 (grid0.coords t) = true)
theorem idleAt0_7 : ∀ t : Fin cfg0.N, t.val ≠ 4 → cfg0.idle 7 (grid0.coords t) = true :=
  (by decide +kernel : ∀ t : Fin grid0.N, t.val ≠ 4 → idle0 7 (grid0.coords t) = true)
/-- and not written back, -/
theorem noFlush0_6 (t : Fin cfg0.N) (h : t.val ≠ 4) : (cfg0.win 6).flush t = false := by
  have hN : t.val < 5 := lt_of_lt_of_eq t.isLt (show cfg0.N = 5 from N_0)
  cases hf : (cfg0.win 6).flush t with
  | false => rfl
  | true => exact absurd ((flush0_6 t).mp hf) (by omega)
theorem noFlush0_7 (t : Fin cfg0.N) (h : t.val ≠ 4) : (cfg0.win 7).flush t = false := by
  have hN : t.val < 5 := lt_of_lt_of_eq t.isLt (show cfg0.N = 5 from N_0)
  cases hf : (cfg0.win 7).flush t with
  | false => rfl
  | true => exact absurd ((flush0_7 t).mp hf) (by omega)
/-- and at the last point they are live. -/
theorem liveAt0_6 : ∀ t : Fin cfg0.N, t.val = 4 → cfg0.idle 6 (grid0.coords t) = false :=
  (by decide +kernel : ∀ t : Fin grid0.N, t.val = 4 → idle0 6 (grid0.coords t) = false)
theorem liveAt0_7 : ∀ t : Fin cfg0.N, t.val = 4 → cfg0.idle 7 (grid0.coords t) = false :=
  (by decide +kernel : ∀ t : Fin grid0.N, t.val = 4 → idle0 7 (grid0.coords t) = false)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- A window live at a point is left at what the proof data names. -/
theorem leaves_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- The first point: the invariant is what the launch hands over, the scratch rows at anything; the run clears
    them and leaves the first block's sums; the mean and variance buffers go back as found. -/
theorem sound_body0_first (c : Dev nD) (t : Fin cfg0.N) (hz : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have h4 : t.val ≠ 4 := by omega
  rw [leaves_live V c 0 t (liveAt0_0 t), leaves_live V c 1 t (liveAt0_1 t), leaves_live V c 2 t (liveAt0_2 t),
    leaves_live V c 3 t (liveAt0_3 t), leaves_live V c 4 t (liveAt0_4 t), leaves_live V c 5 t (liveAt0_5 t),
    Dat.leavesExact_idle (dat0 V c) 6 t (idleAt0_6 t h4) (noFlush0_6 t h4),
    Dat.leavesExact_idle (dat0 V c) 7 t (idleAt0_7 t h4) (noFlush0_7 t h4),
    after0_0, after0_1, after0_2, after0_3, after0_4, after0_5]
  rw [acc0_first V c t hz, PhiS_castSucc V c t, PhiS_zero V c _ _ hz, PhiA0_eq]
  unfold rows0 sqsum0
  iintro ⟨⟨⟨HS0, HS1, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_first c Set.univ (grid0.coords t) ((coord0 t).trans hz) _ _ _ _ _ _ _ _ _ _ _ _ _ _ _ _ _ _ _ _
    (iblk0 V c 0 t) (iblk0 V c 1 t) (iblk0 V c 2 t) (iblk0 V c 3 t) (iblk0 V c 4 t)
    ((dat0 V c).before 6 t d6) ((dat0 V c).before 7 t d7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 HO Hg]
  · isplitl [HS0]; · iexact HS0
    isplitl [HS1]; · iexact HS1
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4800000 in
/-- A point strictly between the first and the last: the invariant holds the scratch rows at the sums the point
    before left; the run adds this block's; the mean and variance buffers go back as found. -/
theorem sound_body0_mid (c : Dev nD) (t : Fin cfg0.N) (hlo : 0 < t.val) (hhi : t.val < 4) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have h4 : t.val ≠ 4 := by omega
  have hz : t.val ≠ 0 := by omega
  rw [leaves_live V c 0 t (liveAt0_0 t), leaves_live V c 1 t (liveAt0_1 t), leaves_live V c 2 t (liveAt0_2 t),
    leaves_live V c 3 t (liveAt0_3 t), leaves_live V c 4 t (liveAt0_4 t), leaves_live V c 5 t (liveAt0_5 t),
    Dat.leavesExact_idle (dat0 V c) 6 t (idleAt0_6 t h4) (noFlush0_6 t h4),
    Dat.leavesExact_idle (dat0 V c) 7 t (idleAt0_7 t h4) (noFlush0_7 t h4),
    after0_0, after0_1, after0_2, after0_3, after0_4, after0_5]
  rw [acc0_later V c t hz, PhiS_castSucc V c t, PhiS_pos V c _ _ hz]
  unfold rows0 sqsum0
  iintro ⟨⟨HS0, HS1, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_mid c Set.univ (grid0.coords t) (lt_of_lt_of_eq hlo (coord0 t).symm) (lt_of_eq_of_lt (coord0 t) hhi)
    _ _ _ _ _ _ _ _ _ _ _ _ _ _ _ _ _ _ _ _
    (iblk0 V c 0 t) (iblk0 V c 1 t) (iblk0 V c 2 t) (iblk0 V c 3 t) (iblk0 V c 4 t)
    ((dat0 V c).before 6 t d6) ((dat0 V c).before 7 t d7) _ _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 HO Hg]
  · isplitl [HS0]; · iexact HS0
    isplitl [HS1]; · iexact HS1
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4800000 in
/-- The last point: after this block's sums are added the run forms the mean and the variance from the totals and
    stores them; both windows are live there. -/
theorem sound_body0_last (c : Dev nD) (t : Fin cfg0.N) (h4 : t.val = 4) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hz : t.val ≠ 0 := by omega
  rw [leaves_live V c 0 t (liveAt0_0 t), leaves_live V c 1 t (liveAt0_1 t), leaves_live V c 2 t (liveAt0_2 t),
    leaves_live V c 3 t (liveAt0_3 t), leaves_live V c 4 t (liveAt0_4 t), leaves_live V c 5 t (liveAt0_5 t),
    leaves_live V c 6 t (liveAt0_6 t h4), leaves_live V c 7 t (liveAt0_7 t h4),
    after0_0, after0_1, after0_2, after0_3, after0_4, after0_5, after0_6, after0_7]
  rw [acc0_later V c t hz, PhiS_castSucc V c t, PhiS_pos V c _ _ hz]
  unfold rows0 sqsum0
  iintro ⟨⟨HS0, HS1, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_last c Set.univ (grid0.coords t) ((coord0 t).trans h4)
    _ _ _ _ _ _ _ _ _ _ _ _ _ _ _ _ _ _ _ _
    (iblk0 V c 0 t) (iblk0 V c 1 t) (iblk0 V c 2 t) (iblk0 V c 3 t) (iblk0 V c 4 t) _ _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 HO Hg]
  · isplitl [HS0]; · iexact HS0
    isplitl [HS1]; · iexact HS1
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point: the point is the first, the last, or one in between. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 5 := lt_of_lt_of_eq t.isLt (show cfg0.N = 5 from N_0)
  by_cases hz : t.val = 0
  · exact sound_body0_first V c t hz
  · by_cases h4 : t.val = 4
    · exact sound_body0_last V c t h4
    · exact sound_body0_mid V c t (by omega) (by omega)

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped rest and the generator register back, the scratch rows'
    contents forgotten. -/
theorem hout0 (c : Dev nD) : (dat0 V c).Φ (Fin.last cfg0.N) ⊢ Pipeline.ΦA spec0 c := by
  have hN : (Fin.last cfg0.N).val ≠ 0 := by rw [Fin.val_last]; have : cfg0.N = 5 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS0, HS1, HO, Hg⟩
  isplitl [HS0 HS1 HO]
  · isplitl [HS0]; · iexists _; iexact HS0
    isplitl [HS1]; · iexists _; iexact HS1
    iexact HO
  iexact Hg

end Cert.Kernel.Hand

end
-- ==== Proof.KbOblig1.lean ====
/-
  Region 1's body (normalise with the batch statistics, rectify, second dense layer) and its body obligation: the
  body has one control case, reads its seven input blocks and stores the whole output block once.
-/
import proofs.«152078_j21801253995167_1_alg».proof.Proof.KbData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store go through the whole buffer -/

/-- The offsets of every access are zero. -/
theorem zeros1 : (![0, 0] : Fin 2 → ℕ) = fun _ => 0 :=
  funext fun a => match a with
    | ⟨0, _⟩ => rfl
    | ⟨1, _⟩ => rfl

/-- The whole 2000x256 buffer (the rows block, the output block). -/
abbrev rRows : Rect S2000x256 := Rect.unit (s := S2000x256) ![0, 0] S2000x256.size inb_S2000x256_S2000x256_0_0
/-- The whole 1x256 buffer (mean, variance, gamma, beta, bias). -/
abbrev rRow : Rect S1x256 := Rect.unit (s := S1x256) ![0, 0] S1x256.size inb_S1x256_S1x256_0_0
/-- The whole 256x256 buffer (the second layer's weights). -/
abbrev rMat : Rect S256x256 := Rect.unit (s := S256x256) ![0, 0] S256x256.size inb_S256x256_S256x256_0_0

/-- The output buffer after the body, from the seven inputs' read contents: its one store as a piece. -/
def out1_7 (x0 : Vec F S2000x256 .f32) (x1 x2 x3 x4 : Vec F S1x256 .f32) (x5 : Vec F S256x256 .f32) (x6 : Vec F S1x256 .f32) :
    Vec F S2000x256 .f32 :=
  View.canon [⟨rRows, k1_pay1 (View.ld x0 rRows) (View.ld x1 rRow) (View.ld x2 rRow) (View.ld x3 rRow) (View.ld x4 rRow)
    (View.ld x5 rMat) (View.ld x6 rRow)⟩]

/-- The one store is of the whole buffer, so what it leaves is its payload; and each load is of a whole buffer, so it
    reads the contents. -/
theorem out1_7_eq (x0 : Vec F S2000x256 .f32) (x1 x2 x3 x4 : Vec F S1x256 .f32) (x5 : Vec F S256x256 .f32) (x6 : Vec F S1x256 .f32) :
    out1_7 x0 x1 x2 x3 x4 x5 x6 = k1_pay1 x0 x1 x2 x3 x4 x5 x6 := by
  unfold out1_7
  rw [View.canon_unit_zero (S := S2000x256) zeros1 inb_S2000x256_S2000x256_0_0]
  rw [View.ld_unit_zero (S := S2000x256) zeros1 inb_S2000x256_S2000x256_0_0 x0,
    View.ld_unit_zero (S := S1x256) zeros1 inb_S1x256_S1x256_0_0 x1,
    View.ld_unit_zero (S := S1x256) zeros1 inb_S1x256_S1x256_0_0 x2,
    View.ld_unit_zero (S := S1x256) zeros1 inb_S1x256_S1x256_0_0 x3,
    View.ld_unit_zero (S := S1x256) zeros1 inb_S1x256_S1x256_0_0 x4,
    View.ld_unit_zero (S := S256x256) zeros1 inb_S256x256_S256x256_0_0 x5,
    View.ld_unit_zero (S := S1x256) zeros1 inb_S1x256_S1x256_0_0 x6]

/-- The one store covers the output buffer. -/
theorem cover1_7 (p0 : Vec F S2000x256 .f32) (y : S2000x256.Idx) :
    ∃ pc ∈ ([⟨rRows, p0⟩] : List (View.Piece (Elt F) S2000x256 .f32)), y ∈ pc.1.set :=
  ⟨_, List.mem_singleton_self _, View.mem_set_unit_zero (S := S2000x256) zeros1 inb_S2000x256_S2000x256_0_0 y⟩

/-! ## The body's run -/

set_option maxHeartbeats 1000000 in
/-- The body on whole staging memrefs, the seven inputs' at read contents `x0 … x6` and the output's at anything, runs
    to the continuation holding the inputs' as they were and the output's at the second dense layer of the normalised,
    rectified rows. -/
theorem sound_kernel1 (c : Dev nD) (E : Set ℕ) (i : grid1.Coords)
    (a1 : Memref sig .tc .vmem S2000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole) (a6 : Memref sig .tc .vmem S256x256 .f32) (h6 : a6.IsWhole)
    (a7 : Memref sig .tc .vmem S1x256 .f32) (h7 : a7.IsWhole) (a8 : Memref sig .tc .vmem S2000x256 .f32) (h8 : a8.IsWhole)
    (x0 : Vec F S2000x256 .f32) (x1 x2 x3 x4 : Vec F S1x256 .f32) (x5 : Vec F S256x256 .f32) (x6 : Vec F S1x256 .f32)
    (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
        ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
            ∗ owns (c : Thread nD τ) a8 fullShare (k1_pay1 x0 x1 x2 x3 x4 x5 x6)) -∗ K ⟨⟩))
      ⊢ wp frame (wpE (defs₀ (F := F)) Variants.none c none) E
          (cc1__bn_relu_linear2_kernel i a1 h1 a2 h2 a3 h3 a4 h4 a5 h5 a6 h6 a7 h7 a8 h8) K := by
  simp only [cc1__bn_relu_linear2_kernel_eq_skeleton]; unfold cc1__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine Eq.trans ?_ (out1_7_eq _ _ _ _ _ _ _)
  exact View.read_writes_eq_canon _ _ _ (cover1_7 (F := F) _)

/-! ## The proof data, window by window -/

variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

/-- What the body leaves: every input's buffer at its block, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- and the output's at the second dense layer of the normalised, rectified rows of the point. -/
theorem after1_7 (c : Dev nD) (t : Fin cfg1.N) :
    (dat1 V c).after 7 t = k1_pay1 (iblk1 V c 0 t) (iblk1 V c 1 t) (iblk1 V c 2 t) (iblk1 V c 3 t) (iblk1 V c 4 t) (iblk1 V c 5 t) (iblk1 V c 6 t) := by
  dsimp only [dat1, rows1]

/-- Each input's current staging buffer holds its block at every point, fetched there or not: where it is not fetched
    the block index has not moved since the point before, whose block the body left in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's run applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbRun.lean ====
/-
  The run of the kernel program: @main is the host prefix, region 0 and region 1. Each region is entered from the
  thread state "every unscoped buffer at the boundary's contents, the generator register at some state, nothing owed",
  splits its windows' arrays out of the unscoped buffers, runs its pipeline under its body obligation and puts the
  arrays back at what the write-backs leave. Every weakly fair execution terminates; at the end the result array holds
  what region 1's write-backs leave and every argument array is as launched (no host operation and no region writes one).
-/
import proofs.«152078_j21801253995167_1_alg».proof.Proof.KbFold
import proofs.«152078_j21801253995167_1_alg».proof.Proof.KbOblig0
import proofs.«152078_j21801253995167_1_alg».proof.Proof.KbOblig1
import proofs.«152078_j21801253995167_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

An argument is written by no host operation. Either it is no array of a region (the region leaves it alone), or it is
the array of an input window (never written back): in both cases the contents at each boundary are those of the one
before, down to the launch memory. -/

/-- The host prefix leaves a reference it does not write at its launch contents. -/
theorem W1_kept (c : Dev nD) (b : Ref sig .tc) (hb : b ∉ (hostOps0_W : List (Ref sig .tc))) :
    W1 m c (Proc.devRef .tc b) = m ((c : Thread nD τ).loc b) :=
  (StableHlo.after_of_writes_sub hostOps0 _ hostOps0_writes hb).trans rfl

/-- Region 0 leaves the array of an input window as it found it. -/
theorem W2_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- Region 1 leaves the array of an input window as it found it. -/
theorem W3_input (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

/-- A reference that is no array of either region and that the host prefix does not write ends as launched. -/
theorem W3_outside (c : Dev nD) (b : Ref sig .tc) (h1 : ∀ w, Pipeline.arrRef spec1 w ≠ b) (h0 : ∀ w, Pipeline.arrRef spec0 w ≠ b)
    (hb : b ∉ (hostOps0_W : List (Ref sig .tc))) : W3 m c (Proc.devRef .tc b) = m ((c : Thread nD τ).loc b) :=
  (W3_of_ne m c b h1).trans ((W2_of_ne m c b h0).trans (W1_kept m c b hb))

/-- The node features: region 0 reads them through its window 0. -/
theorem W3_arg0 (c : Dev nD) : W3 m c (Proc.devRef .tc main_arg0) = m ((c : Thread nD τ).loc main_arg0) :=
  (W3_of_ne m c main_arg0 (by decide)).trans ((W2_input m c 0 rfl).trans (W1_kept m c main_arg0 (by decide)))
theorem W3_arg1 (c : Dev nD) : W3 m c (Proc.devRef .tc main_arg1) = m ((c : Thread nD τ).loc main_arg1) :=
  W3_outside m c main_arg1 (by decide) (by decide) (by decide)
theorem W3_arg2 (c : Dev nD) : W3 m c (Proc.devRef .tc main_arg2) = m ((c : Thread nD τ).loc main_arg2) :=
  W3_outside m c main_arg2 (by decide) (by decide) (by decide)
/-- The first dense layer's weights: region 0 reads them through its window 3. -/
theorem W3_arg3 (c : Dev nD) : W3 m c (Proc.devRef .tc main_arg3) = m ((c : Thread nD τ).loc main_arg3) :=
  (W3_of_ne m c main_arg3 (by decide)).trans ((W2_input m c 3 rfl).trans (W1_kept m c main_arg3 (by decide)))
theorem W3_arg4 (c : Dev nD) : W3 m c (Proc.devRef .tc main_arg4) = m ((c : Thread nD τ).loc main_arg4) :=
  W3_outside m c main_arg4 (by decide) (by decide) (by decide)
theorem W3_arg5 (c : Dev nD) : W3 m c (Proc.devRef .tc main_arg5) = m ((c : Thread nD τ).loc main_arg5) :=
  W3_outside m c main_arg5 (by decide) (by decide) (by decide)
theorem W3_arg6 (c : Dev nD) : W3 m c (Proc.devRef .tc main_arg6) = m ((c : Thread nD τ).loc main_arg6) :=
  W3_outside m c main_arg6 (by decide) (by decide) (by decide)
/-- The second dense layer's weights: region 1 reads them through its window 5. -/
theorem W3_arg7 (c : Dev nD) : W3 m c (Proc.devRef .tc main_arg7) = m ((c : Thread nD τ).loc main_arg7) :=
  (W3_input m c 5 rfl).trans ((W2_of_ne m c main_arg7 (by decide)).trans (W1_kept m c main_arg7 (by decide)))
theorem W3_arg8 (c : Dev nD) : W3 m c (Proc.devRef .tc main_arg8) = m ((c : Thread nD τ).loc main_arg8) :=
  W3_outside m c main_arg8 (by decide) (by decide) (by decide)
theorem W3_arg9 (c : Dev nD) : W3 m c (Proc.devRef .tc main_arg9) = m ((c : Thread nD τ).loc main_arg9) :=
  W3_outside m c main_arg9 (by decide) (by decide) (by decide)

/-! ## The proof data of both pipelines and the thread state between segments -/

/-- Region 0's arrays at its exit are the contents region 1 is entered from; every other buffer is as region 0 found it. -/
theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Likewise region 1's arrays at its exit against the last contents. -/
theorem exit1_arr (c : Dev nD) (w : Fin cfg1.W) : (dat1 (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-- Each pipeline's proof data at the contents its region is entered from: region 0 after the host prefix, region 1
    after region 0. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything: no pair carries a level. -/
abbrev L : GSem nD τ sig → Finset Unit := fun _ => ∅
abbrev lv : GSem nD τ sig → Unit → ℕ := fun _ _ => 0

/-- What a core holds beside its unscoped buffers between two segments: its generator register at some state, and
    nothing owed. -/
abbrev Ride (c : Dev nD) : sProp 𝕄 :=
  iprop((∃ r, prngReg c r) ∗ ∃ W, owes (c : Thread nD τ) (0 : CellTallies nD τ sig Unit) W)

/-- The thread state at a boundary whose contents are `W`. -/
abbrev At (W : Dev nD → Valuation τ sig (Elt F)) (c : Dev nD) : sProp 𝕄 :=
  iprop(StableHlo.held (c : Thread nD τ) (Pipeline.ucRefs τ sig) (W c) ∗ Ride c)

/-- The last thread state apart from the nothing-owed part: every unscoped buffer at the last contents, the generator
    register at some state. -/
abbrev Tₙ (c : Dev nD) : sProp 𝕄 :=
  iprop(StableHlo.held (c : Thread nD τ) (Pipeline.ucRefs τ sig) (W3 m c) ∗ ∃ r, prngReg c r)

/-- The host prefix as a segment over the unscoped buffers, from the launch contents to those after its 23 operations. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Ride

/-- An unscoped reference of the core is among the buffers the thread state holds. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two regions as segments -/

set_option backward.isDefEq.respectTransparency.types false in
/-- Region 0 between the contents after the host prefix and those it leaves. Its eight arrays are split out of the
    unscoped buffers and put back at what the write-backs leave; the generator register and the scoped buffers no
    window stages enter the invariant before the first point and come back from the one after the last, whatever the
    scratch rows then hold; nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := At (W1 m)
  post := At (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    refine BIBase.Entails.trans ?_ (hin0 (V1 m) c)
    unfold Pipeline.ΦA
    iintro ⟨Hreg, -, Hscoped⟩
    isplitl [Hscoped]; · iexact Hscoped
    iexact Hreg
  hout c := by
    rw [Pipeline.ownSems0_none]
    refine BIBase.Entails.trans (hout0 (V1 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Region 1 between the contents region 0 leaves and the last ones. Its arrays are split out and put back as for
    region 0; its invariant is the class's at every point (the scoped buffers no window stages and the generator
    register, untouched); nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre := At (W2 m)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩
    iexists W; iexact Howes

/-! ## @main as its three segments, and the launch -/

/-- The host prefix, region 0, region 1: nothing stands between the regions or after the second. -/
abbrev mainSegs : List (Pipeline.Seg (pcfgs (F := F)) adm (pdats m) () defs₀ 𝒱₀ L lv) :=
  [ .host (hostSeg m), .region (reg0 m), .region (reg1 m) ]

/-- @main is the run of those segments. -/
theorem main_run (c : Dev nD) : main (F := F) c = Pipeline.Seg.run (mainSegs m) := (main_chain c).trans (by chain_rfl)

set_option backward.isDefEq.respectTransparency.types false in
theorem run_main : θ_run defs (onTc (τ := τ) (main (F := F))) ⟨m, fun _ => 0, ρ⟩ (fun r => ∀ c : Dev nD,
      r.2.mem ((c.tc : Thread nD τ).loc main_v21) = (dat1 (V2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m c b)
    (hfin := fun c s' => by
      iintro ⟨⟨Hbufs, -⟩, HSI⟩
      unfold StableHlo.held
      imodintro
      iapply (pointsTo_read_all (Pipeline.ucRefs τ sig) (fun b => (((c : Thread nD τ)).1, b)) (W3 m c) s')
      isplitl [Hbufs] <;> iassumption)
    (hQ := fun s h c =>
      ⟨(h c _ (unscoped_mem main_v21 (by decide))).trans (W3_result m c),
       (h c _ (unscoped_mem main_arg0 (by decide))).trans (W3_arg0 m c),
       (h c _ (unscoped_mem main_arg1 (by decide))).trans (W3_arg1 m c),
       (h c _ (unscoped_mem main_arg2 (by decide))).trans (W3_arg2 m c),
       (h c _ (unscoped_mem main_arg3 (by decide))).trans (W3_arg3 m c),
       (h c _ (unscoped_mem main_arg4 (by decide))).trans (W3_arg4 m c),
       (h c _ (unscoped_mem main_arg5 (by decide))).trans (W3_arg5 m c),
       (h c _ (unscoped_mem main_arg6 (by decide))).trans (W3_arg6 m c),
       (h c _ (unscoped_mem main_arg7 (by decide))).trans (W3_arg7 m c),
       (h c _ (unscoped_mem main_arg8 (by decide))).trans (W3_arg8 m c),
       (h c _ (unscoped_mem main_arg9 (by decide))).trans (W3_arg9 m c)⟩)

end Cert.Kernel.Hand

end
-- ==== Proof.KiData.lean ====
/-
  The shared data of the two kernel regions, at any float instance.

  Region 0 walks the 10000 rows in five blocks of 2000. At each block it forms the GIN pre-activation
  (1 + eps) * x + agg, applies the first dense layer (rows0), adds the block's column sums of that
  result and of its squares into two running rows kept in scratch memory (acc0), and at the last block
  divides both by the row count to leave the batch mean and the variance E[y^2] - E[y]^2.
  Region 1 walks the same five blocks: it normalises each row with those statistics, rectifies it and
  applies the second dense layer.

  Here: each window's block at a grid point as the region finds its array; what the body leaves in every
  staging buffer after a point; the region invariant, which from the first point on holds the two scratch
  rows at the running sums; and the proof data of both pipelines over these.
-/
import proofs.«152078_j21801253995167_1_alg».proof.Proof.Gen.KernelIdeal.Launch
import proofs.«152078_j21801253995167_1_alg».proof.Proof.Gen.KernelIdeal.Skeleton
import proofs.«152078_j21801253995167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when a region is entered: every definition below is stated at this parameter
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first dense layer on the 2000 rows of point `t`: ((1 + eps) * x + agg) W1 + b1. -/
def rows0 (c : Dev nD) (t : Fin cfg0.N) : Vec F S2000x256 .f32 :=
  k0_pay6 (iblk0 V c 2 t) (iblk0 V c 0 t) (iblk0 V c 1 t) (iblk0 V c 3 t) (iblk0 V c 4 t)

/-- The column sums of the squares of those rows. -/
def sqsum0 (c : Dev nD) (t : Fin cfg0.N) : FVec F S256 .f32 :=
  k0_pay8 (iblk0 V c 2 t) (iblk0 V c 0 t) (iblk0 V c 1 t) (iblk0 V c 3 t) (iblk0 V c 4 t)

/-- The two scratch rows after the body at position `n`: the running column sums of the dense layer's rows and of
    their squares, started from zero at the first point. -/
def acc0 (c : Dev nD) : (n : ℕ) → n < cfg0.N → Vec F S1x256 .f32 × Vec F S1x256 .f32
  | 0, hn =>
    (k0_pay7 (iblk0 V c 2 ⟨0, hn⟩) (iblk0 V c 0 ⟨0, hn⟩) (iblk0 V c 1 ⟨0, hn⟩) (iblk0 V c 3 ⟨0, hn⟩) (iblk0 V c 4 ⟨0, hn⟩) (k0_pay4 (F := F)),
     k0_pay1 (k0_pay5 (F := F)) (sqsum0 V c ⟨0, hn⟩))
  | n + 1, hn =>
    (k0_pay7 (iblk0 V c 2 ⟨n + 1, hn⟩) (iblk0 V c 0 ⟨n + 1, hn⟩) (iblk0 V c 1 ⟨n + 1, hn⟩) (iblk0 V c 3 ⟨n + 1, hn⟩) (iblk0 V c 4 ⟨n + 1, hn⟩)
        (acc0 c n (Nat.lt_of_succ_lt hn)).1,
     k0_pay1 (acc0 c n (Nat.lt_of_succ_lt hn)).2 (sqsum0 V c ⟨n + 1, hn⟩))

/-- The scoped buffers of the core that region 0 neither stages nor uses as scratch (region 1's staging buffers),
    each whole at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f))

/-- The scoped buffers no window of region 0 stages: its two scratch rows, then region 1's staging buffers. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ otherScoped0 (F := F) c) :=
  scopedRest0_eq c

/-- The region invariant before position `n`: before the first point whatever the launch hands the region (every
    scoped buffer it does not stage at anything, the generator register at some state); afterwards the two scratch
    rows at the running sums the point before left, the other scoped buffers at anything, the register at some state. -/
def PhiS (c : Dev nD) : (n : ℕ) → n ≤ cfg0.N → sProp 𝕄
  | 0, _ => Pipeline.ΦA spec0 c
  | n + 1, hn =>
    iprop(owns (c : Thread nD τ) (Memref.whole cc0_scratch0) fullShare ((acc0 V c n hn).1)
      ∗ owns (c : Thread nD τ) (Memref.whole cc0_scratch1) fullShare ((acc0 V c n hn).2)
      ∗ otherScoped0 (F := F) c ∗ (∃ r, prngReg c r))

/-- The proof data of pipeline 0 on core `c`: the arrays as the region finds them; after the body at point `t` each
    input's buffer at its block, the dense layer's rows in window 5, and in windows 6 and 7 the mean and the variance
    formed from the running sums (stored, and written back, at the last point only: elsewhere a placeholder nothing
    consults); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => rows0 V c t
    | ⟨6, _⟩ => k0_pay2 ((acc0 V c t.val t.isLt).1)
    | ⟨7, _⟩ => k0_pay3 ((acc0 V c t.val t.isLt).1) ((acc0 V c t.val t.isLt).2)
  Φ t := PhiS V c t.val (Nat.le_of_lt_succ t.isLt)
  q _ := fullShare
  owed _ := 0

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalised, rectified rows of point `t` through the second dense layer. -/
def rows1 (c : Dev nD) (t : Fin cfg1.N) : Vec F S2000x256 .f32 :=
  k1_pay1 (iblk1 V c 0 t) (iblk1 V c 1 t) (iblk1 V c 2 t) (iblk1 V c 3 t) (iblk1 V c 4 t) (iblk1 V c 5 t) (iblk1 V c 6 t)

/-- The proof data of pipeline 1 on core `c`: every input's buffer at its block, the output's at `rows1`; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => rows1 V c t
  Φ _ := Pipeline.ΦA spec1 c
  q _ := fullShare
  owed _ := 0

end Cert.KernelIdeal.Hand

end
-- ==== Proof.KiFold.lean ====
/-
  The contents of the core's buffers at each boundary of the kernel program's @main: at launch, after the host
  prefix (the gather, the scatter-add and the reshapes), after region 0 (its three result arrays at what the
  pipeline's write-backs leave, every other buffer as entered), after region 1 (likewise its one result array).
-/
import proofs.«152078_j21801253995167_1_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the host prefix (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 1's entry: no host operation stands between the regions). -/
abbrev V2 : (c : Dev nD) → (b : Ref sig .tc) → Buf (Elt F) ((c : Thread nD τ).loc b) := fun c b => W2 m c b

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b

/-- The result array ends at what region 1's write-backs leave. -/
theorem W3_result (c : Dev nD) : W3 m c (Proc.devRef .tc main_v21) = (dat1 (V2 m) c).arrAt 7 cfg1.N := W3_arr m c 7

/-- Region 1 finds the dense layer's rows, the mean and the variance where region 0's write-backs left them. -/
theorem V2_rows (c : Dev nD) : V2 m c main_v20_0 = (dat0 (V1 m) c).arrAt 5 cfg0.N := W2_arr m c 5
theorem V2_mean (c : Dev nD) : V2 m c main_v20_1 = (dat0 (V1 m) c).arrAt 6 cfg0.N := W2_arr m c 6
theorem V2_var (c : Dev nD) : V2 m c main_v20_2 = (dat0 (V1 m) c).arrAt 7 cfg0.N := W2_arr m c 7
/-- and its other operands as the host prefix left them. -/
theorem V2_gamma (c : Dev nD) : V2 m c main_v16 = V1 m c main_v16 := W2_of_ne m c main_v16 (by decide)
theorem V2_beta (c : Dev nD) : V2 m c main_v17 = V1 m c main_v17 := W2_of_ne m c main_v17 (by decide)
theorem V2_w2 (c : Dev nD) : V2 m c main_arg7 = V1 m c main_arg7 := W2_of_ne m c main_arg7 (by decide)
theorem V2_b2 (c : Dev nD) : V2 m c main_v18 = V1 m c main_v18 := W2_of_ne m c main_v18 (by decide)

end Cert.KernelIdeal.Hand

end
-- ==== Proof.KiBody0.lean ====
/-
  The body of region 0 (the first dense layer with its running column sums) run once, in each of its three control
  cases. The grid has five points. At the first point the two scratch rows are cleared before the block's column
  sums are added; at the points in between the sums are added to what the point before left; at the last point,
  after adding, the sums are divided by the row count and the mean and the variance E[y^2] - E[y]^2 are stored.
  Each statement names what every buffer the body touches holds afterwards, as the skeleton's payloads of what
  was read: the inputs stay, the output block is the dense layer's rows, the scratch rows are the updated sums.
-/
import proofs.«152078_j21801253995167_1_alg».proof.Proof.KiData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid coordinate is one of 0..4, so the first test (is the coordinate zero) holds exactly at 0. -/
theorem body0_test1_iff (i : grid0.Coords) :
    (Scalar.cmpi .ne (Scalar.extui (Scalar.cmpi .eq (BitVec.ofNat 32 (i 0).val) 0#32)) 0#32 = 1#1) ↔ (i 0).val = 0 := by
  have h : ∀ n : Fin 5, (Scalar.cmpi .ne (Scalar.extui (Scalar.cmpi .eq (BitVec.ofNat 32 n.val) 0#32)) 0#32 = 1#1) ↔ n.val = 0 := by
    decide
  exact h (i 0)

/-- The second test (is the coordinate four) holds exactly at 4. -/
theorem body0_test2_iff (i : grid0.Coords) : k0_cond2 i = 1#1 ↔ (i 0).val = 4 := by
  have h : ∀ n : Fin 5, (Scalar.cmpi .ne (Scalar.extui (Scalar.cmpi .eq (BitVec.ofNat 32 n.val) 4#32)) 0#32 = 1#1) ↔ n.val = 4 := by
    decide
  unfold k0_cond2
  exact h (i 0)

/-- The zero offsets of a whole-buffer access, however they are spelt. -/
theorem body0_hz : (![0, 0] : Fin 2 → Nat) = fun _ => 0 := funext fun a => by fin_cases a <;> rfl

/-- A load through the whole-shape rectangle reads the buffer's contents. -/
theorem body0_readAt_whole {S : Shape} {e : EltTy} (v : View sig .tc .vmem S e) (f : v.ty.Contents (Elt F))
    {off : Fin S.rank → Nat} (hz : off = fun _ => 0) (inb : ∀ a, off a + S.size a ≤ S.size a) :
    v.readAt (Elt F) (Rect.unit off S.size inb).toLoadRect f = v.read (Elt F) f := by
  rw [View.readAt_eq_ld, View.ld_unit_zero hz]

/-- After stores of which the last is through the whole-shape rectangle, the buffer reads as that store's payload. -/
theorem body0_read_writes_whole {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- What a buffer reads after the run is the payload of its last whole store, each load in it read as the contents
    (or as the payload of the whole store before it). -/
local macro "body0_reads" : tactic => `(tactic| (
  ipureintro
  try sl_unfold_run_names
  rw [body0_read_writes_whole _ _ body0_hz]
  try simp only [View.readCov_unit_zero (S := S1x256) _ body0_hz, body0_readAt_whole (S := S1x1) _ _ body0_hz,
    body0_readAt_whole (S := S2000x256) _ _ body0_hz, body0_readAt_whole (S := S256x256) _ _ body0_hz,
    body0_readAt_whole (S := S1x256) _ _ body0_hz]))

/-- The first point: the scratch rows start from zero. The mean and variance buffers are not touched. -/
theorem run0_first (c : Dev nD) (E : Set ℕ) (i : grid0.Coords) (hi : (i 0).val = 0)
    (a1 : Memref sig .tc .vmem S2000x256 .f32) (h1 : a1.IsWhole) (a2 : Memref sig .tc .vmem S2000x256 .f32) (h2 : a2.IsWhole)
    (a3 : Memref sig .tc .vmem S1x1 .f32) (h3 : a3.IsWhole) (a4 : Memref sig .tc .vmem S256x256 .f32) (h4 : a4.IsWhole)
    (a5 : Memref sig .tc .vmem S1x256 .f32) (h5 : a5.IsWhole) (a6 : Memref sig .tc .vmem S2000x256 .f32) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (x agg : Vec F S2000x256 .f32) (e : Vec F S1x1 .f32) (w : Vec F S256x256 .f32) (b : Vec F S1x256 .f32)
    (d7 d8 : Vec F S1x256 .f32) (K : PUnit → sProp 𝕄) :
    iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
        ∗ (∃ d, owns (c : Thread nD τ) a6 fullShare d) ∗ owns (c : Thread nD τ) a7 fullShare d7 ∗ owns (c : Thread nD τ) a8 fullShare d8
        ∗ (∃ d, owns (c : Thread nD τ) a9 fullShare d) ∗ (∃ d, owns (c : Thread nD τ) a10 fullShare d)
        ∗ (iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
            ∗ owns (c : Thread nD τ) a6 fullShare (k0_pay6 e x agg w b)
            ∗ owns (c : Thread nD τ) a7 fullShare d7 ∗ owns (c : Thread nD τ) a8 fullShare d8
            ∗ owns (c : Thread nD τ) a9 fullShare (k0_pay7 e x agg w b (k0_pay4 (F := F)))
            ∗ owns (c : Thread nD τ) a10 fullShare (k0_pay1 (k0_pay5 (F := F)) (k0_pay8 e x agg w b))) -∗ K ⟨⟩))
      ⊢ wp frame (wpE (defs₀ (F := F)) Variants.none c none) E
          (cc0__linear1_bn_stats_kernel i a1 h1 a2 h2 a3 h3 a4 h4 a5 h5 a6 h6 a7 h7 a8 h8 a9 h9 a10 h10) K := by
  have hc1 : Scalar.cmpi .ne (Scalar.extui (Scalar.cmpi .eq (BitVec.ofNat 32 (i 0).val) 0#32)) 0#32 = 1#1 := by
    rw [body0_test1_iff]; exact hi
  have hc2 : ¬ (k0_cond2 i = 1#1) := by rw [body0_test2_iff]; omega
  sl_unfold [cc0__linear1_bn_stats_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1 hf2 hf3 hf4 hf5 hf7 hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    body0_reads
  isplitl [H7]
  · iexists f7; isplitr; · ipureintro; rfl
    iexact H7
  isplitl [H8]
  · iexists f8; isplitr; · ipureintro; rfl
    iexact H8
  isplitl [H9]
  · iexists _; isplitr
    swap; · iexact H9
    body0_reads
  iexists _; isplitr
  swap; · iexact H10
  body0_reads

/-- A point strictly between the first and the last: the sums grow by the block's. -/
theorem run0_mid (c : Dev nD) (E : Set ℕ) (i : grid0.Coords) (hlo : 0 < (i 0).val) (hhi : (i 0).val < 4)
    (a1 : Memref sig .tc .vmem S2000x256 .f32) (h1 : a1.IsWhole) (a2 : Memref sig .tc .vmem S2000x256 .f32) (h2 : a2.IsWhole)
    (a3 : Memref sig .tc .vmem S1x1 .f32) (h3 : a3.IsWhole) (a4 : Memref sig .tc .vmem S256x256 .f32) (h4 : a4.IsWhole)
    (a5 : Memref sig .tc .vmem S1x256 .f32) (h5 : a5.IsWhole) (a6 : Memref sig .tc .vmem S2000x256 .f32) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (x agg : Vec F S2000x256 .f32) (e : Vec F S1x1 .f32) (w : Vec F S256x256 .f32) (b : Vec F S1x256 .f32)
    (d7 d8 s q : Vec F S1x256 .f32) (K : PUnit → sProp 𝕄) :
    iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
        ∗ (∃ d, owns (c : Thread nD τ) a6 fullShare d) ∗ owns (c : Thread nD τ) a7 fullShare d7 ∗ owns (c : Thread nD τ) a8 fullShare d8
        ∗ owns (c : Thread nD τ) a9 fullShare s ∗ owns (c : Thread nD τ) a10 fullShare q
        ∗ (iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
            ∗ owns (c : Thread nD τ) a6 fullShare (k0_pay6 e x agg w b)
            ∗ owns (c : Thread nD τ) a7 fullShare d7 ∗ owns (c : Thread nD τ) a8 fullShare d8
            ∗ owns (c : Thread nD τ) a9 fullShare (k0_pay7 e x agg w b s)
            ∗ owns (c : Thread nD τ) a10 fullShare (k0_pay1 q (k0_pay8 e x agg w b))) -∗ K ⟨⟩))
      ⊢ wp frame (wpE (defs₀ (F := F)) Variants.none c none) E
          (cc0__linear1_bn_stats_kernel i a1 h1 a2 h2 a3 h3 a4 h4 a5 h5 a6 h6 a7 h7 a8 h8 a9 h9 a10 h10) K := by
  have hc1 : ¬ (Scalar.cmpi .ne (Scalar.extui (Scalar.cmpi .eq (BitVec.ofNat 32 (i 0).val) 0#32)) 0#32 = 1#1) := by
    rw [body0_test1_iff]; omega
  have hc2 : ¬ (k0_cond2 i = 1#1) := by rw [body0_test2_iff]; omega
  sl_unfold [cc0__linear1_bn_stats_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1 hf2 hf3 hf4 hf5 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    body0_reads
  isplitl [H7]
  · iexists f7; isplitr; · ipureintro; rfl
    iexact H7
  isplitl [H8]
  · iexists f8; isplitr; · ipureintro; rfl
    iexact H8
  isplitl [H9]
  · iexists _; isplitr
    swap; · iexact H9
    body0_reads
  iexists _; isplitr
  swap; · iexact H10
  body0_reads

/-- The last point: after the sums grow, the mean and the variance are formed from them and stored. -/
theorem run0_last (c : Dev nD) (E : Set ℕ) (i : grid0.Coords) (hi : (i 0).val = 4)
    (a1 : Memref sig .tc .vmem S2000x256 .f32) (h1 : a1.IsWhole) (a2 : Memref sig .tc .vmem S2000x256 .f32) (h2 : a2.IsWhole)
    (a3 : Memref sig .tc .vmem S1x1 .f32) (h3 : a3.IsWhole) (a4 : Memref sig .tc .vmem S256x256 .f32) (h4 : a4.IsWhole)
    (a5 : Memref sig .tc .vmem S1x256 .f32) (h5 : a5.IsWhole) (a6 : Memref sig .tc .vmem S2000x256 .f32) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (x agg : Vec F S2000x256 .f32) (e : Vec F S1x1 .f32) (w : Vec F S256x256 .f32) (b : Vec F S1x256 .f32)
    (s q : Vec F S1x256 .f32) (K : PUnit → sProp 𝕄) :
    iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
        ∗ (∃ d, owns (c : Thread nD τ) a6 fullShare d) ∗ (∃ d, owns (c : Thread nD τ) a7 fullShare d) ∗ (∃ d, owns (c : Thread nD τ) a8 fullShare d)
        ∗ owns (c : Thread nD τ) a9 fullShare s ∗ owns (c : Thread nD τ) a10 fullShare q
        ∗ (iprop(owns (c : Thread nD τ) a1 fullShare x ∗ owns (c : Thread nD τ) a2 fullShare agg ∗ owns (c : Thread nD τ) a3 fullShare e
        ∗ owns (c : Thread nD τ) a4 fullShare w ∗ owns (c : Thread nD τ) a5 fullShare b
            ∗ owns (c : Thread nD τ) a6 fullShare (k0_pay6 e x agg w b)
            ∗ owns (c : Thread nD τ) a7 fullShare (k0_pay2 (k0_pay7 e x agg w b s))
            ∗ owns (c : Thread nD τ) a8 fullShare (k0_pay3 (k0_pay7 e x agg w b s) (k0_pay1 q (k0_pay8 e x agg w b)))
            ∗ owns (c : Thread nD τ) a9 fullShare (k0_pay7 e x agg w b s)
            ∗ owns (c : Thread nD τ) a10 fullShare (k0_pay1 q (k0_pay8 e x agg w b))) -∗ K ⟨⟩))
      ⊢ wp frame (wpE (defs₀ (F := F)) Variants.none c none) E
          (cc0__linear1_bn_stats_kernel i a1 h1 a2 h2 a3 h3 a4 h4 a5 h5 a6 h6 a7 h7 a8 h8 a9 h9 a10 h10) K := by
  have hc1 : ¬ (Scalar.cmpi .ne (Scalar.extui (Scalar.cmpi .eq (BitVec.ofNat 32 (i 0).val) 0#32)) 0#32 = 1#1) := by
    rw [body0_test1_iff]; omega
  have hc2 : k0_cond2 i = 1#1 := by rw [body0_test2_iff]; exact hi
  sl_unfold [cc0__linear1_bn_stats_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    body0_reads
  isplitl [H7]
  · iexists _; isplitr
    swap; · iexact H7
    body0_reads
  isplitl [H8]
  · iexists _; isplitr
    swap; · iexact H8
    body0_reads
  isplitl [H9]
  · iexists _; isplitr
    swap; · iexact H9
    body0_reads
  iexists _; isplitr
  swap; · iexact H10
  body0_reads

end Cert.KernelIdeal.Hand

end
-- ==== Proof.KiOblig0.lean ====
/-
  Region 0's body obligation. At every grid point the pipeline hands the body its windows' staging buffers and the
  region invariant; the point is the first, the last or one in between, and the matching run of the body returns
  every buffer at what the proof data names: the inputs at their blocks, the output block at the dense layer's rows,
  the two scratch rows (inside the invariant) at the running column sums after this point, and the mean and variance
  buffers stored at the last point only and handed back untouched elsewhere.
-/
import proofs.«152078_j21801253995167_1_alg».proof.Proof.KiData
import proofs.«152078_j21801253995167_1_alg».proof.Proof.KiBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

/-! ## The grid: one axis of five points -/

/-- The one coordinate of a point is its position. -/
theorem coord0 : ∀ t : Fin cfg0.N, ((grid0.coords t) 0).val = t.val :=
  (by decide +kernel : ∀ t : Fin grid0.N, ((grid0.coords t) 0).val = t.val)

/-! ## The running sums and the invariant, equation by equation -/

theorem acc0_zero (c : Dev nD) (hn : 0 < cfg0.N) :
    acc0 V c 0 hn
      = (k0_pay7 (iblk0 V c 2 ⟨0, hn⟩) (iblk0 V c 0 ⟨0, hn⟩) (iblk0 V c 1 ⟨0, hn⟩) (iblk0 V c 3 ⟨0, hn⟩) (iblk0 V c 4 ⟨0, hn⟩) (k0_pay4 (F := F)),
         k0_pay1 (k0_pay5 (F := F)) (sqsum0 V c ⟨0, hn⟩)) := rfl

theorem acc0_succ (c : Dev nD) (n : ℕ) (hn : n + 1 < cfg0.N) :
    acc0 V c (n + 1) hn
      = (k0_pay7 (iblk0 V c 2 ⟨n + 1, hn⟩) (iblk0 V c 0 ⟨n + 1, hn⟩) (iblk0 V c 1 ⟨n + 1, hn⟩) (iblk0 V c 3 ⟨n + 1, hn⟩) (iblk0 V c 4 ⟨n + 1, hn⟩)
            (acc0 V c n (Nat.lt_of_succ_lt hn)).1,
         k0_pay1 (acc0 V c n (Nat.lt_of_succ_lt hn)).2 (sqsum0 V c ⟨n + 1, hn⟩)) := rfl

/-- The running sums at the first point, stated at the point. -/
theorem acc0_first (c : Dev nD) (t : Fin cfg0.N) (hz : t.val = 0) :
    acc0 V c t.val t.isLt
      = (k0_pay7 (iblk0 V c 2 t) (iblk0 V c 0 t) (iblk0 V c 1 t) (iblk0 V c 3 t) (iblk0 V c 4 t) (k0_pay4 (F := F)),
         k0_pay1 (k0_pay5 (F := F)) (sqsum0 V c t)) := by
  obtain ⟨n, hn⟩ := t
  cases n with
  | zero => rfl
  | succ n => exact absurd hz (Nat.succ_ne_zero n)

/-- The running sums at a later point, over those of the point before. -/
theorem acc0_later (c : Dev nD) (t : Fin cfg0.N) (hz : t.val ≠ 0) :
    acc0 V c t.val t.isLt
      = (k0_pay7 (iblk0 V c 2 t) (iblk0 V c 0 t) (iblk0 V c 1 t) (iblk0 V c 3 t) (iblk0 V c 4 t)
            (acc0 V c (t.val - 1) (Nat.lt_of_le_of_lt (Nat.sub_le _ _) t.isLt)).1,
         k0_pay1 (acc0 V c (t.val - 1) (Nat.lt_of_le_of_lt (Nat.sub_le _ _) t.isLt)).2 (sqsum0 V c t)) := by
  obtain ⟨n, hn⟩ := t
  cases n with
  | zero => exact absurd rfl hz
  | succ n => rfl

theorem PhiS_zero (c : Dev nD) (n : ℕ) (h : n ≤ cfg0.N) (hz : n = 0) : PhiS V c n h = Pipeline.ΦA spec0 c := by
  subst hz; rfl

/-- After point `n`: the scratch rows at that point's running sums. -/
theorem PhiS_succ (c : Dev nD) (n : ℕ) (hn : n < cfg0.N) :
    PhiS V c (n + 1) hn
      = iprop(owns (c : Thread nD τ) (Memref.whole cc0_scratch0) fullShare ((acc0 V c n hn).1)
          ∗ owns (c : Thread nD τ) (Memref.whole cc0_scratch1) fullShare ((acc0 V c n hn).2)
          ∗ otherScoped0 (F := F) c ∗ (∃ r, prngReg c r)) := rfl

/-- Before a point that is not the first: the scratch rows at what the point before left. -/
theorem PhiS_pos (c : Dev nD) (n : ℕ) (h : n ≤ cfg0.N) (hz : n ≠ 0) :
    PhiS V c n h
      = iprop(owns (c : Thread nD τ) (Memref.whole cc0_scratch0) fullShare ((acc0 V c (n - 1) (by omega)).1)
          ∗ owns (c : Thread nD τ) (Memref.whole cc0_scratch1) fullShare ((acc0 V c (n - 1) (by omega)).2)
          ∗ otherScoped0 (F := F) c ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the launch hands the region, the two scratch rows as whole memrefs owned at some contents. -/
theorem PhiA0_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ otherScoped0 (F := F) c) ∗ (∃ r, prngReg c r)) := by
  unfold Pipeline.ΦA; rw [scopedRest0_split]; simp only [owns_whole]; try rfl

/-! ## What the body leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = rows0 V c t := by dsimp only [dat0]
theorem after0_6 (c : Dev nD) (t : Fin cfg0.N) : (dat0 V c).after 6 t = k0_pay2 ((acc0 V c t.val t.isLt).1) := by dsimp only [dat0]
theorem after0_7 (c : Dev nD) (t : Fin cfg0.N) :
    (dat0 V c).after 7 t = k0_pay3 ((acc0 V c t.val t.isLt).1) ((acc0 V c t.val t.isLt).2) := by dsimp only [dat0]

/-! ## What the body finds in the inputs' buffers -/

/-- An input's current staging buffer holds its block at every point, fetched there or not: where it is not
    fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## Where the mean and variance windows are idle -/

/-- The windows that are stored at every point are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl
theorem liveAt0_5 (t : Fin cfg0.N) : cfg0.idle 5 (grid0.coords t) = false := rfl
/-- The mean and the variance are stored at the last point only: before it their windows are idle -/
theorem idleAt0_6 : ∀ t : Fin cfg0.N, t.val ≠ 4 → cfg0.idle 6 (grid0.coords t) = true :=
  (by decide +kernel : ∀ t : Fin grid0.N, t.val ≠ 4 → idle0 6 (grid0.coords t) = true)
theorem idleAt0_7 : ∀ t : Fin cfg0.N, t.val ≠ 4 → cfg0.idle 7 (grid0.coords t) = true :=
  (by decide +kernel : ∀ t : Fin grid0.N, t.val ≠ 4 → idle0 7 (grid0.coords t) = true)
/-- and not written back, -/
theorem noFlush0_6 (t : Fin cfg0.N) (h : t.val ≠ 4) : (cfg0.win 6).flush t = false := by
  have hN : t.val < 5 := lt_of_lt_of_eq t.isLt (show cfg0.N = 5 from N_0)
  cases hf : (cfg0.win 6).flush t with
  | false => rfl
  | true => exact absurd ((flush0_6 t).mp hf) (by omega)
theorem noFlush0_7 (t : Fin cfg0.N) (h : t.val ≠ 4) : (cfg0.win 7).flush t = false := by
  have hN : t.val < 5 := lt_of_lt_of_eq t.isLt (show cfg0.N = 5 from N_0)
  cases hf : (cfg0.win 7).flush t with
  | false => rfl
  | true => exact absurd ((flush0_7 t).mp hf) (by omega)
/-- and at the last point they are live. -/
theorem liveAt0_6 : ∀ t : Fin cfg0.N, t.val = 4 → cfg0.idle 6 (grid0.coords t) = false :=
  (by decide +kernel : ∀ t : Fin grid0.N, t.val = 4 → idle0 6 (grid0.coords t) = false)
theorem liveAt0_7 : ∀ t : Fin cfg0.N, t.val = 4 → cfg0.idle 7 (grid0.coords t) = false :=
  (by decide +kernel : ∀ t : Fin grid0.N, t.val = 4 → idle0 7 (grid0.coords t) = false)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- A window live at a point is left at what the proof data names. -/
theorem leaves_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- The first point: the invariant is what the launch hands over, the scratch rows at anything; the run clears
    them and leaves the first block's sums; the mean and variance buffers go back as found. -/
theorem sound_body0_first (c : Dev nD) (t : Fin cfg0.N) (hz : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have h4 : t.val ≠ 4 := by omega
  rw [leaves_live V c 0 t (liveAt0_0 t), leaves_live V c 1 t (liveAt0_1 t), leaves_live V c 2 t (liveAt0_2 t),
    leaves_live V c 3 t (liveAt0_3 t), leaves_live V c 4 t (liveAt0_4 t), leaves_live V c 5 t (liveAt0_5 t),
    Dat.leavesExact_idle (dat0 V c) 6 t (idleAt0_6 t h4) (noFlush0_6 t h4),
    Dat.leavesExact_idle (dat0 V c) 7 t (idleAt0_7 t h4) (noFlush0_7 t h4),
    after0_0, after0_1, after0_2, after0_3, after0_4, after0_5]
  rw [acc0_first V c t hz, PhiS_castSucc V c t, PhiS_zero V c _ _ hz, PhiA0_eq]
  unfold rows0 sqsum0
  iintro ⟨⟨⟨HS0, HS1, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_first c Set.univ (grid0.coords t) ((coord0 t).trans hz) _ _ _ _ _ _ _ _ _ _ _ _ _ _ _ _ _ _ _ _
    (iblk0 V c 0 t) (iblk0 V c 1 t) (iblk0 V c 2 t) (iblk0 V c 3 t) (iblk0 V c 4 t)
    ((dat0 V c).before 6 t d6) ((dat0 V c).before 7 t d7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 HO Hg]
  · isplitl [HS0]; · iexact HS0
    isplitl [HS1]; · iexact HS1
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4800000 in
/-- A point strictly between the first and the last: the invariant holds the scratch rows at the sums the point
    before left; the run adds this block's; the mean and variance buffers go back as found. -/
theorem sound_body0_mid (c : Dev nD) (t : Fin cfg0.N) (hlo : 0 < t.val) (hhi : t.val < 4) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have h4 : t.val ≠ 4 := by omega
  have hz : t.val ≠ 0 := by omega
  rw [leaves_live V c 0 t (liveAt0_0 t), leaves_live V c 1 t (liveAt0_1 t), leaves_live V c 2 t (liveAt0_2 t),
    leaves_live V c 3 t (liveAt0_3 t), leaves_live V c 4 t (liveAt0_4 t), leaves_live V c 5 t (liveAt0_5 t),
    Dat.leavesExact_idle (dat0 V c) 6 t (idleAt0_6 t h4) (noFlush0_6 t h4),
    Dat.leavesExact_idle (dat0 V c) 7 t (idleAt0_7 t h4) (noFlush0_7 t h4),
    after0_0, after0_1, after0_2, after0_3, after0_4, after0_5]
  rw [acc0_later V c t hz, PhiS_castSucc V c t, PhiS_pos V c _ _ hz]
  unfold rows0 sqsum0
  iintro ⟨⟨HS0, HS1, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_mid c Set.univ (grid0.coords t) (lt_of_lt_of_eq hlo (coord0 t).symm) (lt_of_eq_of_lt (coord0 t) hhi)
    _ _ _ _ _ _ _ _ _ _ _ _ _ _ _ _ _ _ _ _
    (iblk0 V c 0 t) (iblk0 V c 1 t) (iblk0 V c 2 t) (iblk0 V c 3 t) (iblk0 V c 4 t)
    ((dat0 V c).before 6 t d6) ((dat0 V c).before 7 t d7) _ _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 HO Hg]
  · isplitl [HS0]; · iexact HS0
    isplitl [HS1]; · iexact HS1
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4800000 in
/-- The last point: after this block's sums are added the run forms the mean and the variance from the totals and
    stores them; both windows are live there. -/
theorem sound_body0_last (c : Dev nD) (t : Fin cfg0.N) (h4 : t.val = 4) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hz : t.val ≠ 0 := by omega
  rw [leaves_live V c 0 t (liveAt0_0 t), leaves_live V c 1 t (liveAt0_1 t), leaves_live V c 2 t (liveAt0_2 t),
    leaves_live V c 3 t (liveAt0_3 t), leaves_live V c 4 t (liveAt0_4 t), leaves_live V c 5 t (liveAt0_5 t),
    leaves_live V c 6 t (liveAt0_6 t h4), leaves_live V c 7 t (liveAt0_7 t h4),
    after0_0, after0_1, after0_2, after0_3, after0_4, after0_5, after0_6, after0_7]
  rw [acc0_later V c t hz, PhiS_castSucc V c t, PhiS_pos V c _ _ hz]
  unfold rows0 sqsum0
  iintro ⟨⟨HS0, HS1, HO, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_last c Set.univ (grid0.coords t) ((coord0 t).trans h4)
    _ _ _ _ _ _ _ _ _ _ _ _ _ _ _ _ _ _ _ _
    (iblk0 V c 0 t) (iblk0 V c 1 t) (iblk0 V c 2 t) (iblk0 V c 3 t) (iblk0 V c 4 t) _ _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 HO Hg]
  · isplitl [HS0]; · iexact HS0
    isplitl [HS1]; · iexact HS1
    isplitl [HO]; · iexact HO
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point: the point is the first, the last, or one in between. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 5 := lt_of_lt_of_eq t.isLt (show cfg0.N = 5 from N_0)
  by_cases hz : t.val = 0
  · exact sound_body0_first V c t hz
  · by_cases h4 : t.val = 4
    · exact sound_body0_last V c t h4
    · exact sound_body0_mid V c t (by omega) (by omega)

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped rest and the generator register back, the scratch rows'
    contents forgotten. -/
theorem hout0 (c : Dev nD) : (dat0 V c).Φ (Fin.last cfg0.N) ⊢ Pipeline.ΦA spec0 c := by
  have hN : (Fin.last cfg0.N).val ≠ 0 := by rw [Fin.val_last]; have : cfg0.N = 5 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS0, HS1, HO, Hg⟩
  isplitl [HS0 HS1 HO]
  · isplitl [HS0]; · iexists _; iexact HS0
    isplitl [HS1]; · iexists _; iexact HS1
    iexact HO
  iexact Hg

end Cert.KernelIdeal.Hand

end
-- ==== Proof.KiOblig1.lean ====
/-
  Region 1's body (normalise with the batch statistics, rectify, second dense layer) and its body obligation: the
  body has one control case, reads its seven input blocks and stores the whole output block once.
-/
import proofs.«152078_j21801253995167_1_alg».proof.Proof.KiData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store go through the whole buffer -/

/-- The offsets of every access are zero. -/
theorem zeros1 : (![0, 0] : Fin 2 → ℕ) = fun _ => 0 :=
  funext fun a => match a with
    | ⟨0, _⟩ => rfl
    | ⟨1, _⟩ => rfl

/-- The whole 2000x256 buffer (the rows block, the output block). -/
abbrev rRows : Rect S2000x256 := Rect.unit (s := S2000x256) ![0, 0] S2000x256.size inb_S2000x256_S2000x256_0_0
/-- The whole 1x256 buffer (mean, variance, gamma, beta, bias). -/
abbrev rRow : Rect S1x256 := Rect.unit (s := S1x256) ![0, 0] S1x256.size inb_S1x256_S1x256_0_0
/-- The whole 256x256 buffer (the second layer's weights). -/
abbrev rMat : Rect S256x256 := Rect.unit (s := S256x256) ![0, 0] S256x256.size inb_S256x256_S256x256_0_0

/-- The output buffer after the body, from the seven inputs' read contents: its one store as a piece. -/
def out1_7 (x0 : Vec F S2000x256 .f32) (x1 x2 x3 x4 : Vec F S1x256 .f32) (x5 : Vec F S256x256 .f32) (x6 : Vec F S1x256 .f32) :
    Vec F S2000x256 .f32 :=
  View.canon [⟨rRows, k1_pay1 (View.ld x0 rRows) (View.ld x1 rRow) (View.ld x2 rRow) (View.ld x3 rRow) (View.ld x4 rRow)
    (View.ld x5 rMat) (View.ld x6 rRow)⟩]

/-- The one store is of the whole buffer, so what it leaves is its payload; and each load is of a whole buffer, so it
    reads the contents. -/
theorem out1_7_eq (x0 : Vec F S2000x256 .f32) (x1 x2 x3 x4 : Vec F S1x256 .f32) (x5 : Vec F S256x256 .f32) (x6 : Vec F S1x256 .f32) :
    out1_7 x0 x1 x2 x3 x4 x5 x6 = k1_pay1 x0 x1 x2 x3 x4 x5 x6 := by
  unfold out1_7
  rw [View.canon_unit_zero (S := S2000x256) zeros1 inb_S2000x256_S2000x256_0_0]
  rw [View.ld_unit_zero (S := S2000x256) zeros1 inb_S2000x256_S2000x256_0_0 x0,
    View.ld_unit_zero (S := S1x256) zeros1 inb_S1x256_S1x256_0_0 x1,
    View.ld_unit_zero (S := S1x256) zeros1 inb_S1x256_S1x256_0_0 x2,
    View.ld_unit_zero (S := S1x256) zeros1 inb_S1x256_S1x256_0_0 x3,
    View.ld_unit_zero (S := S1x256) zeros1 inb_S1x256_S1x256_0_0 x4,
    View.ld_unit_zero (S := S256x256) zeros1 inb_S256x256_S256x256_0_0 x5,
    View.ld_unit_zero (S := S1x256) zeros1 inb_S1x256_S1x256_0_0 x6]

/-- The one store covers the output buffer. -/
theorem cover1_7 (p0 : Vec F S2000x256 .f32) (y : S2000x256.Idx) :
    ∃ pc ∈ ([⟨rRows, p0⟩] : List (View.Piece (Elt F) S2000x256 .f32)), y ∈ pc.1.set :=
  ⟨_, List.mem_singleton_self _, View.mem_set_unit_zero (S := S2000x256) zeros1 inb_S2000x256_S2000x256_0_0 y⟩

/-! ## The body's run -/

set_option maxHeartbeats 1000000 in
/-- The body on whole staging memrefs, the seven inputs' at read contents `x0 … x6` and the output's at anything, runs
    to the continuation holding the inputs' as they were and the output's at the second dense layer of the normalised,
    rectified rows. -/
theorem sound_kernel1 (c : Dev nD) (E : Set ℕ) (i : grid1.Coords)
    (a1 : Memref sig .tc .vmem S2000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole) (a6 : Memref sig .tc .vmem S256x256 .f32) (h6 : a6.IsWhole)
    (a7 : Memref sig .tc .vmem S1x256 .f32) (h7 : a7.IsWhole) (a8 : Memref sig .tc .vmem S2000x256 .f32) (h8 : a8.IsWhole)
    (x0 : Vec F S2000x256 .f32) (x1 x2 x3 x4 : Vec F S1x256 .f32) (x5 : Vec F S256x256 .f32) (x6 : Vec F S1x256 .f32)
    (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
        ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
            ∗ owns (c : Thread nD τ) a8 fullShare (k1_pay1 x0 x1 x2 x3 x4 x5 x6)) -∗ K ⟨⟩))
      ⊢ wp frame (wpE (defs₀ (F := F)) Variants.none c none) E
          (cc1__bn_relu_linear2_kernel i a1 h1 a2 h2 a3 h3 a4 h4 a5 h5 a6 h6 a7 h7 a8 h8) K := by
  simp only [cc1__bn_relu_linear2_kernel_eq_skeleton]; unfold cc1__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine Eq.trans ?_ (out1_7_eq _ _ _ _ _ _ _)
  exact View.read_writes_eq_canon _ _ _ (cover1_7 (F := F) _)

/-! ## The proof data, window by window -/

variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

/-- What the body leaves: every input's buffer at its block, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- and the output's at the second dense layer of the normalised, rectified rows of the point. -/
theorem after1_7 (c : Dev nD) (t : Fin cfg1.N) :
    (dat1 V c).after 7 t = k1_pay1 (iblk1 V c 0 t) (iblk1 V c 1 t) (iblk1 V c 2 t) (iblk1 V c 3 t) (iblk1 V c 4 t) (iblk1 V c 5 t) (iblk1 V c 6 t) := by
  dsimp only [dat1, rows1]

/-- Each input's current staging buffer holds its block at every point, fetched there or not: where it is not fetched
    the block index has not moved since the point before, whose block the body left in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's run applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The run of the kernel program: @main is the host prefix, region 0 and region 1. Each region is entered from the
  thread state "every unscoped buffer at the boundary's contents, the generator register at some state, nothing owed",
  splits its windows' arrays out of the unscoped buffers, runs its pipeline under its body obligation and puts the
  arrays back at what the write-backs leave. Every weakly fair execution terminates; at the end the result array holds
  what region 1's write-backs leave and every argument array is as launched (no host operation and no region writes one).
-/
import proofs.«152078_j21801253995167_1_alg».proof.Proof.KiFold
import proofs.«152078_j21801253995167_1_alg».proof.Proof.KiOblig0
import proofs.«152078_j21801253995167_1_alg».proof.Proof.KiOblig1
import proofs.«152078_j21801253995167_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

An argument is written by no host operation. Either it is no array of a region (the region leaves it alone), or it is
the array of an input window (never written back): in both cases the contents at each boundary are those of the one
before, down to the launch memory. -/

/-- The host prefix leaves a reference it does not write at its launch contents. -/
theorem W1_kept (c : Dev nD) (b : Ref sig .tc) (hb : b ∉ (hostOps0_W : List (Ref sig .tc))) :
    W1 m c (Proc.devRef .tc b) = m ((c : Thread nD τ).loc b) :=
  (StableHlo.after_of_writes_sub hostOps0 _ hostOps0_writes hb).trans rfl

/-- Region 0 leaves the array of an input window as it found it. -/
theorem W2_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- Region 1 leaves the array of an input window as it found it. -/
theorem W3_input (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

/-- A reference that is no array of either region and that the host prefix does not write ends as launched. -/
theorem W3_outside (c : Dev nD) (b : Ref sig .tc) (h1 : ∀ w, Pipeline.arrRef spec1 w ≠ b) (h0 : ∀ w, Pipeline.arrRef spec0 w ≠ b)
    (hb : b ∉ (hostOps0_W : List (Ref sig .tc))) : W3 m c (Proc.devRef .tc b) = m ((c : Thread nD τ).loc b) :=
  (W3_of_ne m c b h1).trans ((W2_of_ne m c b h0).trans (W1_kept m c b hb))

/-- The node features: region 0 reads them through its window 0. -/
theorem W3_arg0 (c : Dev nD) : W3 m c (Proc.devRef .tc main_arg0) = m ((c : Thread nD τ).loc main_arg0) :=
  (W3_of_ne m c main_arg0 (by decide)).trans ((W2_input m c 0 rfl).trans (W1_kept m c main_arg0 (by decide)))
theorem W3_arg1 (c : Dev nD) : W3 m c (Proc.devRef .tc main_arg1) = m ((c : Thread nD τ).loc main_arg1) :=
  W3_outside m c main_arg1 (by decide) (by decide) (by decide)
theorem W3_arg2 (c : Dev nD) : W3 m c (Proc.devRef .tc main_arg2) = m ((c : Thread nD τ).loc main_arg2) :=
  W3_outside m c main_arg2 (by decide) (by decide) (by decide)
/-- The first dense layer's weights: region 0 reads them through its window 3. -/
theorem W3_arg3 (c : Dev nD) : W3 m c (Proc.devRef .tc main_arg3) = m ((c : Thread nD τ).loc main_arg3) :=
  (W3_of_ne m c main_arg3 (by decide)).trans ((W2_input m c 3 rfl).trans (W1_kept m c main_arg3 (by decide)))
theorem W3_arg4 (c : Dev nD) : W3 m c (Proc.devRef .tc main_arg4) = m ((c : Thread nD τ).loc main_arg4) :=
  W3_outside m c main_arg4 (by decide) (by decide) (by decide)
theorem W3_arg5 (c : Dev nD) : W3 m c (Proc.devRef .tc main_arg5) = m ((c : Thread nD τ).loc main_arg5) :=
  W3_outside m c main_arg5 (by decide) (by decide) (by decide)
theorem W3_arg6 (c : Dev nD) : W3 m c (Proc.devRef .tc main_arg6) = m ((c : Thread nD τ).loc main_arg6) :=
  W3_outside m c main_arg6 (by decide) (by decide) (by decide)
/-- The second dense layer's weights: region 1 reads them through its window 5. -/
theorem W3_arg7 (c : Dev nD) : W3 m c (Proc.devRef .tc main_arg7) = m ((c : Thread nD τ).loc main_arg7) :=
  (W3_input m c 5 rfl).trans ((W2_of_ne m c main_arg7 (by decide)).trans (W1_kept m c main_arg7 (by decide)))
theorem W3_arg8 (c : Dev nD) : W3 m c (Proc.devRef .tc main_arg8) = m ((c : Thread nD τ).loc main_arg8) :=
  W3_outside m c main_arg8 (by decide) (by decide) (by decide)
theorem W3_arg9 (c : Dev nD) : W3 m c (Proc.devRef .tc main_arg9) = m ((c : Thread nD τ).loc main_arg9) :=
  W3_outside m c main_arg9 (by decide) (by decide) (by decide)

/-! ## The proof data of both pipelines and the thread state between segments -/

/-- Region 0's arrays at its exit are the contents region 1 is entered from; every other buffer is as region 0 found it. -/
theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Likewise region 1's arrays at its exit against the last contents. -/
theorem exit1_arr (c : Dev nD) (w : Fin cfg1.W) : (dat1 (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-- Each pipeline's proof data at the contents its region is entered from: region 0 after the host prefix, region 1
    after region 0. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything: no pair carries a level. -/
abbrev L : GSem nD τ sig → Finset Unit := fun _ => ∅
abbrev lv : GSem nD τ sig → Unit → ℕ := fun _ _ => 0

/-- What a core holds beside its unscoped buffers between two segments: its generator register at some state, and
    nothing owed. -/
abbrev Ride (c : Dev nD) : sProp 𝕄 :=
  iprop((∃ r, prngReg c r) ∗ ∃ W, owes (c : Thread nD τ) (0 : CellTallies nD τ sig Unit) W)

/-- The thread state at a boundary whose contents are `W`. -/
abbrev At (W : Dev nD → Valuation τ sig (Elt F)) (c : Dev nD) : sProp 𝕄 :=
  iprop(StableHlo.held (c : Thread nD τ) (Pipeline.ucRefs τ sig) (W c) ∗ Ride c)

/-- The last thread state apart from the nothing-owed part: every unscoped buffer at the last contents, the generator
    register at some state. -/
abbrev Tₙ (c : Dev nD) : sProp 𝕄 :=
  iprop(StableHlo.held (c : Thread nD τ) (Pipeline.ucRefs τ sig) (W3 m c) ∗ ∃ r, prngReg c r)

/-- The host prefix as a segment over the unscoped buffers, from the launch contents to those after its 23 operations. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Ride

/-- An unscoped reference of the core is among the buffers the thread state holds. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two regions as segments -/

set_option backward.isDefEq.respectTransparency.types false in
/-- Region 0 between the contents after the host prefix and those it leaves. Its eight arrays are split out of the
    unscoped buffers and put back at what the write-backs leave; the generator register and the scoped buffers no
    window stages enter the invariant before the first point and come back from the one after the last, whatever the
    scratch rows then hold; nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := At (W1 m)
  post := At (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    refine BIBase.Entails.trans ?_ (hin0 (V1 m) c)
    unfold Pipeline.ΦA
    iintro ⟨Hreg, -, Hscoped⟩
    isplitl [Hscoped]; · iexact Hscoped
    iexact Hreg
  hout c := by
    rw [Pipeline.ownSems0_none]
    refine BIBase.Entails.trans (hout0 (V1 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Region 1 between the contents region 0 leaves and the last ones. Its arrays are split out and put back as for
    region 0; its invariant is the class's at every point (the scoped buffers no window stages and the generator
    register, untouched); nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre := At (W2 m)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩
    iexists W; iexact Howes

/-! ## @main as its three segments, and the launch -/

/-- The host prefix, region 0, region 1: nothing stands between the regions or after the second. -/
abbrev mainSegs : List (Pipeline.Seg (pcfgs (F := F)) adm (pdats m) () defs₀ 𝒱₀ L lv) :=
  [ .host (hostSeg m), .region (reg0 m), .region (reg1 m) ]

/-- @main is the run of those segments. -/
theorem main_run (c : Dev nD) : main (F := F) c = Pipeline.Seg.run (mainSegs m) := (main_chain c).trans (by chain_rfl)

set_option backward.isDefEq.respectTransparency.types false in
theorem run_main : θ_run defs (onTc (τ := τ) (main (F := F))) ⟨m, fun _ => 0, ρ⟩ (fun r => ∀ c : Dev nD,
      r.2.mem ((c.tc : Thread nD τ).loc main_v21) = (dat1 (V2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m c b)
    (hfin := fun c s' => by
      iintro ⟨⟨Hbufs, -⟩, HSI⟩
      unfold StableHlo.held
      imodintro
      iapply (pointsTo_read_all (Pipeline.ucRefs τ sig) (fun b => (((c : Thread nD τ)).1, b)) (W3 m c) s')
      isplitl [Hbufs] <;> iassumption)
    (hQ := fun s h c =>
      ⟨(h c _ (unscoped_mem main_v21 (by decide))).trans (W3_result m c),
       (h c _ (unscoped_mem main_arg0 (by decide))).trans (W3_arg0 m c),
       (h c _ (unscoped_mem main_arg1 (by decide))).trans (W3_arg1 m c),
       (h c _ (unscoped_mem main_arg2 (by decide))).trans (W3_arg2 m c),
       (h c _ (unscoped_mem main_arg3 (by decide))).trans (W3_arg3 m c),
       (h c _ (unscoped_mem main_arg4 (by decide))).trans (W3_arg4 m c),
       (h c _ (unscoped_mem main_arg5 (by decide))).trans (W3_arg5 m c),
       (h c _ (unscoped_mem main_arg6 (by decide))).trans (W3_arg6 m c),
       (h c _ (unscoped_mem main_arg7 (by decide))).trans (W3_arg7 m c),
       (h c _ (unscoped_mem main_arg8 (by decide))).trans (W3_arg8 m c),
       (h c _ (unscoped_mem main_arg9 (by decide))).trans (W3_arg9 m c)⟩)

end Cert.KernelIdeal.Hand

end
-- ==== Proof.Spec.lean ====
/-
  The computation both programs perform, as functions on the extended reals.

  A GIN layer followed by a two-layer perceptron with batch normalisation between the layers. With
  y = ((1 + eps) * x + agg) W1 + b1 over 10000 rows and 256 columns, the batch mean of a column is its sum divided
  by the row count, and the (biased) variance is written in two ways: the mean of the squared deviations
  (varDev, the reference's form) and the mean of the squares less the squared mean (varSq, the kernel's form).
  Over the reals the two agree; on the extended reals they agree when every entry of y is a real number, which is
  where the finiteness of the inputs is used. The result is relu((y - mean) * rsqrt(var + 1e-5) * gamma + beta) W2 + b2.
-/
import Idealize.ShloMosaic.PureOps.Ideal
import Idealize.ShloMosaic.Lib.ValueIdx

noncomputable section

namespace Cert.Spec

open Idealize.ShloMosaic Idealize.ShloMosaic.ValueIdx

/-- rows × features, a square weight matrix, a row vector, a single cell, a flat vector, a flat singleton -/
abbrev SN : Shape := ⟨2, ![10000, 256]⟩
abbrev SW : Shape := ⟨2, ![256, 256]⟩
abbrev SR : Shape := ⟨2, ![1, 256]⟩
abbrev SC : Shape := ⟨2, ![1, 1]⟩
abbrev SD : Shape := ⟨1, ![256]⟩
abbrev SE : Shape := ⟨1, ![1]⟩

/-- The float words the programs spell: 1, 0, the row count 10000, and the batch-norm epsilon. -/
abbrev one32 : EReal := Ideal.ofBits .f32 0x3F800000#32
abbrev zero32 : EReal := Ideal.ofBits .f32 0x00000000#32
abbrev n32 : EReal := Ideal.ofBits .f32 0x461C4000#32
abbrev eps32 : EReal := Ideal.ofBits .f32 0x3727C5AC#32

/-- The first dense layer on the GIN pre-activation: entry (i, j) of ((1 + eps) * x + agg) W1 + b1. -/
def dense1 (e : SC.Idx → EReal) (x agg : SN.Idx → EReal) (w1 : SW.Idx → EReal) (b1 : SR.Idx → EReal)
    (i : Fin 10000) (j : Fin 256) : EReal :=
  (∑ k : Fin 256, ((one32 + e (ix2 0 0)) * x (ix2 i k) + agg (ix2 i k)) * w1 (ix2 k j)) + b1 (ix2 0 j)

/-- A column's batch mean. -/
def mean (a : Fin 10000 → Fin 256 → EReal) (j : Fin 256) : EReal :=
  Ideal.div (∑ i : Fin 10000, a i j) n32

/-- The variance as the mean of the squares less the squared mean. -/
def varSq (a : Fin 10000 → Fin 256 → EReal) (j : Fin 256) : EReal :=
  Ideal.div (∑ i : Fin 10000, a i j * a i j) n32 - mean a j * mean a j

/-- The variance as the mean of the squared deviations from the mean. -/
def varDev (a : Fin 10000 → Fin 256 → EReal) (j : Fin 256) : EReal :=
  Ideal.div (∑ i : Fin 10000, (a i j - mean a j) * (a i j - mean a j)) n32

/-- Normalise with given column statistics, rectify, and apply the second dense layer: entry (i, j). -/
def dense2 (a : SN.Idx → EReal) (mu v gamma beta : SR.Idx → EReal) (w2 : SW.Idx → EReal) (b2 : SR.Idx → EReal)
    (i : Fin 10000) (j : Fin 256) : EReal :=
  (∑ k : Fin 256,
      max ((a (ix2 i k) - mu (ix2 0 k)) * Ideal.rsqrt (v (ix2 0 k) + eps32) * gamma (ix2 0 k) + beta (ix2 0 k)) zero32
        * w2 (ix2 k j)) + b2 (ix2 0 j)

/-- A flat vector read as a row, a flat singleton read as a cell. -/
def row (b : SD.Idx → EReal) : SR.Idx → EReal := fun p => b (ix1 (p 1))
def cell (e : SE.Idx → EReal) : SC.Idx → EReal := fun _ => e (ix1 0)

/-- The whole result with the variance taken by the function `var`. -/
def result (var : (Fin 10000 → Fin 256 → EReal) → Fin 256 → EReal)
    (x agg : SN.Idx → EReal) (w1 : SW.Idx → EReal) (b1 gamma beta : SD.Idx → EReal) (w2 : SW.Idx → EReal)
    (b2 : SD.Idx → EReal) (e : SE.Idx → EReal) : SN.Idx → EReal :=
  fun p => dense2 (fun q => dense1 (cell e) x agg w1 (row b1) (q 0) (q 1))
    (fun q => mean (dense1 (cell e) x agg w1 (row b1)) (q 1))
    (fun q => var (dense1 (cell e) x agg w1 (row b1)) (q 1))
    (row gamma) (row beta) w2 (row b2) (p 0) (p 1)

end Cert.Spec

end
-- ==== Proof.KiHost.lean ====
/-
  The host prefix of the kernel program read back at the ideal instance: the arguments the regions read are
  untouched by it; the four flat parameter vectors and the eps singleton are reshaped to a row and to a cell; and the
  aggregate (gather the source rows of x, multiply by the edge features, scatter-add by destination) is the same term
  of the arguments as the reference's aggregate stage — the two programs spell this prefix with the same operations.
-/
import proofs.«152078_j21801253995167_1_alg».proof.Proof.KiFold
import proofs.«152078_j21801253995167_1_alg».proof.Proof.Gen.KernelIdeal.Regions
import proofs.«152078_j21801253995167_1_alg».proof.Proof.Gen.ReferenceIdeal.Read
import proofs.«152078_j21801253995167_1_alg».proof.Proof.Spec
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt Ideal) ℓ)

/-- A buffer the host prefix does not write is as launched when region 0 is entered. -/
theorem V1_kept (c : Dev nD) (r : Ref sig .tc) (h : r ∉ hostOps0_W) : V1 m c r = m ((c.tc : Thread nD τ).loc r) :=
  Gen.V1_of m c r h

theorem V1_x (c : Dev nD) : V1 m c main_arg0 = (m ((c.tc : Thread nD τ).loc main_arg0)) := V1_kept m c main_arg0 (by decide)
theorem V1_w1 (c : Dev nD) : V1 m c main_arg3 = (m ((c.tc : Thread nD τ).loc main_arg3)) := V1_kept m c main_arg3 (by decide)
theorem V1_w2 (c : Dev nD) : V1 m c main_arg7 = (m ((c.tc : Thread nD τ).loc main_arg7)) := V1_kept m c main_arg7 (by decide)

/-- A flat vector reshaped to one row is that vector read along the row. -/
theorem row_of_reshape (b : (⟨1, ![256]⟩ : Shape).Idx → EReal) (h : (⟨1, ![256]⟩ : Shape).ShapeCasts ⟨2, ![1, 256]⟩) :
    shapeCast ⟨2, ![1, 256]⟩ b h = Spec.row b := by
  funext p
  obtain ⟨u, j, rfl⟩ : ∃ (u : Fin 1) (j : Fin 256), p = ix2 u j := ⟨p 0, p 1, eq_ix2 p⟩
  rw [shapeCast_a_1a_apply]
  rfl

/-- A flat singleton reshaped to one cell is that entry. -/
theorem cell_of_reshape (e : (⟨1, ![1]⟩ : Shape).Idx → EReal) (h : (⟨1, ![1]⟩ : Shape).ShapeCasts ⟨2, ![1, 1]⟩) :
    shapeCast ⟨2, ![1, 1]⟩ e h = Spec.cell e := by
  funext p
  obtain ⟨u, j, rfl⟩ : ∃ (u : Fin 1) (j : Fin 1), p = ix2 u j := ⟨p 0, p 1, eq_ix2 p⟩
  rw [shapeCast_a_1a_apply]
  have hj : j = 0 := Subsingleton.elim _ _
  subst hj
  rfl

theorem V1_b1 (c : Dev nD) : V1 m c main_v15 = Spec.row (m ((c.tc : Thread nD τ).loc main_arg4)) := by
  have e : (V1 m c main_v15 : S1x256.Idx → EReal) = shapeCast S1x256 (m ((c.tc : Thread nD τ).loc main_arg4)) shapeCasts_S256_S1x256 := by
    show StableHlo.after hostOps0 (fun b => m (c, b)) (Proc.devRef .tc main_v15) = _
    after_results; rfl
  rw [e]; exact row_of_reshape _ _

theorem V1_gamma (c : Dev nD) : V1 m c main_v16 = Spec.row (m ((c.tc : Thread nD τ).loc main_arg5)) := by
  have e : (V1 m c main_v16 : S1x256.Idx → EReal) = shapeCast S1x256 (m ((c.tc : Thread nD τ).loc main_arg5)) shapeCasts_S256_S1x256 := by
    show StableHlo.after hostOps0 (fun b => m (c, b)) (Proc.devRef .tc main_v16) = _
    after_results; rfl
  rw [e]; exact row_of_reshape _ _

theorem V1_beta (c : Dev nD) : V1 m c main_v17 = Spec.row (m ((c.tc : Thread nD τ).loc main_arg6)) := by
  have e : (V1 m c main_v17 : S1x256.Idx → EReal) = shapeCast S1x256 (m ((c.tc : Thread nD τ).loc main_arg6)) shapeCasts_S256_S1x256 := by
    show StableHlo.after hostOps0 (fun b => m (c, b)) (Proc.devRef .tc main_v17) = _
    after_results; rfl
  rw [e]; exact row_of_reshape _ _

theorem V1_b2 (c : Dev nD) : V1 m c main_v18 = Spec.row (m ((c.tc : Thread nD τ).loc main_arg8)) := by
  have e : (V1 m c main_v18 : S1x256.Idx → EReal) = shapeCast S1x256 (m ((c.tc : Thread nD τ).loc main_arg8)) shapeCasts_S256_S1x256 := by
    show StableHlo.after hostOps0 (fun b => m (c, b)) (Proc.devRef .tc main_v18) = _
    after_results; rfl
  rw [e]; exact row_of_reshape _ _

theorem V1_eps (c : Dev nD) : V1 m c main_v19 = Spec.cell (m ((c.tc : Thread nD τ).loc main_arg9)) := by
  have e : (V1 m c main_v19 : S1x1.Idx → EReal) = shapeCast S1x1 (m ((c.tc : Thread nD τ).loc main_arg9)) shapeCasts_S1_S1x1 := by
    show StableHlo.after hostOps0 (fun b => m (c, b)) (Proc.devRef .tc main_v19) = _
    after_results; rfl
  rw [e]; exact cell_of_reshape _ _

set_option maxHeartbeats 4000000 in
/-- The aggregate region 0 reads is the reference's aggregate stage of the same three arguments. -/
theorem V1_agg (c : Dev nD) :
    V1 m c main_v14 = Cert.ReferenceIdeal.Read.val_main_v14 (F := Ideal) (m ((c.tc : Thread nD τ).loc main_arg0)) (m ((c.tc : Thread nD τ).loc main_arg1)) (m ((c.tc : Thread nD τ).loc main_arg2)) := by
  show StableHlo.after hostOps0 (fun b => m (c, b)) (Proc.devRef .tc main_v14) = _
  after_results_simp
  rfl

end Cert.KernelIdeal.Hand

end
-- ==== Proof.KiRows0.lean ====
/-
  The first dense layer's rows at a grid point of region 0, read entry by entry at the ideal instance: row r of the
  block of point t is row 2000 t + r of the array, the change of float format before the matrix unit is the identity,
  the matrix product into a zero accumulator is the plain sum over the contracted axis, and the bias row and the
  (1 + eps) cell are broadcast.
-/
import proofs.«152078_j21801253995167_1_alg».proof.Proof.KiData
import proofs.«152078_j21801253995167_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The matrix product of the body at an index -/

/-- The left operand's index at output (i, ·) and contraction q: row i 0 … -/
theorem lhs_dot0_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
/-- … and column q. -/
theorem lhs_dot0_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's index: row q … -/
theorem rhs_dot0_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and column i 1. -/
theorem rhs_dot0_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The body's matrix product into the zero accumulator, at (r, j): the sum over k of a (r, k) * b (k, j). -/
theorem matmul0_apply (a : FVec Ideal S2000x256 .bf16) (b : FVec Ideal S256x256 .bf16) (r : Fin 2000) (j : Fin 256) :
    matmul dot_S2000x256_S256x256_S2000x256_1_0_0_1_n_n none a b (constant (F := Ideal) S2000x256 .f32 0x00000000#32) (ix2 r j)
      = ∑ k : Fin 256, a (ix2 r k) * b (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k :=
    funext fun a => Fin.ext (by
      match a with
      | ⟨0, _⟩ => exact lhs_dot0_0 _ _
      | ⟨1, _⟩ => exact (lhs_dot0_1 _ _).trans hk)
  have er : dot_S2000x256_S256x256_S2000x256_1_0_0_1_n_n.rhsIdx (ix2 r j) ((contrEquiv1 dot_S2000x256_S256x256_S2000x256_1_0_0_1_n_n 256 rfl rfl).symm k) = ix2 k j :=
    funext fun a => Fin.ext (by
      match a with
      | ⟨0, _⟩ => exact (rhs_dot0_0 _ _).trans hk
      | ⟨1, _⟩ => exact rhs_dot0_1 _ _)
  rw [el, er]

/-! ## The payload at an index -/

/-- The (1 + eps) cell broadcast over the block reads the cell everywhere. -/
theorem bcast_cell_apply (v : FVec Ideal S1x1 .f32) (r : Fin 2000) (j : Fin 256) :
    broadcastTo S2000x256 v broadcasts_S1x1_S2000x256 (ix2 r j) = v (ix2 0 0) := by
  refine broadcastTo_apply v broadcasts_S1x1_S2000x256 (ix2 r j) (ix2 (0 : Fin 1) (0 : Fin 1)) fun ax => ?_
  match ax with
  | ⟨0, _⟩ => rfl
  | ⟨1, _⟩ => rfl

/-- The rows the body forms from its five blocks, at (r, j). -/
theorem pay6_apply (e : Vec Ideal S1x1 .f32) (x agg : Vec Ideal S2000x256 .f32) (w : Vec Ideal S256x256 .f32)
    (b : Vec Ideal S1x256 .f32) (r : Fin 2000) (j : Fin 256) :
    k0_pay6 e x agg w b (ix2 r j)
      = (∑ k : Fin 256, ((Spec.one32 + e (ix2 0 0)) * x (ix2 r k) + agg (ix2 r k)) * w (ix2 k j)) + b (ix2 0 j) := by
  unfold Gen.k0_pay6
  simp only [shapeCast_self]
  rw [addf_apply, broadcastTo_1b_ab_apply, matmul0_apply]
  refine congrArg (· + b (ix2 0 j)) (Finset.sum_congr rfl fun k _ => ?_)
  rw [truncf_apply, truncf_apply, addf_apply, mulf_apply, bcast_cell_apply, addf_apply, broadcast_apply]
  rfl

/-! ## The five input blocks at a grid point -/

/-- The index maps over the grid: the row blocks of x and agg move with the point, the other three windows stay at
    block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- Window 0's block at point t is rows 2000 t … 2000 t + 1999 of x. -/
theorem iblk0_0_apply (c : Dev nD) (t : Fin cfg0.N) (r : Fin 2000) (k : Fin 256) (hr : 2000 * t.val + r.val < 10000) :
    iblk0 (F := Ideal) V c 0 t (ix2 r k) = V c main_arg0 (ix2 ⟨2000 * t.val + r.val, hr⟩ k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 256 + 1 * k.val = k.val; rw [e1]; omega

/-- Window 1's block at point t is the same rows of agg. -/
theorem iblk0_1_apply (c : Dev nD) (t : Fin cfg0.N) (r : Fin 2000) (k : Fin 256) (hr : 2000 * t.val + r.val < 10000) :
    iblk0 (F := Ideal) V c 1 t (ix2 r k) = V c main_v14 (ix2 ⟨2000 * t.val + r.val, hr⟩ k) := by
  obtain ⟨-, -, e0, e1, -⟩ := idx_facts0 t
  unfold iblk0
  rw [View.read_apply]
  show V c main_v14 _ = V c main_v14 _
  refine congrArg (V c main_v14) (funext fun a => Fin.ext ?_)
  match a with
  | ⟨0, _⟩ => show win0_1.index t (0 : Fin 2) * 2000 + 1 * r.val = 2000 * t.val + r.val; rw [e0]; omega
  | ⟨1, _⟩ => show win0_1.index t (1 : Fin 2) * 256 + 1 * k.val = k.val; rw [e1]; omega

/-- Window 2's block is the whole eps cell. -/
theorem iblk0_2_apply (c : Dev nD) (t : Fin cfg0.N) (p q : Fin 1) :
    iblk0 (F := Ideal) V c 2 t (ix2 p q) = V c main_v19 (ix2 p q) := by
  obtain ⟨-, -, -, -, e0, e1, -⟩ := idx_facts0 t
  unfold iblk0
  rw [View.read_apply]
  show V c main_v19 _ = V c main_v19 _
  refine congrArg (V c main_v19) (funext fun a => Fin.ext ?_)
  match a with
  | ⟨0, _⟩ => show win0_2.index t (0 : Fin 2) * 1 + 1 * p.val = p.val; rw [e0]; omega
  | ⟨1, _⟩ => show win0_2.index t (1 : Fin 2) * 1 + 1 * q.val = q.val; rw [e1]; omega

/-- Window 3's block is the whole weight matrix. -/
theorem iblk0_3_apply (c : Dev nD) (t : Fin cfg0.N) (k j : Fin 256) :
    iblk0 (F := Ideal) V c 3 t (ix2 k j) = V c main_arg3 (ix2 k j) := by
  obtain ⟨-, -, -, -, -, -, e0, e1, -⟩ := idx_facts0 t
  unfold iblk0
  rw [View.read_apply]
  show V c main_arg3 _ = V c main_arg3 _
  refine congrArg (V c main_arg3) (funext fun a => Fin.ext ?_)
  match a with
  | ⟨0, _⟩ => show win0_3.index t (0 : Fin 2) * 256 + 1 * k.val = k.val; rw [e0]; omega
  | ⟨1, _⟩ => show win0_3.index t (1 : Fin 2) * 256 + 1 * j.val = j.val; rw [e1]; omega

/-- Window 4's block is the whole bias row. -/
theorem iblk0_4_apply (c : Dev nD) (t : Fin cfg0.N) (p : Fin 1) (j : Fin 256) :
    iblk0 (F := Ideal) V c 4 t (ix2 p j) = V c main_v15 (ix2 p j) := by
  obtain ⟨-, -, -, -, -, -, -, -, e0, e1⟩ := idx_facts0 t
  unfold iblk0
  rw [View.read_apply]
  show V c main_v15 _ = V c main_v15 _
  refine congrArg (V c main_v15) (funext fun a => Fin.ext ?_)
  match a with
  | ⟨0, _⟩ => show win0_4.index t (0 : Fin 2) * 1 + 1 * p.val = p.val; rw [e0]; omega
  | ⟨1, _⟩ => show win0_4.index t (1 : Fin 2) * 256 + 1 * j.val = j.val; rw [e1]; omega

/-- The dense layer's entries from region 0's operands. -/
abbrev y0 (c : Dev nD) : Fin 10000 → Fin 256 → EReal :=
  Spec.dense1 (V c main_v19) (V c main_arg0) (V c main_v14) (V c main_arg3) (V c main_v15)

/-- Entry (r, j) of the rows formed at point t is entry (2000 t + r, j) of the dense layer. -/
theorem rows0_entry (c : Dev nD) (t : Fin cfg0.N) (r : Fin 2000) (j : Fin 256) (hr : 2000 * t.val + r.val < 10000) :
    rows0 (F := Ideal) V c t (ix2 r j) = y0 V c ⟨2000 * t.val + r.val, hr⟩ j := by
  unfold rows0
  refine (pay6_apply (iblk0 (F := Ideal) V c 2 t) (iblk0 (F := Ideal) V c 0 t) (iblk0 (F := Ideal) V c 1 t)
    (iblk0 (F := Ideal) V c 3 t) (iblk0 (F := Ideal) V c 4 t) r j).trans ?_
  unfold y0 Spec.dense1
  rw [iblk0_2_apply, iblk0_4_apply]
  refine congrArg (· + V c main_v15 (ix2 0 j)) (Finset.sum_congr rfl fun k _ => ?_)
  rw [iblk0_0_apply V c t r k hr, iblk0_1_apply V c t r k hr, iblk0_3_apply]

/-! ## The column sums of the squares -/

/-- The body's sum over the block's rows, at column j. -/
theorem colsum0_apply (src : FVec Ideal S2000x256 .f32) (j : Fin 256) :
    multiReduction (F := Ideal) .add [0] S256 src 0x00000000#32 reduces_S2000x256_S256 (.inl rfl) rfl (ix1 j)
      = ∑ r : Fin 2000, src (ix2 r j) := by
  refine (Ideal.multiReduction_add_single src 0x00000000#32 reduces_S2000x256_S256 (.inl rfl) rfl (ix1 j)).trans ?_
  refine Finset.sum_congr rfl fun r _ => congrArg src (funext fun a => Fin.ext ?_)
  match a with
  | ⟨0, _⟩ => rfl
  | ⟨1, _⟩ => rfl

/-- Entry j of the squares' column sums at point t is the sum over the block's rows of the squared entries. -/
theorem sqsum0_entry (c : Dev nD) (t : Fin cfg0.N) (j : Fin 256) :
    sqsum0 (F := Ideal) V c t (ix1 j)
      = ∑ r : Fin 2000, rows0 (F := Ideal) V c t (ix2 r j) * rows0 (F := Ideal) V c t (ix2 r j) := by
  unfold sqsum0 Gen.k0_pay8
  refine (colsum0_apply _ j).trans ?_
  refine Finset.sum_congr rfl fun r _ => ?_
  rw [mulf_apply]
  rfl

end Cert.KernelIdeal.Hand

end
-- ==== Proof.KiValue0.lean ====
/-
  What region 0 leaves in its rows array, at the ideal instance: each of the five blocks written back is the first
  dense layer on its 2000 rows, and the five blocks cover the 10000 rows, so the array is the dense layer entry by entry.
-/
import proofs.«152078_j21801253995167_1_alg».proof.Proof.KiData
import proofs.«152078_j21801253995167_1_alg».proof.Proof.KiRows0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (V : (c : Dev nD) → (b : Ref sig .tc) → Buf (Elt Ideal) ((c : Thread nD τ).loc b))

/-- The rows window's block index at every point: block t along the rows, block 0 along the columns. -/
theorem rows_index : ∀ t : Fin cfg0.N, win0_5.index t (0 : Fin 2) = t.val ∧ win0_5.index t (1 : Fin 2) = 0 :=
  (by decide +kernel : ∀ t : Fin grid0.N, _)

/-- What point t writes back is block t of the dense layer: entry (r, j) of the rows formed at point t sits at
    row 2000 t + r, column j of the array. -/
theorem flushed_eq (c : Dev nD) (t : Fin cfg0.N) :
    (dat0 (F := Ideal) V c).flushed 5 t
      = ((cfg0.win 5).blk t).view.read (Elt Ideal) (fun p => y0 V c (p 0) (p 1)) := by
  obtain ⟨e0, e1⟩ := rows_index t
  have hN : cfg0.N = 5 := N_0
  have ht : t.val < 5 := by have := t.isLt; omega
  funext y
  have hy0 : (y 0).val < 2000 := (y 0).isLt
  have hy1 : (y 1).val < 256 := (y 1).isLt
  have hr : 2000 * t.val + (y 0).val < 10000 := by omega
  have hx : (cfg0.win 5).xinj (grid0.coords t) y = ix2 (⟨(y 0).val, hy0⟩ : Fin 2000) (⟨(y 1).val, hy1⟩ : Fin 256) := by
    funext a
    match a with
    | ⟨0, _⟩ => rfl
    | ⟨1, _⟩ => rfl
  have h0 : ((((cfg0.win 5).blk t).view.emb y) 0 : Fin 10000) = ⟨2000 * t.val + (y 0).val, hr⟩ := by
    apply Fin.ext
    show win0_5.index t (0 : Fin 2) * 2000 + 1 * (y 0).val = 2000 * t.val + (y 0).val
    rw [e0]; omega
  have h1 : ((((cfg0.win 5).blk t).view.emb y) 1 : Fin 256) = ⟨(y 1).val, hy1⟩ := by
    apply Fin.ext
    show win0_5.index t (1 : Fin 2) * 256 + 1 * (y 1).val = (y 1).val
    rw [e1]; omega
  rw [View.read_apply]
  show rows0 (F := Ideal) V c t ((cfg0.win 5).xinj (grid0.coords t) y)
    = y0 V c ((((cfg0.win 5).blk t).view.emb y) 0 : Fin 10000) ((((cfg0.win 5).blk t).view.emb y) 1 : Fin 256)
  rw [hx, h0, h1]
  exact rows0_entry V c t _ _ hr

/-- An index of the array is in point t's block iff each coordinate is in the block's range on its axis. -/
theorem mem_blk (t : Fin cfg0.N) (i : S10000x256.Idx) :
    i ∈ ((cfg0.win 5).blk t).view.set
      ↔ ∀ a : Fin 2, win0_5.index t a * S2000x256.size a ≤ (i a).val
          ∧ (i a).val < win0_5.index t a * S2000x256.size a + S2000x256.size a := by
  show i ∈ ((View.whole main_v20_0).slice (win0_5.rect t)).set ↔ _
  rw [View.set_slice_whole, Rect.mem_set_unit]
  exact Iff.rfl

/-- Every index of the array is in some point's block: row i is in the block of point i / 2000. -/
theorem cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 5 := N_0
  obtain ⟨t, htv⟩ : ∃ t : Fin cfg0.N, t.val = (i 0).val / 2000 := ⟨⟨(i 0).val / 2000, by rw [hN]; omega⟩, rfl⟩
  obtain ⟨e0, e1⟩ := rows_index t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0, htv]; omega
  | ⟨1, _⟩ =>
    show win0_5.index t (1 : Fin 2) * 256 ≤ (i 1).val ∧ (i 1).val < win0_5.index t (1 : Fin 2) * 256 + 256
    rw [e1]; omega

/-- The five blocks cover the array, and each is the dense layer on its rows: the array is the dense layer. -/
theorem arr_rows (c : Dev nD) :
    (dat0 (F := Ideal) V c).arrAt 5 cfg0.N = fun p => y0 V c (p 0) (p 1) :=
  (dat0 (F := Ideal) V c).arrAt_eq_of_cover 5 (fun p => y0 V c (p 0) (p 1)) (fun t _ => flushed_eq V c t) cover

end Cert.KernelIdeal.Hand

end
-- ==== Proof.KiStats0.lean ====
/-
  The two statistics region 0 writes back at its last point, at the ideal instance. The running column sums after
  the last point are the sums over all 10000 rows (five blocks of 2000 rows added one after the other to a zero start:
  addition on the extended reals is commutative and associative, so the grouping does not matter), of the dense
  layer's entries and of their squares; divided by the row count they give the batch mean and the variance in its
  mean-of-squares form. Windows 6 and 7 are written back at the last point only, so those are their arrays' contents.
-/
import proofs.«152078_j21801253995167_1_alg».proof.Proof.KiData
import proofs.«152078_j21801253995167_1_alg».proof.Proof.KiRows0
import Mathlib.Algebra.BigOperators.Fin
import Mathlib.Algebra.BigOperators.Group.Finset.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (V : (c : Dev nD) → (b : Ref sig .tc) → Buf (Elt Ideal) ((c : Thread nD τ).loc b))

/-! ## The arrays: one write-back, at the last point, of a block that is the whole array -/

/-- The grid has a point 4, its last. -/
theorem st0_h4 : 4 < cfg0.N := by rw [show cfg0.N = 5 from N_0]; decide

/-- Windows 6 and 7 are written back at point 4 and nowhere else. -/
theorem st0_flush6_pt (t : Fin cfg0.N) (hf : (cfg0.win 6).flush t = true) : t = ⟨4, st0_h4⟩ := by
  have hN : cfg0.N = 5 := N_0
  have := (flush0_6 t).mp hf
  have := t.isLt
  apply Fin.ext
  show t.val = 4
  omega

theorem st0_flush7_pt (t : Fin cfg0.N) (hf : (cfg0.win 7).flush t = true) : t = ⟨4, st0_h4⟩ := by
  have hN : cfg0.N = 5 := N_0
  have := (flush0_7 t).mp hf
  have := t.isLt
  apply Fin.ext
  show t.val = 4
  omega

/-- The block index of windows 6 and 7 is (0, 0) at every point, so the block sits at offset zero on both axes. -/
theorem st0_idx6_zero (t : Fin cfg0.N) : (fun a => win0_6.index t a * main_v20_1.ty.shape.size a) = fun _ => 0 :=
  funext fun a => by
    show cc0_transform_6 (grid0.coords t) a * main_v20_1.ty.shape.size a = 0
    match a with
    | ⟨0, _⟩ => exact Nat.zero_mul _
    | ⟨1, _⟩ => exact Nat.zero_mul _

theorem st0_idx7_zero (t : Fin cfg0.N) : (fun a => win0_7.index t a * main_v20_2.ty.shape.size a) = fun _ => 0 :=
  funext fun a => by
    show cc0_transform_7 (grid0.coords t) a * main_v20_2.ty.shape.size a = 0
    match a with
    | ⟨0, _⟩ => exact Nat.zero_mul _
    | ⟨1, _⟩ => exact Nat.zero_mul _

/-- Window 6's array ends at what the body left at the last point: the [1, 256] block at offset zero is the whole
    array, and the last point is the only one that writes back. -/
theorem st0_arr6 (c : Dev nD) :
    (dat0 (F := Ideal) V c).arrAt 6 cfg0.N = k0_pay2 ((acc0 (F := Ideal) V c 4 st0_h4).1) := by
  refine (dat0 (F := Ideal) V c).arrAt_eq_of_cover 6 _ (fun t hf => ?_) (fun i => ?_)
  · obtain rfl := st0_flush6_pt t hf
    show (cfg0.win 6).cut (grid0.coords ⟨4, st0_h4⟩) (k0_pay2 ((acc0 (F := Ideal) V c 4 st0_h4).1)) = _
    exact (Memref.read_access_unit_zero (Elt Ideal) main_v20_1 (st0_idx6_zero ⟨4, st0_h4⟩)
      (fun a => by rw [congrFun (st0_idx6_zero ⟨4, st0_h4⟩) a]; exact Nat.le_of_eq (Nat.zero_add _)) _).symm
  · refine ⟨⟨4, st0_h4⟩, (flush0_6 _).mpr rfl, ?_⟩
    show i ∈ ((View.whole main_v20_1).slice (win0_6.rect ⟨4, st0_h4⟩)).set
    rw [View.set_slice_whole, Rect.mem_set_unit]
    intro a
    match a with
    | ⟨0, _⟩ =>
      have hi : (i 0 : ℕ) < 1 := (i 0).isLt
      have h0 : win0_6.index ⟨4, st0_h4⟩ 0 * win0_6.size 0 = 0 := Nat.zero_mul _
      have hx : win0_6.xsize (grid0.coords ⟨4, st0_h4⟩) 0 = 1 := by decide +kernel
      show win0_6.index ⟨4, st0_h4⟩ 0 * win0_6.size 0 ≤ (i 0 : ℕ)
        ∧ (i 0 : ℕ) < win0_6.index ⟨4, st0_h4⟩ 0 * win0_6.size 0 + win0_6.xsize (grid0.coords ⟨4, st0_h4⟩) 0
      rw [h0, hx]; omega
    | ⟨1, _⟩ =>
      have hi : (i 1 : ℕ) < 256 := (i 1).isLt
      have h0 : win0_6.index ⟨4, st0_h4⟩ 1 * win0_6.size 1 = 0 := Nat.zero_mul _
      have hx : win0_6.xsize (grid0.coords ⟨4, st0_h4⟩) 1 = 256 := by decide +kernel
      show win0_6.index ⟨4, st0_h4⟩ 1 * win0_6.size 1 ≤ (i 1 : ℕ)
        ∧ (i 1 : ℕ) < win0_6.index ⟨4, st0_h4⟩ 1 * win0_6.size 1 + win0_6.xsize (grid0.coords ⟨4, st0_h4⟩) 1
      rw [h0, hx]; omega

/-- Window 7's array likewise. -/
theorem st0_arr7 (c : Dev nD) :
    (dat0 (F := Ideal) V c).arrAt 7 cfg0.N
      = k0_pay3 ((acc0 (F := Ideal) V c 4 st0_h4).1) ((acc0 (F := Ideal) V c 4 st0_h4).2) := by
  refine (dat0 (F := Ideal) V c).arrAt_eq_of_cover 7 _ (fun t hf => ?_) (fun i => ?_)
  · obtain rfl := st0_flush7_pt t hf
    show (cfg0.win 7).cut (grid0.coords ⟨4, st0_h4⟩)
      (k0_pay3 ((acc0 (F := Ideal) V c 4 st0_h4).1) ((acc0 (F := Ideal) V c 4 st0_h4).2)) = _
    exact (Memref.read_access_unit_zero (Elt Ideal) main_v20_2 (st0_idx7_zero ⟨4, st0_h4⟩)
      (fun a => by rw [congrFun (st0_idx7_zero ⟨4, st0_h4⟩) a]; exact Nat.le_of_eq (Nat.zero_add _)) _).symm
  · refine ⟨⟨4, st0_h4⟩, (flush0_7 _).mpr rfl, ?_⟩
    show i ∈ ((View.whole main_v20_2).slice (win0_7.rect ⟨4, st0_h4⟩)).set
    rw [View.set_slice_whole, Rect.mem_set_unit]
    intro a
    match a with
    | ⟨0, _⟩ =>
      have hi : (i 0 : ℕ) < 1 := (i 0).isLt
      have h0 : win0_7.index ⟨4, st0_h4⟩ 0 * win0_7.size 0 = 0 := Nat.zero_mul _
      have hx : win0_7.xsize (grid0.coords ⟨4, st0_h4⟩) 0 = 1 := by decide +kernel
      show win0_7.index ⟨4, st0_h4⟩ 0 * win0_7.size 0 ≤ (i 0 : ℕ)
        ∧ (i 0 : ℕ) < win0_7.index ⟨4, st0_h4⟩ 0 * win0_7.size 0 + win0_7.xsize (grid0.coords ⟨4, st0_h4⟩) 0
      rw [h0, hx]; omega
    | ⟨1, _⟩ =>
      have hi : (i 1 : ℕ) < 256 := (i 1).isLt
      have h0 : win0_7.index ⟨4, st0_h4⟩ 1 * win0_7.size 1 = 0 := Nat.zero_mul _
      have hx : win0_7.xsize (grid0.coords ⟨4, st0_h4⟩) 1 = 256 := by decide +kernel
      show win0_7.index ⟨4, st0_h4⟩ 1 * win0_7.size 1 ≤ (i 1 : ℕ)
        ∧ (i 1 : ℕ) < win0_7.index ⟨4, st0_h4⟩ 1 * win0_7.size 1 + win0_7.xsize (grid0.coords ⟨4, st0_h4⟩) 1
      rw [h0, hx]; omega

/-! ## The body's values read at a column -/

/-- The two zero rows the first point starts from: the zero word is the number zero. -/
theorem st0_pay4_at (j : Fin 256) : (k0_pay4 (F := Ideal)) (ix2 (0 : Fin 1) j) = 0 := by
  show shapeCast S1x256 (broadcast S1x256 (Scalar.ofBits (F := Ideal) .f32 0x00000000#32)) shapeCasts_S1x256_S1x256
    (ix2 (0 : Fin 1) j) = 0
  rw [shapeCast_self]
  exact Ideal.ofBits_zero_f32

theorem st0_pay5_at (j : Fin 256) : (k0_pay5 (F := Ideal)) (ix2 (0 : Fin 1) j) = 0 := by
  show shapeCast S1x256 (broadcast S1x256 (Scalar.ofBits (F := Ideal) .f32 0x00000000#32)) shapeCasts_S1x256_S1x256
    (ix2 (0 : Fin 1) j) = 0
  rw [shapeCast_self]
  exact Ideal.ofBits_zero_f32

/-- The reduction over the row axis of a [2000, 256] block is, at column j, the sum over the 2000 rows. -/
theorem st0_colsum_at (X : FVec Ideal S2000x256 .f32) (hφ : FKind.Formats .f32)
    (hacc : (0x00000000#32 : BitVec 32) = 0x00000000#32) (j : Fin 256) :
    multiReduction .add [0] S256 X 0x00000000#32 reduces_S2000x256_S256 hφ hacc (ix1 j)
      = ∑ r : Fin 2000, X (ix2 r j) := by
  refine (Ideal.multiReduction_add_single X 0x00000000#32 reduces_S2000x256_S256 hφ hacc (ix1 j)).trans ?_
  refine Finset.sum_congr rfl fun r _ => congrArg X ?_
  funext a
  match a with
  | ⟨0, _⟩ => rfl
  | ⟨1, _⟩ => rfl

/-- The first running row's update: the row before plus the block's column sums. -/
theorem st0_pay7_at (v3 : Vec Ideal S1x1 .f32) (v7 v10 : Vec Ideal S2000x256 .f32) (v14 : Vec Ideal S256x256 .f32)
    (v17 v22 : Vec Ideal S1x256 .f32) (j : Fin 256) :
    k0_pay7 v3 v7 v10 v14 v17 v22 (ix2 (0 : Fin 1) j)
      = v22 (ix2 (0 : Fin 1) j) + ∑ r : Fin 2000, k0_pay6 v3 v7 v10 v14 v17 (ix2 r j) := by
  unfold k0_pay7
  rw [shapeCast_self, addf_apply, shapeCast_a_1a_apply, st0_colsum_at]

/-- The second running row's update: the row before plus a flat row of 256 read as [1, 256]. -/
theorem st0_pay1_at (v29 : Vec Ideal S1x256 .f32) (v31 : FVec Ideal S256 .f32) (j : Fin 256) :
    k0_pay1 v29 v31 (ix2 (0 : Fin 1) j) = v29 (ix2 (0 : Fin 1) j) + v31 (ix1 j) := by
  unfold k0_pay1
  rw [shapeCast_self, addf_apply, shapeCast_a_1a_apply]

/-- The column sums of the squares of a block's dense-layer rows. -/
theorem st0_pay8_at (v3 : Vec Ideal S1x1 .f32) (v7 v10 : Vec Ideal S2000x256 .f32) (v14 : Vec Ideal S256x256 .f32)
    (v17 : Vec Ideal S1x256 .f32) (j : Fin 256) :
    k0_pay8 v3 v7 v10 v14 v17 (ix1 j)
      = ∑ r : Fin 2000, k0_pay6 v3 v7 v10 v14 v17 (ix2 r j) * k0_pay6 v3 v7 v10 v14 v17 (ix2 r j) := by
  unfold k0_pay8
  rw [st0_colsum_at]
  rfl

/-- The two statistics formed from the running rows, read at a column: a quotient by the row count, and a quotient
    less the squared mean. -/
theorem st0_pay2_at (s : Vec Ideal S1x256 .f32) (j : Fin 256) :
    k0_pay2 s (ix2 (0 : Fin 1) j) = Ideal.div (s (ix2 (0 : Fin 1) j)) Spec.n32 := by
  unfold k0_pay2
  rw [divf_apply, broadcast_apply]
  rfl

theorem st0_pay3_at (s q : Vec Ideal S1x256 .f32) (j : Fin 256) :
    k0_pay3 s q (ix2 (0 : Fin 1) j)
      = Ideal.div (q (ix2 (0 : Fin 1) j)) Spec.n32 - k0_pay2 s (ix2 (0 : Fin 1) j) * k0_pay2 s (ix2 (0 : Fin 1) j) := by
  unfold k0_pay3
  rw [subf_apply, mulf_apply, divf_apply, broadcast_apply]
  rfl

/-! ## The running sums -/

/-- A family indexed by the 10000 rows, continued by zero past the last row: a sum over a block of rows is then a sum
    over a range of natural numbers, and consecutive ranges add up to a longer one. -/
def st0_ext (a : Fin 10000 → Fin 256 → EReal) (i : ℕ) (j : Fin 256) : EReal :=
  if h : i < 10000 then a ⟨i, h⟩ j else 0

theorem st0_sum_ext (a : Fin 10000 → Fin 256 → EReal) (j : Fin 256) :
    ∑ i ∈ Finset.range 10000, st0_ext a i j = ∑ i : Fin 10000, a i j := by
  rw [Finset.sum_range]
  exact Finset.sum_congr rfl fun i _ => by unfold st0_ext; rw [dif_pos i.isLt]

theorem st0_sum_ext_sq (a : Fin 10000 → Fin 256 → EReal) (j : Fin 256) :
    ∑ i ∈ Finset.range 10000, st0_ext a i j * st0_ext a i j = ∑ i : Fin 10000, a i j * a i j := by
  rw [Finset.sum_range]
  exact Finset.sum_congr rfl fun i _ => by unfold st0_ext; rw [dif_pos i.isLt]

/-- Row r of the block of point t is row 2000 t + r of the dense layer. -/
theorem st0_rows0_ext (c : Dev nD) (t : Fin cfg0.N) (r : Fin 2000) (j : Fin 256) :
    rows0 (F := Ideal) V c t (ix2 r j) = st0_ext (y0 V c) (2000 * t.val + r.val) j := by
  have hN : cfg0.N = 5 := N_0
  have ht := t.isLt
  have hr : 2000 * t.val + r.val < 10000 := by omega
  rw [rows0_entry V c t r j hr]
  unfold st0_ext
  rw [dif_pos hr]

/-- The column sums of the block of point t: the sum over the 2000 rows from row 2000 t on. -/
theorem st0_blocksum (c : Dev nD) (t : Fin cfg0.N) (j : Fin 256) :
    ∑ r : Fin 2000, rows0 (F := Ideal) V c t (ix2 r j)
      = ∑ i ∈ Finset.range 2000, st0_ext (y0 V c) (2000 * t.val + i) j := by
  rw [Finset.sum_range]
  exact Finset.sum_congr rfl fun r _ => st0_rows0_ext V c t r j

/-- and of the squares. -/
theorem st0_blocksumsq (c : Dev nD) (t : Fin cfg0.N) (j : Fin 256) :
    sqsum0 (F := Ideal) V c t (ix1 j)
      = ∑ i ∈ Finset.range 2000, st0_ext (y0 V c) (2000 * t.val + i) j * st0_ext (y0 V c) (2000 * t.val + i) j := by
  rw [Finset.sum_range]
  unfold sqsum0
  rw [st0_pay8_at]
  exact Finset.sum_congr rfl fun r _ => congrArg₂ (· * ·) (st0_rows0_ext V c t r j) (st0_rows0_ext V c t r j)

/-- The first running row after position n: the column sums over the first 2000 (n + 1) rows, by induction on n
    (a zero start, then one block of 2000 rows more at each point). -/
theorem st0_acc0_fst (c : Dev nD) : ∀ (n : ℕ) (hn : n < cfg0.N) (j : Fin 256),
    (acc0 (F := Ideal) V c n hn).1 (ix2 (0 : Fin 1) j) = ∑ i ∈ Finset.range (2000 * (n + 1)), st0_ext (y0 V c) i j
  | 0, hn, j => by
    show k0_pay7 (F := Ideal) _ _ _ _ _ (k0_pay4 (F := Ideal)) (ix2 (0 : Fin 1) j) = _
    rw [st0_pay7_at, st0_pay4_at, zero_add]
    refine (st0_blocksum V c ⟨0, hn⟩ j).trans ?_
    show ∑ i ∈ Finset.range 2000, st0_ext (y0 V c) (2000 * 0 + i) j
      = ∑ i ∈ Finset.range (2000 * (0 + 1)), st0_ext (y0 V c) i j
    simp only [Nat.mul_zero, Nat.zero_add, Nat.mul_one]
  | n + 1, hn, j => by
    show k0_pay7 (F := Ideal) _ _ _ _ _ (acc0 (F := Ideal) V c n _).1 (ix2 (0 : Fin 1) j) = _
    rw [st0_pay7_at, st0_acc0_fst c n _ j, show 2000 * (n + 1 + 1) = 2000 * (n + 1) + 2000 from by omega,
      Finset.sum_range_add]
    exact congrArg _ (st0_blocksum V c ⟨n + 1, hn⟩ j)

/-- The second running row after position n: the column sums of the squares over the same rows. -/
theorem st0_acc0_snd (c : Dev nD) : ∀ (n : ℕ) (hn : n < cfg0.N) (j : Fin 256),
    (acc0 (F := Ideal) V c n hn).2 (ix2 (0 : Fin 1) j)
      = ∑ i ∈ Finset.range (2000 * (n + 1)), st0_ext (y0 V c) i j * st0_ext (y0 V c) i j
  | 0, hn, j => by
    show k0_pay1 (F := Ideal) (k0_pay5 (F := Ideal)) (sqsum0 (F := Ideal) V c ⟨0, hn⟩) (ix2 (0 : Fin 1) j) = _
    rw [st0_pay1_at, st0_pay5_at, zero_add]
    refine (st0_blocksumsq V c ⟨0, hn⟩ j).trans ?_
    show ∑ i ∈ Finset.range 2000, st0_ext (y0 V c) (2000 * 0 + i) j * st0_ext (y0 V c) (2000 * 0 + i) j
      = ∑ i ∈ Finset.range (2000 * (0 + 1)), st0_ext (y0 V c) i j * st0_ext (y0 V c) i j
    simp only [Nat.mul_zero, Nat.zero_add, Nat.mul_one]
  | n + 1, hn, j => by
    show k0_pay1 (F := Ideal) (acc0 (F := Ideal) V c n _).2 (sqsum0 (F := Ideal) V c ⟨n + 1, hn⟩) (ix2 (0 : Fin 1) j) = _
    rw [st0_pay1_at, st0_acc0_snd c n _ j, show 2000 * (n + 1 + 1) = 2000 * (n + 1) + 2000 from by omega,
      Finset.sum_range_add]
    exact congrArg _ (st0_blocksumsq V c ⟨n + 1, hn⟩ j)

/-! ## The statistics -/

/-- After the last point the first running row holds the column sums over all 10000 rows: divided by the row count,
    the batch mean. -/
theorem st0_mean_at (c : Dev nD) (j : Fin 256) :
    k0_pay2 ((acc0 (F := Ideal) V c 4 st0_h4).1) (ix2 (0 : Fin 1) j) = Spec.mean (y0 V c) j := by
  rw [st0_pay2_at, st0_acc0_fst V c 4 st0_h4 j, show 2000 * (4 + 1) = 10000 from rfl, st0_sum_ext]
  rfl

/-- and the second the column sums of the squares: divided by the row count, less the squared mean, the variance. -/
theorem st0_var_at (c : Dev nD) (j : Fin 256) :
    k0_pay3 ((acc0 (F := Ideal) V c 4 st0_h4).1) ((acc0 (F := Ideal) V c 4 st0_h4).2) (ix2 (0 : Fin 1) j)
      = Spec.varSq (y0 V c) j := by
  rw [st0_pay3_at, st0_mean_at, st0_acc0_snd V c 4 st0_h4 j, show 2000 * (4 + 1) = 10000 from rfl, st0_sum_ext_sq]
  rfl

theorem arr_mean (c : Dev nD) :
    (dat0 (F := Ideal) V c).arrAt 6 cfg0.N = fun p => Spec.mean (y0 V c) (p 1) := by
  refine (st0_arr6 V c).trans ?_
  funext p
  obtain ⟨a, j, rfl⟩ : ∃ (a : Fin 1) (j : Fin 256), p = ix2 a j := ⟨p 0, p 1, eq_ix2 p⟩
  obtain rfl : a = 0 := Subsingleton.elim _ _
  exact st0_mean_at V c j

theorem arr_var (c : Dev nD) :
    (dat0 (F := Ideal) V c).arrAt 7 cfg0.N = fun p => Spec.varSq (y0 V c) (p 1) := by
  refine (st0_arr7 V c).trans ?_
  funext p
  obtain ⟨a, j, rfl⟩ : ∃ (a : Fin 1) (j : Fin 256), p = ix2 a j := ⟨p 0, p 1, eq_ix2 p⟩
  obtain rfl : a = 0 := Subsingleton.elim _ _
  exact st0_var_at V c j

end Cert.KernelIdeal.Hand

end
-- ==== Proof.KiValue1.lean ====
/-
  What region 1 leaves in its result array, at the ideal instance: each of the five blocks is, on its 2000 rows, the
  normalised and rectified rows through the second dense layer, and the blocks cover the array.
-/
import proofs.«152078_j21801253995167_1_alg».proof.Proof.KiData
import proofs.«152078_j21801253995167_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The second dense layer's product at an index

The product contracts the left operand's axis 1 with the right operand's axis 0: at output index (r, j) and
contraction coordinate k the operands are read at (r, k) and (k, j). -/

theorem lhs_dense2_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_dense2_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_dense2_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_dense2_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into the zero accumulator, at (r, j): the sum over k of left (r, k) times right (k, j). -/
theorem dense2_matmul_apply (a : FVec Ideal S2000x256 .bf16) (b : FVec Ideal S256x256 .bf16) (r : Fin 2000) (j : Fin 256) :
    matmul dot_S2000x256_S256x256_S2000x256_1_0_0_1_n_n none a b (constant (F := Ideal) S2000x256 .f32 0x00000000#32) (ix2 r j)
      = ∑ k : Fin 256, a (ix2 r k) * b (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun a => Fin.ext (by
    match a with
    | ⟨0, _⟩ => exact lhs_dense2_0 _ _
    | ⟨1, _⟩ => exact (lhs_dense2_1 _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun a => Fin.ext (by
    match a with
    | ⟨0, _⟩ => exact (rhs_dense2_0 _ _).trans hk
    | ⟨1, _⟩ => exact rhs_dense2_1 _ _)
  rw [el, er]

/-! ## The body's payload at an index -/

/-- Entry (r, j) of what the body stores: the block's row r normalised with the statistics' rows, scaled, shifted and
    rectified, through the weight matrix's column j, plus the bias. -/
theorem pay1_apply (x0 : Vec Ideal S2000x256 .f32) (x1 x2 x3 x4 : Vec Ideal S1x256 .f32) (x5 : Vec Ideal S256x256 .f32)
    (x6 : Vec Ideal S1x256 .f32) (r : Fin 2000) (j : Fin 256) :
    k1_pay1 x0 x1 x2 x3 x4 x5 x6 (ix2 r j)
      = (∑ k : Fin 256, max ((x0 (ix2 r k) - x1 (ix2 0 k)) * Ideal.rsqrt (x2 (ix2 0 k) + Spec.eps32) * x3 (ix2 0 k) + x4 (ix2 0 k)) Spec.zero32
            * x5 (ix2 k j)) + x6 (ix2 0 j) := by
  unfold k1_pay1
  simp only [shapeCast_self]
  rw [addf_apply, dense2_matmul_apply, broadcastTo_1b_ab_apply]
  refine congrArg (· + x6 (ix2 0 j)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply, broadcast_apply]
  rfl

variable (V : (c : Dev nD) → (b : Ref sig .tc) → Buf (Elt Ideal) ((c : Thread nD τ).loc b))

/-! ## Each block read where the result's rectangle says -/

/-- The printed index maps over the grid: the rows' window and the result's window stand at block (t, 0) at point t,
    every other window at block (0, 0). -/
theorem index_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row r of the rows' block at point t is row 2000 t + r of the array. -/
theorem iblk1_rows_apply (c : Dev nD) (t : Fin cfg1.N) (r : Fin 2000) (k : Fin 256) (R : Fin 10000)
    (hR : R.val = 2000 * t.val + r.val) :
    (iblk1 V c 0 t : Vec Ideal S2000x256 .f32) (ix2 r k) = (V c main_v20_0 : S10000x256.Idx → EReal) (ix2 R k) := by
  obtain ⟨⟨e0, e1⟩, -⟩ := index_facts1 t
  unfold iblk1
  rw [View.read_apply]
  show V c main_v20_0 _ = V c main_v20_0 _
  congr 1
  funext a
  apply Fin.ext
  match a with
  | ⟨0, _⟩ => show win1_0.index t 0 * 2000 + 1 * r.val = R.val; rw [e0, hR]; omega
  | ⟨1, _⟩ => show win1_0.index t 1 * 256 + 1 * k.val = k.val; rw [e1]; omega

/-- The mean's one row is read whole at every point. -/
theorem iblk1_1_apply (c : Dev nD) (t : Fin cfg1.N) (k : Fin 256) :
    (iblk1 V c 1 t : Vec Ideal S1x256 .f32) (ix2 0 k) = (V c main_v20_1 : S1x256.Idx → EReal) (ix2 0 k) := by
  obtain ⟨e0, e1⟩ := (index_facts1 t).2.1
  unfold iblk1
  rw [View.read_apply]
  show V c main_v20_1 _ = V c main_v20_1 _
  congr 1
  funext a
  apply Fin.ext
  match a with
  | ⟨0, _⟩ => show win1_1.index t 0 * 1 + 1 * ((0 : Fin 1) : ℕ) = ((0 : Fin 1) : ℕ); rw [e0]; rfl
  | ⟨1, _⟩ => show win1_1.index t 1 * 256 + 1 * k.val = k.val; rw [e1]; omega

/-- So is the variance's row, -/
theorem iblk1_2_apply (c : Dev nD) (t : Fin cfg1.N) (k : Fin 256) :
    (iblk1 V c 2 t : Vec Ideal S1x256 .f32) (ix2 0 k) = (V c main_v20_2 : S1x256.Idx → EReal) (ix2 0 k) := by
  obtain ⟨e0, e1⟩ := (index_facts1 t).2.2.1
  unfold iblk1
  rw [View.read_apply]
  show V c main_v20_2 _ = V c main_v20_2 _
  congr 1
  funext a
  apply Fin.ext
  match a with
  | ⟨0, _⟩ => show win1_2.index t 0 * 1 + 1 * ((0 : Fin 1) : ℕ) = ((0 : Fin 1) : ℕ); rw [e0]; rfl
  | ⟨1, _⟩ => show win1_2.index t 1 * 256 + 1 * k.val = k.val; rw [e1]; omega

/-- the scale's, -/
theorem iblk1_3_apply (c : Dev nD) (t : Fin cfg1.N) (k : Fin 256) :
    (iblk1 V c 3 t : Vec Ideal S1x256 .f32) (ix2 0 k) = (V c main_v16 : S1x256.Idx → EReal) (ix2 0 k) := by
  obtain ⟨e0, e1⟩ := (index_facts1 t).2.2.2.1
  unfold iblk1
  rw [View.read_apply]
  show V c main_v16 _ = V c main_v16 _
  congr 1
  funext a
  apply Fin.ext
  match a with
  | ⟨0, _⟩ => show win1_3.index t 0 * 1 + 1 * ((0 : Fin 1) : ℕ) = ((0 : Fin 1) : ℕ); rw [e0]; rfl
  | ⟨1, _⟩ => show win1_3.index t 1 * 256 + 1 * k.val = k.val; rw [e1]; omega

/-- the shift's, -/
theorem iblk1_4_apply (c : Dev nD) (t : Fin cfg1.N) (k : Fin 256) :
    (iblk1 V c 4 t : Vec Ideal S1x256 .f32) (ix2 0 k) = (V c main_v17 : S1x256.Idx → EReal) (ix2 0 k) := by
  obtain ⟨e0, e1⟩ := (index_facts1 t).2.2.2.2.1
  unfold iblk1
  rw [View.read_apply]
  show V c main_v17 _ = V c main_v17 _
  congr 1
  funext a
  apply Fin.ext
  match a with
  | ⟨0, _⟩ => show win1_4.index t 0 * 1 + 1 * ((0 : Fin 1) : ℕ) = ((0 : Fin 1) : ℕ); rw [e0]; rfl
  | ⟨1, _⟩ => show win1_4.index t 1 * 256 + 1 * k.val = k.val; rw [e1]; omega

/-- and the bias's. -/
theorem iblk1_6_apply (c : Dev nD) (t : Fin cfg1.N) (k : Fin 256) :
    (iblk1 V c 6 t : Vec Ideal S1x256 .f32) (ix2 0 k) = (V c main_v18 : S1x256.Idx → EReal) (ix2 0 k) := by
  obtain ⟨e0, e1⟩ := (index_facts1 t).2.2.2.2.2.2.1
  unfold iblk1
  rw [View.read_apply]
  show V c main_v18 _ = V c main_v18 _
  congr 1
  funext a
  apply Fin.ext
  match a with
  | ⟨0, _⟩ => show win1_6.index t 0 * 1 + 1 * ((0 : Fin 1) : ℕ) = ((0 : Fin 1) : ℕ); rw [e0]; rfl
  | ⟨1, _⟩ => show win1_6.index t 1 * 256 + 1 * k.val = k.val; rw [e1]; omega

/-- The weight matrix is read whole at every point. -/
theorem iblk1_5_apply (c : Dev nD) (t : Fin cfg1.N) (k j : Fin 256) :
    (iblk1 V c 5 t : Vec Ideal S256x256 .f32) (ix2 k j) = (V c main_arg7 : S256x256.Idx → EReal) (ix2 k j) := by
  obtain ⟨e0, e1⟩ := (index_facts1 t).2.2.2.2.2.1
  unfold iblk1
  rw [View.read_apply]
  show V c main_arg7 _ = V c main_arg7 _
  congr 1
  funext a
  apply Fin.ext
  match a with
  | ⟨0, _⟩ => show win1_5.index t 0 * 256 + 1 * k.val = k.val; rw [e0]; omega
  | ⟨1, _⟩ => show win1_5.index t 1 * 256 + 1 * j.val = j.val; rw [e1]; omega

/-! ## What a point writes back, and the array -/

/-- Entry (r, j) of what the body leaves at point t is entry (2000 t + r, j) of the second dense layer on the
    normalised and rectified rows of the whole array. -/
theorem rows1_apply (c : Dev nD) (t : Fin cfg1.N) (r : Fin 2000) (j : Fin 256) (R : Fin 10000)
    (hR : R.val = 2000 * t.val + r.val) :
    rows1 V c t (ix2 r j)
      = Spec.dense2 (V c main_v20_0) (V c main_v20_1) (V c main_v20_2) (V c main_v16) (V c main_v17) (V c main_arg7) (V c main_v18) R j := by
  unfold rows1
  refine (pay1_apply (iblk1 V c 0 t) (iblk1 V c 1 t) (iblk1 V c 2 t) (iblk1 V c 3 t) (iblk1 V c 4 t) (iblk1 V c 5 t) (iblk1 V c 6 t) r j).trans ?_
  unfold Spec.dense2
  rw [iblk1_6_apply V c t j]
  refine congrArg (· + _) (Finset.sum_congr rfl fun k _ => ?_)
  rw [iblk1_rows_apply V c t r k R hR, iblk1_1_apply V c t k, iblk1_2_apply V c t k, iblk1_3_apply V c t k, iblk1_4_apply V c t k,
    iblk1_5_apply V c t k j]

/-- What point t writes back is its block of the second dense layer on the normalised and rectified rows of the
    whole array: the block's entry (r, j) sits in the array at (2000 t + r, j). -/
theorem flushed1_eq (c : Dev nD) (t : Fin cfg1.N) :
    (dat1 (F := Ideal) V c).flushed 7 t
      = ((cfg1.win 7).blk t).view.read (Elt Ideal) (fun p => Spec.dense2 (V c main_v20_0) (V c main_v20_1) (V c main_v20_2) (V c main_v16) (V c main_v17) (V c main_arg7) (V c main_v18) (p 0) (p 1)) := by
  obtain ⟨e0, e1⟩ := (index_facts1 t).2.2.2.2.2.2.2
  funext y
  have hr : (y 0).val < 2000 := (y 0).isLt
  have hj : (y 1).val < 256 := (y 1).isLt
  have hN : grid1.N = 5 := N_1
  have ht : t.val < 5 := hN ▸ t.isLt
  have hx : win1_7.xinj (grid1.coords t) y = ix2 (⟨(y 0).val, hr⟩ : Fin 2000) (⟨(y 1).val, hj⟩ : Fin 256) :=
    funext fun a => by match a with | ⟨0, _⟩ => rfl | ⟨1, _⟩ => rfl
  have hemb : ((cfg1.win 7).blk t).view.emb y = ix2 (⟨2000 * t.val + (y 0).val, by omega⟩ : Fin 10000) (⟨(y 1).val, hj⟩ : Fin 256) :=
    funext fun a => Fin.ext (by
      match a with
      | ⟨0, _⟩ => show win1_7.index t 0 * 2000 + 1 * (y 0).val = 2000 * t.val + (y 0).val; rw [e0]; omega
      | ⟨1, _⟩ => show win1_7.index t 1 * 256 + 1 * (y 1).val = (y 1).val; rw [e1]; omega)
  rw [View.read_apply, hemb]
  show rows1 V c t (win1_7.xinj (grid1.coords t) y) = _
  rw [hx]
  exact rows1_apply V c t _ _ _ rfl

/-- Row p of the array lies in the block of point p / 2000. -/
theorem cover1 (i : S10000x256.Idx) :
    ∃ t : Fin cfg1.N, (cfg1.win 7).flush t = true ∧ i ∈ ((cfg1.win 7).blk t).view.set := by
  have h0 : (i 0).val < 10000 := (i 0).isLt
  have h1 : (i 1).val < 256 := (i 1).isLt
  have hN : grid1.N = 5 := N_1
  obtain ⟨t, ht⟩ : ∃ t : Fin cfg1.N, t.val = (i 0).val / 2000 :=
    ⟨⟨(i 0).val / 2000, by show (i 0).val / 2000 < grid1.N; rw [hN]; omega⟩, rfl⟩
  obtain ⟨e0, e1⟩ := (index_facts1 t).2.2.2.2.2.2.2
  refine ⟨t, flush1_7 t, ?_⟩
  show i ∈ ((View.whole main_v21).slice (win1_7.rect t)).set
  rw [View.set_slice_whole, Rect.mem_set_unit]
  intro a
  match a with
  | ⟨0, _⟩ => show win1_7.index t 0 * 2000 ≤ (i 0).val ∧ (i 0).val < win1_7.index t 0 * 2000 + 2000; rw [e0]; omega
  | ⟨1, _⟩ => show win1_7.index t 1 * 256 ≤ (i 1).val ∧ (i 1).val < win1_7.index t 1 * 256 + 256; rw [e1]; omega

/-- So the result array ends, entry by entry, at the second dense layer on the normalised and rectified rows. -/
theorem arr_out (c : Dev nD) :
    (dat1 (F := Ideal) V c).arrAt 7 cfg1.N
      = fun p => Spec.dense2 (V c main_v20_0) (V c main_v20_1) (V c main_v20_2) (V c main_v16) (V c main_v17) (V c main_arg7) (V c main_v18) (p 0) (p 1) :=
  (dat1 (F := Ideal) V c).arrAt_eq_of_cover 7 _ (fun t _ => flushed1_eq V c t) cover1

end Cert.KernelIdeal.Hand

end
-- ==== Proof.KiResult.lean ====
/-
  The kernel program's result array as one function of the arguments, at the ideal instance: region 1's result is the
  normalise-rectify-dense function of what region 0 left (the dense layer's rows, their batch mean, and the variance
  in its mean-of-squares form) and of the reshaped parameters, and those in turn are functions of the arguments through
  the host prefix. Composed, it is the specification's result with that form of the variance.
-/
import proofs.«152078_j21801253995167_1_alg».proof.Proof.KiHost
import proofs.«152078_j21801253995167_1_alg».proof.Proof.KiValue0
import proofs.«152078_j21801253995167_1_alg».proof.Proof.KiStats0
import proofs.«152078_j21801253995167_1_alg».proof.Proof.KiValue1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The aggregate as the reference spells it, of the kernel program's own arguments. -/
abbrev aggOf (c : Dev nD) : Spec.SN.Idx → EReal :=
  Cert.ReferenceIdeal.Read.val_main_v14 (F := Ideal) (m ((c.tc : Thread nD τ).loc main_arg0)) (m ((c.tc : Thread nD τ).loc main_arg1)) (m ((c.tc : Thread nD τ).loc main_arg2))

/-- The first dense layer of the arguments. -/
abbrev yOf (c : Dev nD) : Fin 10000 → Fin 256 → EReal :=
  Spec.dense1 (Spec.cell (m ((c.tc : Thread nD τ).loc main_arg9))) (m ((c.tc : Thread nD τ).loc main_arg0)) (aggOf m c) (m ((c.tc : Thread nD τ).loc main_arg3)) (Spec.row (m ((c.tc : Thread nD τ).loc main_arg4)))

/-- Region 0's dense layer, entered after the host prefix, is the dense layer of the arguments. -/
theorem y0_eq (c : Dev nD) : y0 (V1 m) c = yOf m c := by
  show Spec.dense1 (V1 m c main_v19) (V1 m c main_arg0) (V1 m c main_v14) (V1 m c main_arg3) (V1 m c main_v15)
    = Spec.dense1 (Spec.cell (m ((c.tc : Thread nD τ).loc main_arg9))) (m ((c.tc : Thread nD τ).loc main_arg0)) (aggOf m c) (m ((c.tc : Thread nD τ).loc main_arg3)) (Spec.row (m ((c.tc : Thread nD τ).loc main_arg4)))
  exact congr (congr (congr (congr (congrArg Spec.dense1 (V1_eps m c)) (V1_x m c)) (V1_agg m c)) (V1_w1 m c)) (V1_b1 m c)

theorem rows_eq (c : Dev nD) : (V2 m c main_v20_0 : Spec.SN.Idx → EReal) = fun p => yOf m c (p 0) (p 1) :=
  ((V2_rows m c).trans (arr_rows (V1 m) c)).trans (congrArg (fun (y : Fin 10000 → Fin 256 → EReal) (p : Spec.SN.Idx) => y (p 0) (p 1)) (y0_eq m c))

theorem mean_eq (c : Dev nD) : (V2 m c main_v20_1 : Spec.SR.Idx → EReal) = fun p => Spec.mean (yOf m c) (p 1) :=
  ((V2_mean m c).trans (arr_mean (V1 m) c)).trans (congrArg (fun (y : Fin 10000 → Fin 256 → EReal) (p : Spec.SR.Idx) => Spec.mean y (p 1)) (y0_eq m c))

theorem var_eq (c : Dev nD) : (V2 m c main_v20_2 : Spec.SR.Idx → EReal) = fun p => Spec.varSq (yOf m c) (p 1) :=
  ((V2_var m c).trans (arr_var (V1 m) c)).trans (congrArg (fun (y : Fin 10000 → Fin 256 → EReal) (p : Spec.SR.Idx) => Spec.varSq y (p 1)) (y0_eq m c))

theorem kernel_result (c : Dev nD) :
    (dat1 (F := Ideal) (V2 m) c).arrAt 7 cfg1.N
      = Spec.result Spec.varSq (m ((c.tc : Thread nD τ).loc main_arg0)) (aggOf m c)
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (arr_out (V2 m) c).trans ?_
  have e : Spec.dense2 (V2 m c main_v20_0) (V2 m c main_v20_1) (V2 m c main_v20_2) (V2 m c main_v16) (V2 m c main_v17) (V2 m c main_arg7) (V2 m c main_v18)
      = Spec.dense2 (fun p => yOf m c (p 0) (p 1)) (fun p => Spec.mean (yOf m c) (p 1)) (fun p => Spec.varSq (yOf m c) (p 1))
          (Spec.row (m ((c.tc : Thread nD τ).loc main_arg5))) (Spec.row (m ((c.tc : Thread nD τ).loc main_arg6))) (m ((c.tc : Thread nD τ).loc main_arg7)) (Spec.row (m ((c.tc : Thread nD τ).loc main_arg8))) :=
    congr (congr (congr (congr (congr (congr (congrArg Spec.dense2 (rows_eq m c)) (mean_eq m c)) (var_eq m c))
      ((V2_gamma m c).trans (V1_gamma m c))) ((V2_beta m c).trans (V1_beta m c))) ((V2_w2 m c).trans (V1_w2 m c)))
      ((V2_b2 m c).trans (V1_b2 m c))
  funext p
  exact congrFun (congrFun e (p 0)) (p 1)

end Cert.KernelIdeal.Hand

end
-- ==== Proof.RefValue.lean ====
/-
  The reference's result, read at an index: the host program's stages (the aggregate kept as one term, the GIN
  pre-activation, the two dense layers, the batch mean, the variance as the mean of the squared deviations, the
  normalisation and the rectifier) compose into the specification's result with that form of the variance.
-/
import proofs.«152078_j21801253995167_1_alg».proof.Proof.Gen.ReferenceIdeal.Run
import proofs.«152078_j21801253995167_1_alg».proof.Proof.Gen.ReferenceIdeal.Read
import proofs.«152078_j21801253995167_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## Indices: the composed index functions of the stages are the coordinate constructors -/

/-- The left operand of either product is read at row `i`, column `k`. -/
theorem lidx21 (i : Fin 10000) (j k : Fin 256) : lidx_main_v21 (ix2 i j) k = ix2 i k :=
  funext fun a => Fin.ext (by match a with | ⟨0, _⟩ => rfl | ⟨1, _⟩ => rfl)
/-- The right operand of either product is read at row `k`, column `j`. -/
theorem ridx21 (i : Fin 10000) (j k : Fin 256) : ridx_main_v21 (ix2 i j) k = ix2 k j :=
  funext fun a => Fin.ext (by match a with | ⟨0, _⟩ => rfl | ⟨1, _⟩ => rfl)

/-! ## The first dense layer -/

/-- The scale of the node's own features: one plus the cell. -/
theorem v18_at (x9 : (⟨S1, .f32⟩ : BufTy).Contents (Elt Ideal)) (p : S10000x256.Idx) :
    val_main_v18 (F := Ideal) x9 p = Spec.one32 + x9 (ix1 0) := by
  rw [val_main_v18_apply, val_main_v17_apply, val_main_v16_apply, val_main_v15_apply, val_main_cst_1_apply,
    Ideal.addf_def, Ideal.ofBits_def]
  exact congrArg (fun q => Spec.one32 + x9 q) (funext fun a => by match a with | ⟨0, _⟩ => rfl)

/-- A flat vector broadcast to every row reads its column's entry. -/
theorem v23_at (x4 : (⟨S256, .f32⟩ : BufTy).Contents (Elt Ideal)) (i : Fin 10000) (j : Fin 256) :
    val_main_v23 (F := Ideal) x4 (ix2 i j) = x4 (ix1 j) := by
  rw [val_main_v23_apply, val_main_v22_apply]
  exact congrArg x4 (funext fun a => by match a with | ⟨0, _⟩ => rfl)

/-- The GIN pre-activation at an entry. -/
theorem v20_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x9 : (⟨S1, .f32⟩ : BufTy).Contents (Elt Ideal)) (p : S10000x256.Idx) :
    val_main_v20 (F := Ideal) x0 x1 x2 x9 p = (Spec.one32 + x9 (ix1 0)) * x0 p + val_main_v14 (F := Ideal) x0 x1 x2 p := by
  rw [val_main_v20_apply, val_main_v19_apply, v18_at, Ideal.addf_def, Ideal.mulf_def]

/-- The first dense layer at an entry is the specification's. -/
theorem v24_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x3 : (⟨S256x256, .f32⟩ : BufTy).Contents (Elt Ideal))
    (x4 : (⟨S256, .f32⟩ : BufTy).Contents (Elt Ideal)) (x9 : (⟨S1, .f32⟩ : BufTy).Contents (Elt Ideal)) (i : Fin 10000) (j : Fin 256) :
    val_main_v24 (F := Ideal) x0 x1 x2 x3 x4 x9 (ix2 i j)
      = Spec.dense1 (Spec.cell x9) x0 (val_main_v14 (F := Ideal) x0 x1 x2) x3 (Spec.row x4) i j := by
  rw [val_main_v24_apply, val_main_v21_apply, v23_at, Ideal.addf_def]
  unfold Spec.dense1 Spec.cell Spec.row
  refine congrArg (· + x4 (ix1 j)) (Finset.sum_congr rfl fun k _ => ?_)
  rw [lidx21, ridx21, v20_at]

/-! ## The column statistics -/

/-- A column sum reads its operand down the column. -/
theorem idx25 (j : Fin 256) (k : Fin 10000) : idx_main_v25 (ix1 j) k = ix2 k j :=
  funext fun a => Fin.ext (by match a with | ⟨0, _⟩ => rfl | ⟨1, _⟩ => rfl)
theorem idx32 (j : Fin 256) (k : Fin 10000) : idx_main_v32 (ix1 j) k = ix2 k j :=
  funext fun a => Fin.ext (by match a with | ⟨0, _⟩ => rfl | ⟨1, _⟩ => rfl)

/-- The batch mean of a column is the specification's. -/
theorem v27_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x3 : (⟨S256x256, .f32⟩ : BufTy).Contents (Elt Ideal))
    (x4 : (⟨S256, .f32⟩ : BufTy).Contents (Elt Ideal)) (x9 : (⟨S1, .f32⟩ : BufTy).Contents (Elt Ideal)) (j : Fin 256) :
    val_main_v27 (F := Ideal) x0 x1 x2 x3 x4 x9 (ix1 j) = Spec.mean (Spec.dense1 (Spec.cell x9) x0 (val_main_v14 (F := Ideal) x0 x1 x2) x3 (Spec.row x4)) j := by
  rw [val_main_v27_apply, val_main_v25_apply, val_main_v26_apply, val_main_cst_2_apply, val_main_cst_3_apply,
    Ideal.hostDivf_def, Ideal.ofBits_def, Ideal.ofBits_def, Ideal.ofBits_zero_f32, zero_add]
  unfold Spec.mean
  refine congrArg (Ideal.div · Spec.n32) (Finset.sum_congr rfl fun k _ => ?_)
  rw [idx25, v24_at]

/-- The mean broadcast to every row, as the deviation's subtrahend. -/
theorem v29_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x3 : (⟨S256x256, .f32⟩ : BufTy).Contents (Elt Ideal))
    (x4 : (⟨S256, .f32⟩ : BufTy).Contents (Elt Ideal)) (x9 : (⟨S1, .f32⟩ : BufTy).Contents (Elt Ideal)) (i : Fin 10000) (j : Fin 256) :
    val_main_v29 (F := Ideal) x0 x1 x2 x3 x4 x9 (ix2 i j) = Spec.mean (Spec.dense1 (Spec.cell x9) x0 (val_main_v14 (F := Ideal) x0 x1 x2) x3 (Spec.row x4)) j := by
  rw [val_main_v29_apply, val_main_v28_apply, ← v27_at]
  exact congrArg (val_main_v27 (F := Ideal) x0 x1 x2 x3 x4 x9) (funext fun a => by match a with | ⟨0, _⟩ => rfl)

/-- The variance of a column, the mean of the squared deviations, is the specification's. -/
theorem v34_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x3 : (⟨S256x256, .f32⟩ : BufTy).Contents (Elt Ideal))
    (x4 : (⟨S256, .f32⟩ : BufTy).Contents (Elt Ideal)) (x9 : (⟨S1, .f32⟩ : BufTy).Contents (Elt Ideal)) (j : Fin 256) :
    val_main_v34 (F := Ideal) x0 x1 x2 x3 x4 x9 (ix1 j) = Spec.varDev (Spec.dense1 (Spec.cell x9) x0 (val_main_v14 (F := Ideal) x0 x1 x2) x3 (Spec.row x4)) j := by
  rw [val_main_v34_apply, val_main_v32_apply, val_main_v33_apply, val_main_cst_4_apply, val_main_cst_5_apply,
    Ideal.hostDivf_def, Ideal.ofBits_def, Ideal.ofBits_def, Ideal.ofBits_zero_f32, zero_add]
  unfold Spec.varDev
  refine congrArg (Ideal.div · Spec.n32) (Finset.sum_congr rfl fun k _ => ?_)
  rw [idx32, val_main_v31_apply, val_main_v30_apply, v29_at, v24_at, Ideal.mulf_def, Ideal.subf_def]

/-! ## The normalisation and the rectifier -/

/-- The mean broadcast to every row, as the normalisation's subtrahend. -/
theorem v36_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x3 : (⟨S256x256, .f32⟩ : BufTy).Contents (Elt Ideal))
    (x4 : (⟨S256, .f32⟩ : BufTy).Contents (Elt Ideal)) (x9 : (⟨S1, .f32⟩ : BufTy).Contents (Elt Ideal)) (i : Fin 10000) (j : Fin 256) :
    val_main_v36 (F := Ideal) x0 x1 x2 x3 x4 x9 (ix2 i j) = Spec.mean (Spec.dense1 (Spec.cell x9) x0 (val_main_v14 (F := Ideal) x0 x1 x2) x3 (Spec.row x4)) j := by
  rw [val_main_v36_apply, val_main_v35_apply, ← v27_at]
  exact congrArg (val_main_v27 (F := Ideal) x0 x1 x2 x3 x4 x9) (funext fun a => by match a with | ⟨0, _⟩ => rfl)

/-- The reciprocal square root of the shifted variance, broadcast to every row. -/
theorem v42_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x3 : (⟨S256x256, .f32⟩ : BufTy).Contents (Elt Ideal))
    (x4 : (⟨S256, .f32⟩ : BufTy).Contents (Elt Ideal)) (x9 : (⟨S1, .f32⟩ : BufTy).Contents (Elt Ideal)) (i : Fin 10000) (j : Fin 256) :
    val_main_v42 (F := Ideal) x0 x1 x2 x3 x4 x9 (ix2 i j) = Ideal.rsqrt (Spec.varDev (Spec.dense1 (Spec.cell x9) x0 (val_main_v14 (F := Ideal) x0 x1 x2) x3 (Spec.row x4)) j + Spec.eps32) := by
  have h : idx_main_v41 (idx_main_v42 (ix2 i j)) = ix1 j := funext fun a => by match a with | ⟨0, _⟩ => rfl
  rw [val_main_v42_apply, val_main_v41_apply, h, val_main_v40_apply, val_main_v39_apply, v34_at, val_main_v38_apply,
    val_main_cst_6_apply, Ideal.hostUnary_rsqrt_def, Ideal.addf_def, Ideal.ofBits_def]

/-- The scale, the shift and the second bias, each a flat vector broadcast to every row. -/
theorem v45_at (x5 : (⟨S256, .f32⟩ : BufTy).Contents (Elt Ideal)) (i : Fin 10000) (j : Fin 256) :
    val_main_v45 (F := Ideal) x5 (ix2 i j) = x5 (ix1 j) := by
  rw [val_main_v45_apply, val_main_v44_apply]
  exact congrArg x5 (funext fun a => by match a with | ⟨0, _⟩ => rfl)
theorem v48_at (x6 : (⟨S256, .f32⟩ : BufTy).Contents (Elt Ideal)) (i : Fin 10000) (j : Fin 256) :
    val_main_v48 (F := Ideal) x6 (ix2 i j) = x6 (ix1 j) := by
  rw [val_main_v48_apply, val_main_v47_apply]
  exact congrArg x6 (funext fun a => by match a with | ⟨0, _⟩ => rfl)
theorem v53_at (x8 : (⟨S256, .f32⟩ : BufTy).Contents (Elt Ideal)) (i : Fin 10000) (j : Fin 256) :
    val_main_v53 (F := Ideal) x8 (ix2 i j) = x8 (ix1 j) := by
  rw [val_main_v53_apply, val_main_v52_apply]
  exact congrArg x8 (funext fun a => by match a with | ⟨0, _⟩ => rfl)

/-- The rectifier's zero splat. -/
theorem call0_at (p : S10000x256.Idx) : val_main_call0_v0 (F := Ideal) p = Spec.zero32 := by
  rw [val_main_call0_v0_apply, val_main_call0_cst_apply, Ideal.ofBits_def]

/-- The rectified normalised entry is the second layer's left factor in the specification. -/
theorem v50_at (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (x3 : (⟨S256x256, .f32⟩ : BufTy).Contents (Elt Ideal))
    (x4 x5 x6 : (⟨S256, .f32⟩ : BufTy).Contents (Elt Ideal)) (x9 : (⟨S1, .f32⟩ : BufTy).Contents (Elt Ideal)) (i : Fin 10000) (k : Fin 256) :
    val_main_v50 (F := Ideal) x0 x1 x2 x3 x4 x5 x6 x9 (ix2 i k)
      = max (((Spec.dense1 (Spec.cell x9) x0 (val_main_v14 (F := Ideal) x0 x1 x2) x3 (Spec.row x4)) i k - Spec.mean (Spec.dense1 (Spec.cell x9) x0 (val_main_v14 (F := Ideal) x0 x1 x2) x3 (Spec.row x4)) k)
        * Ideal.rsqrt (Spec.varDev (Spec.dense1 (Spec.cell x9) x0 (val_main_v14 (F := Ideal) x0 x1 x2) x3 (Spec.row x4)) k + Spec.eps32) * x5 (ix1 k) + x6 (ix1 k)) Spec.zero32 := by
  rw [val_main_v50_apply, val_main_v49_apply, val_main_v46_apply, val_main_v43_apply, val_main_v37_apply, v24_at, v36_at,
    v42_at, v45_at, v48_at, call0_at]
  simp only [Ideal.maximumf_def, Ideal.addf_def, Ideal.mulf_def, Ideal.subf_def]

/-! ## The second dense layer: the result -/

theorem lidx51 (i : Fin 10000) (j k : Fin 256) : lidx_main_v51 (ix2 i j) k = ix2 i k :=
  funext fun a => Fin.ext (by match a with | ⟨0, _⟩ => rfl | ⟨1, _⟩ => rfl)
theorem ridx51 (i : Fin 10000) (j k : Fin 256) : ridx_main_v51 (ix2 i j) k = ix2 k j :=
  funext fun a => Fin.ext (by match a with | ⟨0, _⟩ => rfl | ⟨1, _⟩ => rfl)

theorem result_eq (x0 : (⟨S10000x256, .f32⟩ : BufTy).Contents (Elt Ideal)) (x1 : (⟨S2x320000, .i32⟩ : BufTy).Contents (Elt Ideal)) (x2 : (⟨S320000x256, .f32⟩ : BufTy).Contents (Elt Ideal)) (x3 : (⟨S256x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S1, .f32⟩ : BufTy).Contents (Elt Ideal)) :
    val_main_v54 (F := Ideal) x0 x1 x2 x3 x4 x5 x6 x7 x8 x9
      = Spec.result Spec.varDev x0 (val_main_v14 (F := Ideal) x0 x1 x2) x3 x4 x5 x6 x7 x8 x9 := by
  funext p
  obtain ⟨i, j, rfl⟩ : ∃ (i : Fin 10000) (j : Fin 256), p = ix2 i j := ⟨p 0, p 1, eq_ix2 p⟩
  rw [val_main_v54_apply, val_main_v51_apply, v53_at, Ideal.addf_def]
  show _ = (∑ k : Fin 256, max (((Spec.dense1 (Spec.cell x9) x0 (val_main_v14 (F := Ideal) x0 x1 x2) x3 (Spec.row x4)) i k - Spec.mean (Spec.dense1 (Spec.cell x9) x0 (val_main_v14 (F := Ideal) x0 x1 x2) x3 (Spec.row x4)) k)
        * Ideal.rsqrt (Spec.varDev (Spec.dense1 (Spec.cell x9) x0 (val_main_v14 (F := Ideal) x0 x1 x2) x3 (Spec.row x4)) k + Spec.eps32) * x5 (ix1 k) + x6 (ix1 k)) Spec.zero32 * x7 (ix2 k j)) + x8 (ix1 j)
  refine congrArg (· + x8 (ix1 j)) (Finset.sum_congr rfl fun k _ => ?_)
  rw [lidx51, ridx51, v50_at]

end Cert.ReferenceIdeal.RefValue

end
-- ==== Proof.FiniteInputs.lean ====
/-
  From the precondition to real numbers. The precondition says of every float argument that each entry's absolute
  value is below +infinity; on the extended reals that makes each entry a real number. The aggregate (a scatter-add
  into zeros of products of gathered entries of x with entries of the edge features) is then real too: a gathered
  entry is an entry of x, and a finite sum of reals is real.
-/
import proofs.«152078_j21801253995167_1_alg».proof.Pre_finite_inputs
import proofs.«152078_j21801253995167_1_alg».proof.Proof.Gen.Pre_finite_inputs
import proofs.«152078_j21801253995167_1_alg».proof.Proof.Gen.ReferenceIdeal.Read
import Idealize.ShloMosaic.Lib.ReduceAll
import Idealize.ShloMosaic.PureOps.Ideal.Laws

noncomputable section

namespace Cert.Finite

open Idealize.ShloMosaic Idealize.ShloMosaic.ValueIdx

/-- Every entry of an array is a real number. -/
def Real {s : Shape} (x : s.Idx → EReal) : Prop := ∀ p, ∃ r : ℝ, x p = (r : EReal)

/-- The shape with no axes has a single index. -/
instance : Subsingleton (⟨0, ![]⟩ : Shape).Idx := ⟨fun a b => funext fun d => d.elim0⟩

/-- The f32 pattern of +infinity is the top of the extended reals. -/
theorem inf_eq_top : Ideal.ofBits .f32 0x7F800000#32 = (⊤ : EReal) := by simp [Ideal.ofBits, Ideal.ieee]

/-- An extended real whose absolute value max a (-a) is strictly below +infinity is a real number:
    at the bottom and at the top the absolute value is the top itself. -/
theorem real_of_abs_lt_inf (a : EReal)
    (h : Ideal.cmp .olt (max a (-a)) (Ideal.ofBits .f32 0x7F800000#32) = 1#1) : ∃ r : ℝ, a = (r : EReal) := by
  rw [inf_eq_top] at h
  induction a using EReal.rec with
  | bot => simp [Ideal.cmp] at h
  | coe r => exact ⟨r, rfl⟩
  | top => simp [Ideal.cmp] at h

/-- If the conjunction over all entries of "|x| < +infinity" holds, every entry of x is real; any shape. -/
theorem real_of_all {s : Shape} {axes : List (Fin s.rank)} (x : FVec Ideal s .f32)
    (hb : (⟨0, ![]⟩ : Shape).BroadcastsInDim s (![] : Fin 0 → Fin s.rank)) (init : IVec (⟨0, ![]⟩ : Shape) 1)
    (hr : s.ReducesTo axes (⟨0, ![]⟩ : Shape)) (hu : 0 < (⟨0, ![]⟩ : Shape).numel) (j : (⟨0, ![]⟩ : Shape).Idx)
    (e : Host.reduce IntOp.andi (cmpf (F := Ideal) .olt (Host.absf x)
      (broadcastInDim s ![] hb (constant (F := Ideal) (⟨0, ![]⟩ : Shape) .f32 0x7F800000#32))) init hr hu j = 1#1) : Real x := by
  intro p
  have := Host.reduce_andi_all _ init hr hu j e p
  exact real_of_abs_lt_inf (x p) this

open Cert.ReferenceIdeal in
/-- Under the precondition every float argument is real entry by entry. -/
theorem reals_of_pre [Cert.Pre_finite_inputs.Facts] (x0 : (⟨S10000x256, .f32⟩ : BufTy).Contents (Elt Ideal)) (x1 : (⟨S2x320000, .i32⟩ : BufTy).Contents (Elt Ideal)) (x2 : (⟨S320000x256, .f32⟩ : BufTy).Contents (Elt Ideal)) (x3 : (⟨S256x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S1, .f32⟩ : BufTy).Contents (Elt Ideal))
    (h : Cert.Pre_finite_inputs.fn (F := Ideal) x0 x1 x2 x3 x4 x5 x6 x7 x8 x9 = (fun _ => 1#1)) :
    Real x0 ∧ Real x2 ∧ Real x3 ∧ Real x4 ∧ Real x5 ∧ Real x6 ∧ Real x7 ∧ Real x8 ∧ Real x9 := by
  have h0 := congrFun h ValueIdx.ix0
  dsimp only [Cert.Pre_finite_inputs.fn, Cert.Pre_finite_inputs.fn_part1, Cert.Pre_finite_inputs.fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ _ _ _ e0, real_of_all _ _ _ _ _ _ e2, real_of_all _ _ _ _ _ _ e3, real_of_all _ _ _ _ _ _ e4,
    real_of_all _ _ _ _ _ _ e5, real_of_all _ _ _ _ _ _ e6, real_of_all _ _ _ _ _ _ e7, real_of_all _ _ _ _ _ _ e8,
    real_of_all _ _ _ _ _ _ e9⟩

/-- A finite sum of real numbers is a real number. -/
theorem real_sum {ι : Type} (t : Finset ι) (f : ι → EReal) (hf : ∀ j, ∃ r : ℝ, f j = (r : EReal)) :
    ∃ r : ℝ, ∑ j ∈ t, f j = (r : EReal) := by
  classical
  induction t using Finset.induction_on with
  | empty => exact ⟨0, by rw [Finset.sum_empty, EReal.coe_zero]⟩
  | insert a s ha ih =>
    obtain ⟨r, hr⟩ := ih
    obtain ⟨q, hq⟩ := hf a
    exact ⟨q + r, by rw [Finset.sum_insert ha, hr, hq, EReal.coe_add]⟩

/-- Zero plus a finite sum of real numbers is a real number. -/
theorem real_zero_add_sum {ι : Type} (t : Finset ι) (f : ι → EReal) (hf : ∀ j, ∃ r : ℝ, f j = (r : EReal)) (z : EReal)
    (hz : z = 0) : ∃ r : ℝ, z + ∑ j ∈ t, f j = (r : EReal) := by
  obtain ⟨r, hr⟩ := real_sum t f hf
  exact ⟨r, by rw [hz, zero_add, hr]⟩

open Cert.ReferenceIdeal in
/-- The aggregate of real node and edge features is real, whatever the edge indices. -/
theorem agg_real (x0 : (⟨S10000x256, .f32⟩ : BufTy).Contents (Elt Ideal)) (x1 : (⟨S2x320000, .i32⟩ : BufTy).Contents (Elt Ideal))
    (x2 : (⟨S320000x256, .f32⟩ : BufTy).Contents (Elt Ideal)) (h0 : Real x0) (h2 : Real x2) :
    Real (Cert.ReferenceIdeal.Read.val_main_v14 (F := Ideal) x0 x1 x2) := by
  intro p
  -- each update is an entry of x (whatever the gathered index) times an entry of the edge features
  have hu : ∀ j, ∃ r : ℝ, Cert.ReferenceIdeal.Read.val_main_v11 (F := Ideal) x0 x1 x2 j = (r : EReal) := by
    intro j
    rw [Cert.ReferenceIdeal.Read.val_main_v11_apply, Ideal.mulf_def]
    obtain ⟨a, ha⟩ : ∃ a : ℝ, Cert.ReferenceIdeal.Read.val_main_v10 (F := Ideal) x0 x1 j = (a : EReal) := by
      unfold Cert.ReferenceIdeal.Read.val_main_v10 Host.gather
      exact h0 _
    obtain ⟨b, hb⟩ := h2 j
    exact ⟨a * b, by rw [ha, hb, EReal.coe_mul]⟩
  -- the operand of the accumulation is zero everywhere
  have hz : Cert.ReferenceIdeal.Read.val_main_v12 (F := Ideal) p = 0 := by
    rw [Cert.ReferenceIdeal.Read.val_main_v12_apply, Cert.ReferenceIdeal.Read.val_main_cst_apply, Ideal.ofBits_def,
      Ideal.ofBits_zero_f32]
  unfold Cert.ReferenceIdeal.Read.val_main_v14 Host.scatterAdd
  rw [Ideal.hostScatterAdd_def]
  unfold Ideal.hostScatterAdd
  exact real_zero_add_sum _ _ hu _ hz

end Cert.Finite

end
-- ==== Proof.SpecLaws.lean ====
/-
  The laws that join the two forms of the result. On the extended reals subtraction and distribution fail at the
  infinities, so the variance identity mean((y - mu)^2) = mean(y^2) - mu^2 is proved for columns of real numbers,
  through the reals; the dense layer of real data is real; hence with real inputs the two results agree.
-/
import proofs.«152078_j21801253995167_1_alg».proof.Proof.Spec
import Mathlib.Data.EReal.Operations
import Mathlib.Algebra.BigOperators.Fin
import Mathlib.Algebra.BigOperators.Ring.Finset
import Mathlib.Tactic.Ring
import Mathlib.Tactic.FieldSimp
import Mathlib.Tactic.NormNum.Basic

noncomputable section

namespace Cert.Spec

open Idealize.ShloMosaic Idealize.ShloMosaic.ValueIdx

/-- The row-count word is the real number 10000. -/
theorem n32_eq : n32 = ((10000 : ℝ) : EReal) := by
  simp [Ideal.ofBits, Ideal.ieee, -EReal.coe_mul]; norm_num

/-- The unit word is the real number 1. -/
theorem one32_eq : one32 = ((1 : ℝ) : EReal) := by
  simp [Ideal.ofBits, Ideal.ieee, -EReal.coe_mul]; norm_num

/-- The embedding of the reals in the extended reals carries finite sums to finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number divided by the row count is the real quotient. -/
theorem div_n32 (r : ℝ) : Ideal.div (r : EReal) n32 = ((r / 10000 : ℝ) : EReal) := by
  rw [n32_eq, Ideal.div_coe (by norm_num), ← EReal.coe_mul]
  congr 1
  ring

/-- The variance identity over the reals, for 10000 entries: with m the mean,
    (∑ (g i - m)^2) / 10000 = (∑ (g i)^2) / 10000 - m^2. -/
theorem real_var (g : Fin 10000 → ℝ) :
    (∑ i, (g i - (∑ i, g i) / 10000) * (g i - (∑ i, g i) / 10000)) / 10000
      = (∑ i, g i * g i) / 10000 - (∑ i, g i) / 10000 * ((∑ i, g i) / 10000) := by
  have h : ∀ i, (g i - (∑ i, g i) / 10000) * (g i - (∑ i, g i) / 10000)
      = g i * g i - 2 * ((∑ i, g i) / 10000) * g i + (∑ i, g i) / 10000 * ((∑ i, g i) / 10000) := fun i => by ring
  simp only [h, Finset.sum_add_distrib, Finset.sum_sub_distrib, ← Finset.mul_sum, Finset.sum_const,
    Finset.card_univ, Fintype.card_fin, nsmul_eq_mul]
  push_cast
  field_simp
  ring

/-- On a column of reals the mean of the squared deviations is the mean of the squares less the squared mean. -/
theorem varDev_eq_varSq (a : Fin 10000 → Fin 256 → EReal) (ha : ∀ i j, ∃ r : ℝ, a i j = (r : EReal)) (j : Fin 256) :
    varDev a j = varSq a j := by
  choose f hf using ha
  have hmean : mean a j = (((∑ i, f i j) / 10000 : ℝ) : EReal) := by
    unfold mean
    simp only [hf]
    rw [← coe_sum, div_n32]
  unfold varDev varSq
  rw [hmean]
  simp only [hf]
  simp only [← EReal.coe_sub, ← EReal.coe_mul, ← coe_sum, div_n32]
  rw [real_var (fun i => f i j)]

/-- The first dense layer of real data is real. -/
theorem dense1_real (e : SC.Idx → EReal) (x agg : SN.Idx → EReal) (w1 : SW.Idx → EReal) (b1 : SR.Idx → EReal)
    (he : ∀ p, ∃ r : ℝ, e p = (r : EReal)) (hx : ∀ p, ∃ r : ℝ, x p = (r : EReal)) (hagg : ∀ p, ∃ r : ℝ, agg p = (r : EReal))
    (hw1 : ∀ p, ∃ r : ℝ, w1 p = (r : EReal)) (hb1 : ∀ p, ∃ r : ℝ, b1 p = (r : EReal)) (i : Fin 10000) (j : Fin 256) :
    ∃ r : ℝ, dense1 e x agg w1 b1 i j = (r : EReal) := by
  obtain ⟨re, hre⟩ := he (ix2 0 0)
  choose fx hfx using hx
  choose fa hfa using hagg
  choose fw hfw using hw1
  obtain ⟨rb, hrb⟩ := hb1 (ix2 0 j)
  refine ⟨(∑ k : Fin 256, ((1 + re) * fx (ix2 i k) + fa (ix2 i k)) * fw (ix2 k j)) + rb, ?_⟩
  unfold dense1
  rw [one32_eq, hre, hrb]
  simp only [hfx, hfa, hfw]
  simp only [EReal.coe_add, EReal.coe_mul, coe_sum]

/-- With real inputs to the first layer the result does not depend on which form of the variance is taken. -/
theorem result_varDev_eq_varSq (x agg : SN.Idx → EReal) (w1 : SW.Idx → EReal) (b1 gamma beta : SD.Idx → EReal)
    (w2 : SW.Idx → EReal) (b2 : SD.Idx → EReal) (e : SE.Idx → EReal)
    (hx : ∀ p, ∃ r : ℝ, x p = (r : EReal)) (hagg : ∀ p, ∃ r : ℝ, agg p = (r : EReal))
    (hw1 : ∀ p, ∃ r : ℝ, w1 p = (r : EReal)) (hb1 : ∀ p, ∃ r : ℝ, b1 p = (r : EReal)) (he : ∀ p, ∃ r : ℝ, e p = (r : EReal)) :
    result varDev x agg w1 b1 gamma beta w2 b2 e = result varSq x agg w1 b1 gamma beta w2 b2 e := by
  have hcell : ∀ p, ∃ r : ℝ, cell e p = (r : EReal) := fun _ => he (ix1 0)
  have hrow : ∀ p, ∃ r : ℝ, row b1 p = (r : EReal) := fun p => hb1 (ix1 (p 1))
  have hv : varDev (dense1 (cell e) x agg w1 (row b1)) = varSq (dense1 (cell e) x agg w1 (row b1)) :=
    funext fun j => varDev_eq_varSq _ (fun i j => dense1_real _ _ _ _ _ hcell hx hagg hw1 hrow i j) j
  funext p
  unfold result
  rw [hv]

end Cert.Spec

end
-- ==== Proof.lean ====
/-
  The certificate of the GIN layer with a batch-normalised two-layer perceptron: a Pallas kernel of two pipelined
  regions (dense layer with running batch statistics; normalise, rectify, dense layer) against its jnp reference.

  Frames. The kernel program, at the word-level instance and at the ideal one, is the host prefix followed by the two
  regions; each region's body is run in its control cases, the first region carrying its two running column sums in
  scratch memory between grid points inside the region invariant; every execution terminates and no argument is
  written. The reference is a straight line of host operations.

  Values, at the ideal instance. Both programs form y = ((1 + eps) x + agg) W1 + b1 with the same aggregate, take the
  column means of y, and then differ: the kernel accumulates sum(y) and sum(y^2) block by block and takes
  var = mean(y^2) - mean(y)^2, the reference takes var = mean((y - mean(y))^2). On the extended reals these agree
  because the precondition makes every argument entry a real number, hence every entry of y: the identity is proved
  through the reals. Everything after the variance (normalisation with the shared epsilon word, the rectifier, the
  second dense layer) is the same function of the same values on both sides.
-/
import proofs.«152078_j21801253995167_1_alg».proof.Defs
import proofs.«152078_j21801253995167_1_alg».proof.Proof.Gen.Kernel
import proofs.«152078_j21801253995167_1_alg».proof.Proof.Gen.KernelIdeal
import proofs.«152078_j21801253995167_1_alg».proof.Proof.Gen.ReferenceIdeal
import proofs.«152078_j21801253995167_1_alg».proof.Proof.Gen.Pre_finite_inputs
import proofs.«152078_j21801253995167_1_alg».proof.Proof.KbRun
import proofs.«152078_j21801253995167_1_alg».proof.Proof.KiRun
import proofs.«152078_j21801253995167_1_alg».proof.Proof.KiResult
import proofs.«152078_j21801253995167_1_alg».proof.Proof.RefValue
import proofs.«152078_j21801253995167_1_alg».proof.Proof.FiniteInputs
import proofs.«152078_j21801253995167_1_alg».proof.Proof.SpecLaws
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ =>
  (θ_run Cert.Kernel.defs _ _).mono (fun _ h c => (h c).2) (Cert.Kernel.Hand.run_main (F := Bits) m ρ)

/-- The same program read at the ideal instance. -/
theorem frame_kernelIdeal : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- Both programs end with the specification's result: the kernel with the variance as mean(y^2) - mean(y)^2, the
    reference with mean((y - mean(y))^2), equal here because the inputs, the aggregate and so y are real entry by entry. -/
theorem algebraic : Cert.algebraic_KernelIdeal_ReferenceIdeal := by
  intro m ρ m' ρ' hpre hagree
  refine ⟨fun c => Cert.Spec.result Cert.Spec.varSq (m ((c.tc : Thread Cert.KernelIdeal.nD Cert.KernelIdeal.τ).loc Cert.KernelIdeal.main_arg0))
      (Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.kernel_result m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    obtain ⟨r0, r2, r3, r4, r5, r6, r7, r8, r9⟩ := Cert.Finite.reals_of_pre _ _ _ _ _ _ _ _ _ _ (hpre c)
    rw [Cert.ReferenceIdeal.Read.val_main_v54_eq, Cert.ReferenceIdeal.RefValue.result_eq, a0, a1, a2, a3, a4, a5, a6, a7, a8, a9]
    exact Cert.Spec.result_varDev_eq_varSq _ _ _ _ _ _ _ _ _ r0 (Cert.Finite.agg_real _ _ _ r0 r2) r3 r4 r9

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
